-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S5532x256 : Shape := ⟨2, ![5532, 256]⟩
abbrev S5000x256 : Shape := ⟨2, ![5000, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192 : S_.BroadcastsInDim S8192 (![] : Fin 0 → Fin S8192.rank)
  reducesTo_S8192_S_d0 : S8192.ReducesTo [0] S_
  bcast_S_S5532x256 : S_.BroadcastsInDim S5532x256 (![] : Fin 0 → Fin S5532x256.rank)
  reducesTo_S5532x256_S_d0_1 : S5532x256.ReducesTo [0, 1] S_
  bcast_S_S5000x256 : S_.BroadcastsInDim S5000x256 (![] : Fin 0 → Fin S5000x256.rank)
  reducesTo_S5000x256_S_d0_1 : S5000x256.ReducesTo [0, 1] S_

variable [Facts]

def fn_part1 {F : FTy → Type} [FloatOps F] (main_arg1 : IVec S8192 32) (main_v13 : IVec S_ 1) (main_v16 : IVec S5000x256 1) : IVec S_ 1 :=
  let main_c_5 : IVec S_ 1 := constantI S_ 1 1#1
  let main_v17 : IVec S_ 1 := (fun x v => Host.reduce IntOp.andi x v reducesTo_S5000x256_S_d0_1 h_S_) main_v16 main_c_5
  let main_v18 : IVec S_ 1 := andi main_v13 main_v17
  let main_c_6 : IVec S_ 32 := constantI S_ 32 1#32
  let main_v19 : IVec S8192 32 := broadcastInDim S8192 ![] bcast_S_S8192 main_c_6
  let main_v20 : IVec S8192 1 := cmpi .sge main_arg1 main_v19
  let main_c_7 : IVec S_ 1 := constantI S_ 1 1#1
  let main_v21 : IVec S_ 1 := (fun x v => Host.reduce IntOp.andi x v reducesTo_S8192_S_d0 h_S_) main_v20 main_c_7
  let main_v22 : IVec S_ 1 := andi main_v18 main_v21
  let main_c_8 : IVec S_ 32 := constantI S_ 32 10532#32
  let main_v23 : IVec S8192 32 := broadcastInDim S8192 ![] bcast_S_S8192 main_c_8
  let main_v24 : IVec S8192 1 := cmpi .sle main_arg1 main_v23
  let main_c_9 : IVec S_ 1 := constantI S_ 1 1#1
  let main_v25 : IVec S_ 1 := (fun x v => Host.reduce IntOp.andi x v reducesTo_S8192_S_d0 h_S_) main_v24 main_c_9
  let main_v26 : IVec S_ 1 := andi main_v22 main_v25
  main_v26

def fn {F : FTy → Type} [FloatOps F] (main_arg0 : FVec F S8192x256 .f32) (main_arg1 : IVec S8192 32) (main_arg2 : FVec F S8192 .f32) (main_arg3 : FVec F S5532x256 .f32) (main_arg4 : FVec F S5000x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S5532x256 .f32 := Host.absf main_arg3
  let main_cst_2 : FVec F S_ .f32 := constant S_ .f32 0x7F800000#32
  let main_v10 : FVec F S5532x256 .f32 := broadcastInDim S5532x256 ![] bcast_S_S5532x256 main_cst_2
  let main_v11 : IVec S5532x256 1 := cmpf .olt main_v9 main_v10
  let main_c_3 : IVec S_ 1 := constantI S_ 1 1#1
  let main_v12 : IVec S_ 1 := (fun x v => Host.reduce IntOp.andi x v reducesTo_S5532x256_S_d0_1 h_S_) main_v11 main_c_3
  let main_v13 : IVec S_ 1 := andi main_v8 main_v12
  let main_v14 : FVec F S5000x256 .f32 := Host.absf main_arg4
  let main_cst_4 : FVec F S_ .f32 := constant S_ .f32 0x7F800000#32
  let main_v15 : FVec F S5000x256 .f32 := broadcastInDim S5000x256 ![] bcast_S_S5000x256 main_cst_4
  let main_v16 : IVec S5000x256 1 := cmpf .olt main_v14 main_v15
  fn_part1 (F := F) main_arg1 main_v13 main_v16
-- ==== Kernel.lean ====
abbrev S8192x256 : Shape := ⟨2, ![8192, 256]⟩
abbrev S8192 : Shape := ⟨1, ![8192]⟩
abbrev S5532x256 : Shape := ⟨2, ![5532, 256]⟩
abbrev S5000x256 : Shape := ⟨2, ![5000, 256]⟩
abbrev S_ : Shape := ⟨0, ![]⟩
abbrev S10532x256 : Shape := ⟨2, ![10532, 256]⟩
abbrev S10752x256 : Shape := ⟨2, ![10752, 256]⟩
abbrev S8192x1 : Shape := ⟨2, ![8192, 1]⟩
abbrev S1024x256 : Shape := ⟨2, ![1024, 256]⟩
abbrev S1792x256 : Shape := ⟨2, ![1792, 256]⟩
abbrev S1024x1 : Shape := ⟨2, ![1024, 1]⟩
abbrev S1024x1792 : Shape := ⟨2, ![1024, 1792]⟩
abbrev S1024 : Shape := ⟨1, ![1024]⟩

abbrev nBuf : Space → Nat
  | .hbm => 76
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192, .f32⟩
  | .hbm, ⟨3, _⟩ => ⟨S5532x256, .f32⟩
  | .hbm, ⟨4, _⟩ => ⟨S5000x256, .f32⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S_, .i32⟩
  | .hbm, ⟨9, _⟩ => ⟨S8192, .i32⟩
  | .hbm, ⟨10, _⟩ => ⟨S8192, .i1⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S8192, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S10532x256, .f32⟩
  | .hbm, ⟨28, _⟩ => ⟨S_, .i32⟩
  | .hbm, ⟨29, _⟩ => ⟨S_, .f32⟩
  | .hbm, ⟨30, _⟩ => ⟨S10752x256, .f32⟩
  | .hbm, ⟨31, _⟩ => ⟨S10752x256, .bf16⟩
  | .hbm, ⟨32, _⟩ => ⟨S8192x256, .bf16⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .i32⟩
  | .hbm, ⟨40, _⟩ => ⟨S8192x1, .i32⟩
  | .hbm, ⟨41, _⟩ => ⟨S8192x256, .bf16⟩
  | .hbm, ⟨42, _⟩ => ⟨S8192x256, .f32⟩
  | .hbm, ⟨43, _⟩ => ⟨S8192x256, .f32⟩
  | .hbm, ⟨44, _⟩ => ⟨S8192x256, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .i1⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .i1⟩
  | .hbm, ⟨74, _⟩ => ⟨S_, .f32⟩
  | .hbm, ⟨75, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1792x256, .bf16⟩
  | .local _ .vmem, ⟨3, _⟩ => ⟨S1792x256, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_c_4 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v10 : Ref sig .tc := ⟨.hbm, 26, rfl⟩
abbrev main_v11 : Ref sig .tc := ⟨.hbm, 27, rfl⟩
abbrev main_c_5 : Ref sig .tc := ⟨.hbm, 28, rfl⟩
abbrev main_call1_v0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_6 : Ref sig .tc := ⟨.hbm, 33, rfl⟩
abbrev main_v15 : Ref sig .tc := ⟨.hbm, 34, rfl⟩
abbrev main_v16 : Ref sig .tc := ⟨.hbm, 35, rfl⟩
abbrev main_c_7 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst : Ref sig .tc := ⟨.hbm, 45, rfl⟩
abbrev main_v25 : Ref sig .tc := ⟨.hbm, 46, rfl⟩
abbrev main_v26 : Ref sig .tc := ⟨.hbm, 47, rfl⟩
abbrev main_cst_8 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_cst_10 : Ref sig .tc := ⟨.hbm, 56, rfl⟩
abbrev main_v33 : Ref sig .tc := ⟨.hbm, 57, rfl⟩
abbrev main_cst_11 : Ref sig .tc := ⟨.hbm, 58, rfl⟩
abbrev main_call2_v0 : Ref sig .tc := ⟨.hbm, 59, rfl⟩
abbrev main_call2_v1 : Ref sig .tc := ⟨.hbm, 60, rfl⟩
abbrev main_v34 : Ref sig .tc := ⟨.hbm, 61, rfl⟩
abbrev main_cst_12 : Ref sig .tc := ⟨.hbm, 62, rfl⟩
abbrev main_v35 : Ref sig .tc := ⟨.hbm, 63, rfl⟩
abbrev main_v36 : Ref sig .tc := ⟨.hbm, 64, rfl⟩
abbrev main_call3_v0 : Ref sig .tc := ⟨.hbm, 65, rfl⟩
abbrev main_call3_cst : Ref sig .tc := ⟨.hbm, 66, rfl⟩
abbrev main_call3_v1 : Ref sig .tc := ⟨.hbm, 67, rfl⟩
abbrev main_call3_cst_0 : Ref sig .tc := ⟨.hbm, 68, rfl⟩
abbrev main_call3_v2 : Ref sig .tc := ⟨.hbm, 69, rfl⟩
abbrev main_call3_cst_1 : Ref sig .tc := ⟨.hbm, 70, rfl⟩
abbrev main_call3_v3 : Ref sig .tc := ⟨.hbm, 71, rfl⟩
abbrev main_call3_cst_2 : Ref sig .tc := ⟨.hbm, 72, rfl⟩
abbrev main_call3_v4 : Ref sig .tc := ⟨.hbm, 73, rfl⟩
abbrev main_call3_cst_3 : Ref sig .tc := ⟨.hbm, 74, rfl⟩
abbrev main_v37 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 6], ![false, false]⟩

def k0_cond2 (i : grid0.Coords) : BitVec 1 :=
  let arg1 : BitVec 32 := BitVec.ofNat 32 (i 1).val
  let c5_i32 : BitVec 32 := 5#32
  let v10 : BitVec 1 := Scalar.cmpi .eq arg1 c5_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1792x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S8192 : S_.BroadcastsInDim S8192 (![] : Fin 0 → Fin S8192.rank)
  concatenates_S5532x256_S5000x256_S10532x256_d0 : Shape.Concatenates [S5532x256, S5000x256] S10532x256 0
  pads_S10532x256_S10752x256_02200_000 : S10532x256.Pads (![0, 0] : Fin 2 → Nat) ![220, 0] ![0, 0] S10752x256
  h_S_ : 0 < S_.numel
  bitsLt_bf16_f32 : FTy.bits .bf16 < FTy.bits .f32
  bcast_S8192_S8192x1_0 : S8192.BroadcastsInDim S8192x1 (![0] : Fin 1 → Fin S8192x1.rank)
  reducesTo_S8192x256_S8192_d1 : S8192x256.ReducesTo [1] S8192
  bcast_S_S8192x1 : S_.BroadcastsInDim S8192x1 (![] : Fin 0 → Fin S8192x1.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1792x256_S1792x256_0_0 : ∀ a, (![0, 0] : Fin 2 → Nat) a + S1792x256.size a ≤ S1792x256.size a
  h_S1792x256 : 0 < S1792x256.numel
  shapeCasts_S1792x256_S1792x256 : S1792x256.ShapeCasts S1792x256
  iota_S1024x1792_d1_w32 : S1024x1792.Iotas .tc 32 [1]
  reduces_S1024x1792_S1024 : S1024x1792.Reduces [1] S1024
  shapeCasts_S1024_S1024x1 : S1024.ShapeCasts S1024x1
  broadcasts_S1024x1_S1024x1792 : S1024x1.Broadcasts S1024x1792
  shapeCasts_S8192x1_S8192 : S8192x1.ShapeCasts S8192
  reducesTo_S8192_S_d0 : S8192.ReducesTo [0] S_
  gather_S10752x256_S8192x1_S8192x256_1_0_n_n_0_1_1256_wf : GatherDims.WF S10752x256 S8192x1 S8192x256 [1] [0] [] [0] [] 1 ![1, 256]
  dot_S1024x256_S1792x256_S1024x1792_1_1_0_0_n_n_wf : DotDims.WF S1024x256 S1792x256 S1024x1792 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1792x256.size a ≤ S10752x256.size a
  hwx0_1 : ∀ i : grid0.Coords, EltTy.bits .bf16 = 32 ∨ (Rect.block (s := S10752x256) S1792x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def gather_S10752x256_S8192x1_S8192x256_1_0_n_n_0_1_1256 : GatherDims S10752x256 S8192x1 S8192x256 where
  offsetDims := [1]
  collapsedSliceDims := [0]
  operandBatchingDims := []
  startIndicesBatchingDims := []
  startIndexMap := [0]
  indexVectorDim := 1
  sliceSizes := ![1, 256]
  wf := gather_S10752x256_S8192x1_S8192x256_1_0_n_n_0_1_1256_wf
def dot_S1024x256_S1792x256_S1024x1792_1_1_0_0_n_n : DotDims S1024x256 S1792x256 S1024x1792 where
  lhsContracting := [1]
  rhsContracting := [1]
  lhsNonContracting := [0]
  rhsNonContracting := [0]
  lhsBatch := []
  rhsBatch := []
  wf := dot_S1024x256_S1792x256_S1024x1792_1_1_0_0_n_n_wf

abbrev win0_0 : Pipeline.Window sig grid0 :=
  Pipeline.Window.ofSpec (Memref.whole main_v14) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1792x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S5532x256 : Shape := ⟨2, ![5532, 256]⟩
abbrev S5000x256 : Shape := ⟨2, ![5000, 256]⟩
abbrev S_ : Shape := ⟨0, ![]⟩
abbrev S8192x5532 : Shape := ⟨2, ![8192, 5532]⟩
abbrev S8192x5000 : Shape := ⟨2, ![8192, 5000]⟩
abbrev S8192x10532 : Shape := ⟨2, ![8192, 10532]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 80
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192, .f32⟩
  | .hbm, ⟨3, _⟩ => ⟨S5532x256, .f32⟩
  | .hbm, ⟨4, _⟩ => ⟨S5000x256, .f32⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S8192x5532, .f32⟩
  | .hbm, ⟨9, _⟩ => ⟨S8192x5000, .f32⟩
  | .hbm, ⟨10, _⟩ => ⟨S8192x10532, .f32⟩
  | .hbm, ⟨11, _⟩ => ⟨S_, .f32⟩
  | .hbm, ⟨12, _⟩ => ⟨S8192x10532, .f32⟩
  | .hbm, ⟨13, _⟩ => ⟨S8192x10532, .f32⟩
  | .hbm, ⟨14, _⟩ => ⟨S_, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192x1, .f32⟩
  | .hbm, ⟨20, _⟩ => ⟨S8192x10532, .f32⟩
  | .hbm, ⟨21, _⟩ => ⟨S8192x10532, .f32⟩
  | .hbm, ⟨22, _⟩ => ⟨S8192x10532, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S8192x1, .f32⟩
  | .hbm, ⟨27, _⟩ => ⟨S8192x10532, .f32⟩
  | .hbm, ⟨28, _⟩ => ⟨S8192x10532, .f32⟩
  | .hbm, ⟨29, _⟩ => ⟨S8192x1, .i32⟩
  | .hbm, ⟨30, _⟩ => ⟨S_, .i32⟩
  | .hbm, ⟨31, _⟩ => ⟨S8192x1, .i32⟩
  | .hbm, ⟨32, _⟩ => ⟨S8192x1, .i1⟩
  | .hbm, ⟨33, _⟩ => ⟨S_, .i32⟩
  | .hbm, ⟨34, _⟩ => ⟨S8192x1, .i32⟩
  | .hbm, ⟨35, _⟩ => ⟨S8192x1, .i32⟩
  | .hbm, ⟨36, _⟩ => ⟨S8192x1, .i32⟩
  | .hbm, ⟨37, _⟩ => ⟨S8192x1x1, .i32⟩
  | .hbm, ⟨38, _⟩ => ⟨S1, .i32⟩
  | .hbm, ⟨39, _⟩ => ⟨S_, .i32⟩
  | .hbm, ⟨40, _⟩ => ⟨S8192x1x1, .i32⟩
  | .hbm, ⟨41, _⟩ => ⟨S8192x1x1, .i1⟩
  | .hbm, ⟨42, _⟩ => ⟨S1x1x1, .i32⟩
  | .hbm, ⟨43, _⟩ => ⟨S8192x1x1, .i32⟩
  | .hbm, ⟨44, _⟩ => ⟨S8192x1x1, .i1⟩
  | .hbm, ⟨45, _⟩ => ⟨S8192x1x1, .i1⟩
  | .hbm, ⟨46, _⟩ => ⟨S_, .i1⟩
  | .hbm, ⟨47, _⟩ => ⟨S8192x1, .i1⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192, .f32⟩
  | .hbm, ⟨53, _⟩ => ⟨S8192, .f32⟩
  | .hbm, ⟨54, _⟩ => ⟨S_, .i32⟩
  | .hbm, ⟨55, _⟩ => ⟨S8192, .i32⟩
  | .hbm, ⟨56, _⟩ => ⟨S8192, .i1⟩
  | .hbm, ⟨57, _⟩ => ⟨S8192, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .i1⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .i1⟩
  | .hbm, ⟨78, _⟩ => ⟨S_, .f32⟩
  | .hbm, ⟨79, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_1 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v7 : Ref sig .tc := ⟨.hbm, 28, rfl⟩
abbrev main_v8 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_c_0 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_cst_1 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_cst_3 : Ref sig .tc := ⟨.hbm, 62, rfl⟩
abbrev main_call2_v0 : Ref sig .tc := ⟨.hbm, 63, rfl⟩
abbrev main_call2_v1 : Ref sig .tc := ⟨.hbm, 64, rfl⟩
abbrev main_v17 : Ref sig .tc := ⟨.hbm, 65, rfl⟩
abbrev main_cst_4 : Ref sig .tc := ⟨.hbm, 66, rfl⟩
abbrev main_v18 : Ref sig .tc := ⟨.hbm, 67, rfl⟩
abbrev main_v19 : Ref sig .tc := ⟨.hbm, 68, rfl⟩
abbrev main_call3_v0 : Ref sig .tc := ⟨.hbm, 69, rfl⟩
abbrev main_call3_cst : Ref sig .tc := ⟨.hbm, 70, rfl⟩
abbrev main_call3_v1 : Ref sig .tc := ⟨.hbm, 71, rfl⟩
abbrev main_call3_cst_0 : Ref sig .tc := ⟨.hbm, 72, rfl⟩
abbrev main_call3_v2 : Ref sig .tc := ⟨.hbm, 73, rfl⟩
abbrev main_call3_cst_1 : Ref sig .tc := ⟨.hbm, 74, rfl⟩
abbrev main_call3_v3 : Ref sig .tc := ⟨.hbm, 75, rfl⟩
abbrev main_call3_cst_2 : Ref sig .tc := ⟨.hbm, 76, rfl⟩
abbrev main_call3_v4 : Ref sig .tc := ⟨.hbm, 77, rfl⟩
abbrev main_call3_cst_3 : Ref sig .tc := ⟨.hbm, 78, rfl⟩
abbrev main_v20 : Ref sig .tc := ⟨.hbm, 79, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  concatenates_S8192x5532_S8192x5000_S8192x10532_d1 : Shape.Concatenates [S8192x5532, S8192x5000] S8192x10532 1
  bcast_S_S8192x10532 : S_.BroadcastsInDim S8192x10532 (![] : Fin 0 → Fin S8192x10532.rank)
  reducesTo_S8192x10532_S8192_d1 : S8192x10532.ReducesTo [1] S8192
  h_S_ : 0 < S_.numel
  bcast_S8192_S8192x1_0 : S8192.BroadcastsInDim S8192x1 (![0] : Fin 1 → Fin S8192x1.rank)
  bcast_S8192x1_S8192x10532_0_1 : S8192x1.BroadcastsInDim S8192x10532 (![0, 1] : Fin 2 → Fin S8192x10532.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  dot_S8192x256_S5532x256_S8192x5532_1_1_0_0_n_n_wf : DotDims.WF S8192x256 S5532x256 S8192x5532 [1] [1] [0] [0] [] []
  dot_S8192x256_S5000x256_S8192x5000_1_1_0_0_n_n_wf : DotDims.WF S8192x256 S5000x256 S8192x5000 [1] [1] [0] [0] [] []
  gather_S8192x10532_S8192x1x1_S8192x1_n_1_0_0_1_2_11_wf : GatherDims.WF S8192x10532 S8192x1x1 S8192x1 [] [1] [0] [1] [0] 2 ![1, 1]

variable [Facts₀]

def dot_S8192x256_S5532x256_S8192x5532_1_1_0_0_n_n : DotDims S8192x256 S5532x256 S8192x5532 where
  lhsContracting := [1]
  rhsContracting := [1]
  lhsNonContracting := [0]
  rhsNonContracting := [0]
  lhsBatch := []
  rhsBatch := []
  wf := dot_S8192x256_S5532x256_S8192x5532_1_1_0_0_n_n_wf
def dot_S8192x256_S5000x256_S8192x5000_1_1_0_0_n_n : DotDims S8192x256 S5000x256 S8192x5000 where
  lhsContracting := [1]
  rhsContracting := [1]
  lhsNonContracting := [0]
  rhsNonContracting := [0]
  lhsBatch := []
  rhsBatch := []
  wf := dot_S8192x256_S5000x256_S8192x5000_1_1_0_0_n_n_wf
def gather_S8192x10532_S8192x1x1_S8192x1_n_1_0_0_1_2_11 : GatherDims S8192x10532 S8192x1x1 S8192x1 where
  offsetDims := []
  collapsedSliceDims := [1]
  operandBatchingDims := [0]
  startIndicesBatchingDims := [0]
  startIndexMap := [1]
  indexVectorDim := 2
  sliceSizes := ![1, 1]
  wf := gather_S8192x10532_S8192x1x1_S8192x1_n_1_0_0_1_2_11_wf

class Facts : Prop extends Facts₀ where

variable [Facts]
-- ==== Proof.BitsCases.lean ====
import proofs.«415740_j40690520162428_3_alg».proof.Proof.Gen.Kernel.Launch
import proofs.«415740_j40690520162428_3_alg».proof.Proof.Gen.Kernel.Skeleton
import proofs.«415740_j40690520162428_3_alg».proof.Proof.Gen.Kernel.Points
import proofs.«415740_j40690520162428_3_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

-- membership in a rectangle of long extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions of the body, over the grid

The grid is 8 row tiles by 6 class tiles, point `t = qi * 6 + ki`. The body tests the class-tile
coordinate `ki` three times: `ki = 0` (the running maximum and the running sum are reset),
`ki = 5` (the last class tile: the masked update, then the output block is stored), and
`ki ≠ 5` (the unmasked update). -/

/-- The first condition: the class-tile coordinate is 0, as the body's scalar chain spells it. -/
abbrev cond0_0 (i : grid0.Coords) : Prop :=
  (Scalar.cmpi .ne (Scalar.extui (Scalar.cmpi .eq (BitVec.ofNat 32 (i 1).val) 0#32)) 0#32) = 1#1
/-- It holds at the points ≡ 0 (mod 6). -/
theorem hcond0_0 : ∀ t : Fin cfg0.N, cond0_0 (grid0.coords t) ↔ t.val % 6 = 0 :=
  (by decide +kernel : ∀ t : Fin grid0.N, cond0_0 (grid0.coords t) ↔ t.val % 6 = 0)

/-- The second condition: the class-tile coordinate is 5 (the last class tile). -/
abbrev cond0_1 (i : grid0.Coords) : Prop := k0_cond2 i = 1#1
/-- It holds at the points ≡ 5 (mod 6). -/
theorem hcond0_1 : ∀ t : Fin cfg0.N, cond0_1 (grid0.coords t) ↔ t.val % 6 = 5 :=
  (by decide +kernel : ∀ t : Fin grid0.N, cond0_1 (grid0.coords t) ↔ t.val % 6 = 5)

/-- The third condition: the class-tile coordinate is not 5, as the body's scalar chain spells it
    (the comparison with 5 negated by exclusive-or with true). -/
abbrev cond0_2 (i : grid0.Coords) : Prop :=
  (Scalar.cmpi .ne (Scalar.extui (Scalar.xori (Scalar.cmpi .eq (BitVec.ofNat 32 (i 1).val) 5#32) 1#1)) 0#32) = 1#1
/-- It holds at the points ≢ 5 (mod 6). -/
theorem hcond0_2 : ∀ t : Fin cfg0.N, cond0_2 (grid0.coords t) ↔ ¬ t.val % 6 = 5 :=
  (by decide +kernel : ∀ t : Fin grid0.N, cond0_2 (grid0.coords t) ↔ ¬ t.val % 6 = 5)

/-! ## Where the windows are idle

The three input windows are live at every point. The output window is stored only at the last
class tile of a row tile: elsewhere it is idle and its block is not written back. -/

/-- Input window 0 (the row block) is never idle. -/
theorem liveAt0_0 : ∀ t : Fin cfg0.N, cfg0.idle 0 (grid0.coords t) = false := by decide +kernel
/-- Input window 1 (the weight block) is never idle. -/
theorem liveAt0_1 : ∀ t : Fin cfg0.N, cfg0.idle 1 (grid0.coords t) = false := by decide +kernel
/-- Input window 2 (the target-logit block) is never idle. -/
theorem liveAt0_2 : ∀ t : Fin cfg0.N, cfg0.idle 2 (grid0.coords t) = false := by decide +kernel
/-- At a first class tile the output window is idle: nothing is stored into it. -/
theorem idleAt0_3_A : ∀ t : Fin cfg0.N, cond0_0 (grid0.coords t) → ¬cond0_1 (grid0.coords t) → cfg0.idle 3 (grid0.coords t) = true := by decide +kernel
/-- At a first class tile the output block is not written back. -/
theorem noFlush0_3_A : ∀ t : Fin cfg0.N, cond0_0 (grid0.coords t) → ¬cond0_1 (grid0.coords t) → (cfg0.win 3).flush t = false := by decide +kernel
/-- At a middle class tile the output window is idle: nothing is stored into it. -/
theorem idleAt0_3_B : ∀ t : Fin cfg0.N, ¬cond0_0 (grid0.coords t) → ¬cond0_1 (grid0.coords t) → cfg0.idle 3 (grid0.coords t) = true := by decide +kernel
/-- At a middle class tile the output block is not written back. -/
theorem noFlush0_3_B : ∀ t : Fin cfg0.N, ¬cond0_0 (grid0.coords t) → ¬cond0_1 (grid0.coords t) → (cfg0.win 3).flush t = false := by decide +kernel
/-- At the last class tile the output window is live: the block is stored whole. -/
theorem liveAt0_3_C : ∀ t : Fin cfg0.N, ¬cond0_0 (grid0.coords t) → cond0_1 (grid0.coords t) → cfg0.idle 3 (grid0.coords t) = false := by decide +kernel

/-! ## The memrefs the body is called with -/

/-- One staging buffer of the output window, through which its contents are stated (which of the
    two does not matter: both are whole buffers of the block's shape). -/
abbrev VO0_3 : View sig .tc .vmem S1024x1 .f32 := (Memref.whole cc0_stg3_0 : Memref sig .tc .vmem S1024x1 .f32).view
/-- Each window's current staging memref at point `t`, and its wholeness. -/
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1792x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
/-- The scratch holding the running maximum of a row tile's logits over the class tiles met so far. -/
abbrev scM0_0 : Memref sig .tc .vmem S1024x1 .f32 := Memref.whole cc0_scratch0
/-- The scratch holding the running sum of exponentials, relative to the running maximum. -/
abbrev scM0_1 : Memref sig .tc .vmem S1024x1 .f32 := Memref.whole cc0_scratch1
/-- The running maximum's scratch as a view: what it holds is stated through it. -/
abbrev VS0_0 : View sig .tc .vmem S1024x1 .f32 := scM0_0.view
/-- The running sum's scratch as a view. -/
abbrev VS0_1 : View sig .tc .vmem S1024x1 .f32 := scM0_1.view

/-- The region's invariant before the first point: both scratches owned whole at some contents,
    and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.BitsRunFirst.lean ====
import proofs.«415740_j40690520162428_3_alg».proof.Proof.BitsCases

-- membership in a rectangle of long extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- FIRST class tile of a row tile (the class-tile coordinate is 0). The running maximum is reset to
    -∞ and the running sum to 0, whatever the two scratches held; then the unmasked update: the new
    maximum is the larger of the old one and the row maxima of this tile's scaled logits, the sum is
    rescaled by the exponential of the maximum's decrease and the tile's exponentials are added. The
    output block is not touched. The pieces each scratch ends with are the witnesses; the statement
    is that the body, owning the three input blocks at their contents, the output buffer at any
    contents (handed back as it was) and the two scratches at anything, runs to a continuation that
    receives the inputs as they were and each scratch with its pieces written. -/
noncomputable def kernelRun0_A (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (hc2 : cond0_2 i)
    (x0 : Vec F S1024x256 .bf16) (x1 : Vec F S1792x256 .bf16) (x2 : Vec F S1024x1 .f32) :
    Σ' (L3 : List (View.Piece (Elt F) S1024x1 .f32)), Σ' (LS0 : List (View.Piece (Elt F) S1024x1 .f32)), { LS1 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0_kernel i arg2 harg2 arg3 harg3 arg4 harg4 arg5 harg5 arg6 harg6 arg7 harg7) K } := by
  refine ⟨[], ?_, ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.BitsRunMiddle.lean ====
import proofs.«415740_j40690520162428_3_alg».proof.Proof.BitsCases

-- membership in a rectangle of long extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- MIDDLE class tile (the class-tile coordinate is 1, 2, 3 or 4). No reset; the unmasked update of
    the running maximum and the running sum from what the point before left in the two scratches
    (`xs0`, `xs1`). The output block is not touched. The pieces each scratch ends with are the
    witnesses; the statement is that the body, owning the three input blocks at their contents, the
    output buffer at any contents (handed back as it was) and the two scratches at `xs0`, `xs1`,
    runs to a continuation that receives the inputs as they were and each scratch with its pieces
    written. -/
noncomputable def kernelRun0_B (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i)
    (x0 : Vec F S1024x256 .bf16) (x1 : Vec F S1792x256 .bf16) (x2 : Vec F S1024x1 .f32) (xs0 : Vec F S1024x1 .f32) (xs1 : Vec F S1024x1 .f32) :
    Σ' (L3 : List (View.Piece (Elt F) S1024x1 .f32)), Σ' (LS0 : List (View.Piece (Elt F) S1024x1 .f32)), { LS1 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0_kernel i arg2 harg2 arg3 harg3 arg4 harg4 arg5 harg5 arg6 harg6 arg7 harg7) K } := by
  refine ⟨[], ?_, ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.BitsRunLast.lean ====
import proofs.«415740_j40690520162428_3_alg».proof.Proof.BitsCases

-- membership in a rectangle of long extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- LAST class tile of a row tile (the class-tile coordinate is 5). The logits of the columns at or
    past the class count are replaced by the mask fill; then the update of the running maximum and
    the running sum from what the point before left (`xs0`, `xs1`); then the output block is
    stored whole: maximum plus logarithm of the sum, minus the target logit. The pieces the output
    buffer and each scratch end with are the witnesses; the statement is that the body, owning the
    three input blocks at their contents, the output buffer at anything and the two scratches at
    `xs0`, `xs1`, runs to a continuation that receives the inputs as they were and the output
    buffer and each scratch with its pieces written. -/
noncomputable def kernelRun0_C (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i)
    (x0 : Vec F S1024x256 .bf16) (x1 : Vec F S1792x256 .bf16) (x2 : Vec F S1024x1 .f32) (xs0 : Vec F S1024x1 .f32) (xs1 : Vec F S1024x1 .f32) :
    Σ' (L3 : List (View.Piece (Elt F) S1024x1 .f32)), Σ' (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, ?_, fun E K => ?run⟩
  case run =>
    simp only [cc0_kernel_eq_skeleton, k0_part1_eq_skeleton]; unfold cc0_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Hand

end
-- ==== Proof.BitsFrame.lean ====
import proofs.«415740_j40690520162428_3_alg».proof.Proof.BitsRunFirst
import proofs.«415740_j40690520162428_3_alg».proof.Proof.BitsRunMiddle
import proofs.«415740_j40690520162428_3_alg».proof.Proof.BitsRunLast

-- membership in a rectangle of long extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output buffer and in the two scratches -/

/-- At the first class tile nothing is stored into the output block: no pieces. A placeholder (junk read
    back) that nothing consults: at these points the block is neither written back nor read at the
    next point. -/
def out0_A_3 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (hc2 : cond0_2 i)
    (x0 : Vec F S1024x256 .bf16) (x1 : Vec F S1792x256 .bf16) (x2 : Vec F S1024x1 .f32) : Vec F S1024x1 .f32 :=
  VO0_3.read (Elt F) (VO0_3.writes (Elt F) VO0_3.junk (kernelRun0_A c i arg2 harg2 arg3 harg3 arg4 harg4 arg5 harg5 arg6 harg6 arg7 harg7 hc0 hc1 hc2 x0 x1 x2).1)

/-- The pieces the first class tile leaves in the scratch of the running maximum are whole-block stores: they
    tile the scratch, so they cover it. -/
theorem scover0_A_0 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (hc2 : cond0_2 i)
    (x0 : Vec F S1024x256 .bf16) (x1 : Vec F S1792x256 .bf16) (x2 : Vec F S1024x1 .f32) (y : S1024x1.Idx) :
    ∃ pc ∈ (kernelRun0_A c i arg2 harg2 arg3 harg3 arg4 harg4 arg5 harg5 arg6 harg6 arg7 harg7 hc0 hc1 hc2 x0 x1 x2).2.1, y ∈ pc.1.set :=
  View.cover_of_tiledL (kernelRun0_A c i arg2 harg2 arg3 harg3 arg4 harg4 arg5 harg5 arg6 harg6 arg7 harg7 hc0 hc1 hc2 x0 x1 x2).2.1 S1024x1.size (by sl_kernel_rfl) y

/-- What the first class tile leaves in the scratch of the running maximum: its pieces read back over junk. -/
def sout0_A_0 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (hc2 : cond0_2 i)
    (x0 : Vec F S1024x256 .bf16) (x1 : Vec F S1792x256 .bf16) (x2 : Vec F S1024x1 .f32) : Vec F S1024x1 .f32 :=
  VS0_0.read (Elt F) (VS0_0.writes (Elt F) VS0_0.junk (kernelRun0_A c i arg2 harg2 arg3 harg3 arg4 harg4 arg5 harg5 arg6 harg6 arg7 harg7 hc0 hc1 hc2 x0 x1 x2).2.1)

/-- The pieces the first class tile leaves in the scratch of the running sum are whole-block stores: they
    tile the scratch, so they cover it. -/
theorem scover0_A_1 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (hc2 : cond0_2 i)
    (x0 : Vec F S1024x256 .bf16) (x1 : Vec F S1792x256 .bf16) (x2 : Vec F S1024x1 .f32) (y : S1024x1.Idx) :
    ∃ pc ∈ (kernelRun0_A c i arg2 harg2 arg3 harg3 arg4 harg4 arg5 harg5 arg6 harg6 arg7 harg7 hc0 hc1 hc2 x0 x1 x2).2.2.1, y ∈ pc.1.set :=
  View.cover_of_tiledL (kernelRun0_A c i arg2 harg2 arg3 harg3 arg4 harg4 arg5 harg5 arg6 harg6 arg7 harg7 hc0 hc1 hc2 x0 x1 x2).2.2.1 S1024x1.size (by sl_kernel_rfl) y

/-- What the first class tile leaves in the scratch of the running sum: its pieces read back over junk. -/
def sout0_A_1 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (hc2 : cond0_2 i)
    (x0 : Vec F S1024x256 .bf16) (x1 : Vec F S1792x256 .bf16) (x2 : Vec F S1024x1 .f32) : Vec F S1024x1 .f32 :=
  VS0_1.read (Elt F) (VS0_1.writes (Elt F) VS0_1.junk (kernelRun0_A c i arg2 harg2 arg3 harg3 arg4 harg4 arg5 harg5 arg6 harg6 arg7 harg7 hc0 hc1 hc2 x0 x1 x2).2.2.1)

/-- At a middle class tile nothing is stored into the output block: no pieces. A placeholder (junk read
    back) that nothing consults: at these points the block is neither written back nor read at the
    next point. -/
def out0_B_3 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i)
    (x0 : Vec F S1024x256 .bf16) (x1 : Vec F S1792x256 .bf16) (x2 : Vec F S1024x1 .f32) (xs0 : Vec F S1024x1 .f32) (xs1 : Vec F S1024x1 .f32) : Vec F S1024x1 .f32 :=
  VO0_3.read (Elt F) (VO0_3.writes (Elt F) VO0_3.junk (kernelRun0_B c i arg2 harg2 arg3 harg3 arg4 harg4 arg5 harg5 arg6 harg6 arg7 harg7 hc0 hc1 hc2 x0 x1 x2 xs0 xs1).1)

/-- The pieces a middle class tile leaves in the scratch of the running maximum are whole-block stores: they
    tile the scratch, so they cover it. -/
theorem scover0_B_0 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i)
    (x0 : Vec F S1024x256 .bf16) (x1 : Vec F S1792x256 .bf16) (x2 : Vec F S1024x1 .f32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 hc0 hc1 hc2 x0 x1 x2 xs0 xs1).2.1, y ∈ pc.1.set :=
  View.cover_of_tiledL (kernelRun0_B c i arg2 harg2 arg3 harg3 arg4 harg4 arg5 harg5 arg6 harg6 arg7 harg7 hc0 hc1 hc2 x0 x1 x2 xs0 xs1).2.1 S1024x1.size (by sl_kernel_rfl) y

/-- What a middle class tile leaves in the scratch of the running maximum: its pieces read back over junk. -/
def sout0_B_0 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i)
    (x0 : Vec F S1024x256 .bf16) (x1 : Vec F S1792x256 .bf16) (x2 : Vec F S1024x1 .f32) (xs0 : Vec F S1024x1 .f32) (xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 hc2 x0 x1 x2 xs0 xs1).2.1)

/-- The pieces a middle class tile leaves in the scratch of the running sum are whole-block stores: they
    tile the scratch, so they cover it. -/
theorem scover0_B_1 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i)
    (x0 : Vec F S1024x256 .bf16) (x1 : Vec F S1792x256 .bf16) (x2 : Vec F S1024x1 .f32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 hc0 hc1 hc2 x0 x1 x2 xs0 xs1).2.2.1, y ∈ pc.1.set :=
  View.cover_of_tiledL (kernelRun0_B c i arg2 harg2 arg3 harg3 arg4 harg4 arg5 harg5 arg6 harg6 arg7 harg7 hc0 hc1 hc2 x0 x1 x2 xs0 xs1).2.2.1 S1024x1.size (by sl_kernel_rfl) y

/-- What a middle class tile leaves in the scratch of the running sum: its pieces read back over junk. -/
def sout0_B_1 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i)
    (x0 : Vec F S1024x256 .bf16) (x1 : Vec F S1792x256 .bf16) (x2 : Vec F S1024x1 .f32) (xs0 : Vec F S1024x1 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 hc0 hc1 hc2 x0 x1 x2 xs0 xs1).2.2.1)

/-- At the last class tile the one store into the output buffer is of the whole block: its pieces
    tile the block, so they cover it. -/
theorem cover0_C_3 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i)
    (x0 : Vec F S1024x256 .bf16) (x1 : Vec F S1792x256 .bf16) (x2 : Vec F S1024x1 .f32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 hc0 hc1 hc2 x0 x1 x2 xs0 xs1).1, y ∈ pc.1.set :=
  View.cover_of_tiledL (kernelRun0_C c i arg2 harg2 arg3 harg3 arg4 harg4 arg5 harg5 arg6 harg6 arg7 harg7 hc0 hc1 hc2 x0 x1 x2 xs0 xs1).1 S1024x1.size (by sl_kernel_rfl) y

/-- What the last class tile leaves in the output buffer: its pieces read back over junk (the row
    tile's maximum plus the logarithm of its sum, minus the target logit). -/
def out0_C_3 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i)
    (x0 : Vec F S1024x256 .bf16) (x1 : Vec F S1792x256 .bf16) (x2 : Vec F S1024x1 .f32) (xs0 : Vec F S1024x1 .f32) (xs1 : Vec F S1024x1 .f32) : Vec F S1024x1 .f32 :=
  VO0_3.read (Elt F) (VO0_3.writes (Elt F) VO0_3.junk (kernelRun0_C c i arg2 harg2 arg3 harg3 arg4 harg4 arg5 harg5 arg6 harg6 arg7 harg7 hc0 hc1 hc2 x0 x1 x2 xs0 xs1).1)

/-- The pieces the last class tile leaves in the scratch of the running maximum are whole-block stores: they
    tile the scratch, so they cover it. -/
theorem scover0_C_0 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i)
    (x0 : Vec F S1024x256 .bf16) (x1 : Vec F S1792x256 .bf16) (x2 : Vec F S1024x1 .f32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 hc0 hc1 hc2 x0 x1 x2 xs0 xs1).2.1, y ∈ pc.1.set :=
  View.cover_of_tiledL (kernelRun0_C c i arg2 harg2 arg3 harg3 arg4 harg4 arg5 harg5 arg6 harg6 arg7 harg7 hc0 hc1 hc2 x0 x1 x2 xs0 xs1).2.1 S1024x1.size (by sl_kernel_rfl) y

/-- What the last class tile leaves in the scratch of the running maximum: its pieces read back over junk. -/
def sout0_C_0 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i)
    (x0 : Vec F S1024x256 .bf16) (x1 : Vec F S1792x256 .bf16) (x2 : Vec F S1024x1 .f32) (xs0 : Vec F S1024x1 .f32) (xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 hc2 x0 x1 x2 xs0 xs1).2.1)

/-- The pieces the last class tile leaves in the scratch of the running sum are whole-block stores: they
    tile the scratch, so they cover it. -/
theorem scover0_C_1 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i)
    (x0 : Vec F S1024x256 .bf16) (x1 : Vec F S1792x256 .bf16) (x2 : Vec F S1024x1 .f32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 hc0 hc1 hc2 x0 x1 x2 xs0 xs1).2.2.1, y ∈ pc.1.set :=
  View.cover_of_tiledL (kernelRun0_C c i arg2 harg2 arg3 harg3 arg4 harg4 arg5 harg5 arg6 harg6 arg7 harg7 hc0 hc1 hc2 x0 x1 x2 xs0 xs1).2.2.1 S1024x1.size (by sl_kernel_rfl) y

/-- What the last class tile leaves in the scratch of the running sum: its pieces read back over junk. -/
def sout0_C_1 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i)
    (x0 : Vec F S1024x256 .bf16) (x1 : Vec F S1792x256 .bf16) (x2 : Vec F S1024x1 .f32) (xs0 : Vec F S1024x1 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 hc0 hc1 hc2 x0 x1 x2 xs0 xs1).2.2.1)

/-! ## The case of a point, from its residue modulo 6 -/

theorem cA0 (t : Fin cfg0.N) (h0 : t.val % 6 = 0) : cond0_0 (grid0.coords t) := (hcond0_0 t).mpr h0
theorem cA1 (t : Fin cfg0.N) (h0 : t.val % 6 = 0) : ¬cond0_1 (grid0.coords t) := fun h => by
  have h5 := (hcond0_1 t).mp h; omega
theorem cA2 (t : Fin cfg0.N) (h0 : t.val % 6 = 0) : cond0_2 (grid0.coords t) := (hcond0_2 t).mpr (by omega)
theorem cB0 (t : Fin cfg0.N) (h0 : ¬t.val % 6 = 0) : ¬cond0_0 (grid0.coords t) := fun h => h0 ((hcond0_0 t).mp h)
theorem cB1 (t : Fin cfg0.N) (h1 : ¬t.val % 6 = 5) : ¬cond0_1 (grid0.coords t) := fun h => h1 ((hcond0_1 t).mp h)
theorem cB2 (t : Fin cfg0.N) (h1 : ¬t.val % 6 = 5) : cond0_2 (grid0.coords t) := (hcond0_2 t).mpr h1
theorem cC0 (t : Fin cfg0.N) (h1 : t.val % 6 = 5) : ¬cond0_0 (grid0.coords t) := fun h => by
  have h0 := (hcond0_0 t).mp h; omega
theorem cC1 (t : Fin cfg0.N) (h1 : t.val % 6 = 5) : cond0_1 (grid0.coords t) := (hcond0_1 t).mpr h1
theorem cC2 (t : Fin cfg0.N) (h1 : t.val % 6 = 5) : ¬cond0_2 (grid0.coords t) := fun h => (hcond0_2 t).mp h h1

/-! ## What the output buffer and the two scratches hold after each point -/

/-- THE ACCUMULATION. After the body at position `n`: what the output buffer holds, what the scratch
    of the running maximum holds, what the scratch of the running sum holds. A first class tile
    starts afresh (the scratches are reset whatever they held); a middle or last class tile updates
    what the point before left in the two scratches. -/
def outsAt0 (c : Dev nD) : (n : ℕ) → n < cfg0.N → Vec F S1024x1 .f32 × Vec F S1024x1 .f32 × Vec F S1024x1 .f32
  | 0, hn =>
    (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (cA0 ⟨0, hn⟩ (Nat.zero_mod _)) (cA1 ⟨0, hn⟩ (Nat.zero_mod _)) (cA2 ⟨0, hn⟩ (Nat.zero_mod _)) (iblk m c 0 ⟨0, hn⟩) (iblk m c 1 ⟨0, hn⟩) (iblk m c 2 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (cA0 ⟨0, hn⟩ (Nat.zero_mod _)) (cA1 ⟨0, hn⟩ (Nat.zero_mod _)) (cA2 ⟨0, hn⟩ (Nat.zero_mod _)) (iblk m c 0 ⟨0, hn⟩) (iblk m c 1 ⟨0, hn⟩) (iblk m c 2 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (cA0 ⟨0, hn⟩ (Nat.zero_mod _)) (cA1 ⟨0, hn⟩ (Nat.zero_mod _)) (cA2 ⟨0, hn⟩ (Nat.zero_mod _)) (iblk m c 0 ⟨0, hn⟩) (iblk m c 1 ⟨0, hn⟩) (iblk m c 2 ⟨0, hn⟩))
  | n + 1, hn =>
    if h0 : (n + 1) % 6 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (cA0 ⟨n + 1, hn⟩ h0) (cA1 ⟨n + 1, hn⟩ h0) (cA2 ⟨n + 1, hn⟩ h0) (iblk m c 0 ⟨n + 1, hn⟩) (iblk m c 1 ⟨n + 1, hn⟩) (iblk m c 2 ⟨n + 1, hn⟩),
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (cA0 ⟨n + 1, hn⟩ h0) (cA1 ⟨n + 1, hn⟩ h0) (cA2 ⟨n + 1, hn⟩ h0) (iblk m c 0 ⟨n + 1, hn⟩) (iblk m c 1 ⟨n + 1, hn⟩) (iblk m c 2 ⟨n + 1, hn⟩),
      sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (cA0 ⟨n + 1, hn⟩ h0) (cA1 ⟨n + 1, hn⟩ h0) (cA2 ⟨n + 1, hn⟩ h0) (iblk m c 0 ⟨n + 1, hn⟩) (iblk m c 1 ⟨n + 1, hn⟩) (iblk m c 2 ⟨n + 1, hn⟩))
    else if h1 : (n + 1) % 6 = 5 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (cC0 ⟨n + 1, hn⟩ h1) (cC1 ⟨n + 1, hn⟩ h1) (cC2 ⟨n + 1, hn⟩ h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (cC0 ⟨n + 1, hn⟩ h1) (cC1 ⟨n + 1, hn⟩ h1) (cC2 ⟨n + 1, hn⟩ h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
      sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (cC0 ⟨n + 1, hn⟩ h1) (cC1 ⟨n + 1, hn⟩ h1) (cC2 ⟨n + 1, hn⟩ h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (cB0 ⟨n + 1, hn⟩ h0) (cB1 ⟨n + 1, hn⟩ h1) (cB2 ⟨n + 1, hn⟩ h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (cB0 ⟨n + 1, hn⟩ h0) (cB1 ⟨n + 1, hn⟩ h1) (cB2 ⟨n + 1, hn⟩ h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (cB0 ⟨n + 1, hn⟩ h0) (cB1 ⟨n + 1, hn⟩ h1) (cB2 ⟨n + 1, hn⟩ h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)

/-- `outsAt0` at a first class tile: that case's contents. -/
theorem outsAt0_A (c : Dev nD) (t : Fin cfg0.N) (h0 : t.val % 6 = 0) :
    outsAt0 m c t.val t.isLt =
      (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cA0 t h0) (cA1 t h0) (cA2 t h0) (iblk m c 0 t) (iblk m c 1 t) (iblk m c 2 t),
      sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cA0 t h0) (cA1 t h0) (cA2 t h0) (iblk m c 0 t) (iblk m c 1 t) (iblk m c 2 t),
      sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cA0 t h0) (cA1 t h0) (cA2 t h0) (iblk m c 0 t) (iblk m c 1 t) (iblk m c 2 t)) := by
  obtain ⟨n, hn⟩ := t
  cases n with
  | zero => exact rfl
  | succ n => exact (dif_pos h0).trans rfl

/-- `outsAt0` at a middle class tile: that case's contents, over what the point before left in the
    two scratches. -/
theorem outsAt0_B (c : Dev nD) (t : Fin cfg0.N) (h0 : ¬t.val % 6 = 0) (h1 : ¬t.val % 6 = 5) :
    outsAt0 m c t.val t.isLt =
      (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cB0 t h0) (cB1 t h1) (cB2 t h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
      sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cB0 t h0) (cB1 t h1) (cB2 t h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
      sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cB0 t h0) (cB1 t h1) (cB2 t h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; exact absurd (Nat.zero_mod _) h0)
  | succ n => exact (dif_neg h0).trans ((dif_neg h1).trans rfl)

/-- `outsAt0` at the last class tile: that case's contents, over what the point before left in the
    two scratches. -/
theorem outsAt0_C (c : Dev nD) (t : Fin cfg0.N) (h1 : t.val % 6 = 5) :
    outsAt0 m c t.val t.isLt =
      (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cC0 t h1) (cC1 t h1) (cC2 t h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
      sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cC0 t h1) (cC1 t h1) (cC2 t h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
      sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cC0 t h1) (cC1 t h1) (cC2 t h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; exact absurd (show (0 : ℕ) % 6 = 5 from h1) (by decide))
  | succ n =>
    have h1' : (n + 1) % 6 = 5 := h1
    have h0 : ¬(n + 1) % 6 = 0 := by omega
    exact (dif_neg h0).trans ((dif_pos h1).trans rfl)

/-- The region's invariant before position `n`: before the first point both scratches at anything;
    afterwards the scratch of the running maximum and the scratch of the running sum at what the
    point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the two scratches at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a point that is not the first: the two scratches at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them; after the
    body at point `t` each input's buffer at its block and the output's at `outsAt0`'s first
    component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`: the invariant, the core's debt (none), and the four
    windows' current staging buffers. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' buffers hold their blocks; the residue of the point modulo 6
    says which case it is in. At a first class tile the two scratches are handed over at anything
    (before the first point the launch's invariant, later what the row tile before left, forgotten)
    and come back reset and updated; at a middle class tile they are handed over at what the point
    before left and come back updated, the output buffer untouched; at the last class tile they are
    handed over likewise, the output buffer at anything, and the output buffer comes back holding
    the row tile's result. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 48 := lt_of_lt_of_eq t.isLt (show cfg0.N = 48 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 6 = 0
  · rw [Dat.leavesExact_idle (dats m 0 c) 3 t (idleAt0_3_A t (cA0 t h0) (cA1 t h0)) (noFlush0_3_A t (cA0 t h0) (cA1 t h0))]
    rw [outsAt0_A m c t h0]
    unfold sout0_A_0 sout0_A_1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩⟩
      iapply ((kernelRun0_A c (grid0.coords t) _ _ _ _ _ _ _ _ _ _ _ _ (cA0 t h0) (cA1 t h0) (cA2 t h0) (iblk m c 0 t) (iblk m c 1 t) (iblk m c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_A c (grid0.coords t) _ _ _ _ _ _ _ _ _ _ _ _ (cA0 t h0) (cA1 t h0) (cA2 t h0) (iblk m c 0 t) (iblk m c 1 t) (iblk m c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 6 = 5
    · rw [show (dats m 0 c).leavesExact 3 t = owns (c : Thread nD τ) (ms0_3 t) fullShare ((dats m 0 c).after 3 t) from by
        unfold Dat.leavesExact; rw [liveAt0_3_C t (cC0 t h1) (cC1 t h1)], after0_3]
      rw [outsAt0_C m c t h1]
      unfold out0_C_3 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_C c (grid0.coords t) _ _ _ _ _ _ _ _ _ _ _ _ (cC0 t h1) (cC1 t h1) (cC2 t h1) (iblk m c 0 t) (iblk m c 1 t) (iblk m c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _)
          unfold owns; iexists _; isplitr
          swap; · iexact HS1
          ipureintro; exact View.read_writes_of_cover _ _ _ _ _ (scover0_C_1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _ _)
    · rw [Dat.leavesExact_idle (dats m 0 c) 3 t (idleAt0_3_B t (cB0 t h0) (cB1 t h1)) (noFlush0_3_B t (cB0 t h0) (cB1 t h1))]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_B c (grid0.coords t) _ _ _ _ _ _ _ _ _ _ _ _ (cB0 t h0) (cB1 t h1) (cB2 t h1) (iblk m c 0 t) (iblk m c 1 t) (iblk m c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _)
          unfold owns; iexists _; isplitr
          swap; · iexact HS1
          ipureintro; exact View.read_writes_of_cover _ _ _ _ _ (scover0_B_1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: what the two scratches
    hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 48 := N_0; omega)

/-! ## The run and the frame -/

-- the launch theorem's implicit arguments are found by unifying its conclusion with this one, which
-- takes unfolding plain definitions in a metavariable's type
set_option backward.isDefEq.respectTransparency.types false in
/-- From any memory with zero counters, every weakly fair execution of the program on the
    TensorCores terminates, and in every final state every array of the pipeline holds what the
    proof data computes and every other unscoped buffer what the host lines after the region leave. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3]) (hsub := sfx_sub) (hfresh := sfx_fresh) (hkeep := sfx_keeps)
    (hmain := hmain m Variants.none) (hA := A_eq m) (hin := hin m) (hout := hout m)

/-- THE FRAME: the five argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.IdealCases.lean ====
import proofs.«415740_j40690520162428_3_alg».proof.Proof.Gen.KernelIdeal.Launch
import proofs.«415740_j40690520162428_3_alg».proof.Proof.Gen.KernelIdeal.Skeleton
import proofs.«415740_j40690520162428_3_alg».proof.Proof.Gen.KernelIdeal.Points
import proofs.«415740_j40690520162428_3_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

-- membership in a rectangle of long extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The three conditions of the body, over the grid

The grid is 8 row tiles by 6 class tiles, point `t = qi * 6 + ki`. The body tests the class-tile
coordinate `ki` three times: `ki = 0` (the running maximum and the running sum are reset),
`ki = 5` (the last class tile: the masked update, then the output block is stored), and
`ki ≠ 5` (the unmasked update). -/

/-- The first condition: the class-tile coordinate is 0, as the body's scalar chain spells it. -/
abbrev cond0_0 (i : grid0.Coords) : Prop :=
  (Scalar.cmpi .ne (Scalar.extui (Scalar.cmpi .eq (BitVec.ofNat 32 (i 1).val) 0#32)) 0#32) = 1#1
/-- It holds at the points ≡ 0 (mod 6). -/
theorem hcond0_0 : ∀ t : Fin cfg0.N, cond0_0 (grid0.coords t) ↔ t.val % 6 = 0 :=
  (by decide +kernel : ∀ t : Fin grid0.N, cond0_0 (grid0.coords t) ↔ t.val % 6 = 0)

/-- The second condition: the class-tile coordinate is 5 (the last class tile). -/
abbrev cond0_1 (i : grid0.Coords) : Prop := k0_cond2 i = 1#1
/-- It holds at the points ≡ 5 (mod 6). -/
theorem hcond0_1 : ∀ t : Fin cfg0.N, cond0_1 (grid0.coords t) ↔ t.val % 6 = 5 :=
  (by decide +kernel : ∀ t : Fin grid0.N, cond0_1 (grid0.coords t) ↔ t.val % 6 = 5)

/-- The third condition: the class-tile coordinate is not 5, as the body's scalar chain spells it
    (the comparison with 5 negated by exclusive-or with true). -/
abbrev cond0_2 (i : grid0.Coords) : Prop :=
  (Scalar.cmpi .ne (Scalar.extui (Scalar.xori (Scalar.cmpi .eq (BitVec.ofNat 32 (i 1).val) 5#32) 1#1)) 0#32) = 1#1
/-- It holds at the points ≢ 5 (mod 6). -/
theorem hcond0_2 : ∀ t : Fin cfg0.N, cond0_2 (grid0.coords t) ↔ ¬ t.val % 6 = 5 :=
  (by decide +kernel : ∀ t : Fin grid0.N, cond0_2 (grid0.coords t) ↔ ¬ t.val % 6 = 5)

/-! ## Where the windows are idle

The three input windows are live at every point. The output window is stored only at the last
class tile of a row tile: elsewhere it is idle and its block is not written back. -/

/-- Input window 0 (the row block) is never idle. -/
theorem liveAt0_0 : ∀ t : Fin cfg0.N, cfg0.idle 0 (grid0.coords t) = false := by decide +kernel
/-- Input window 1 (the weight block) is never idle. -/
theorem liveAt0_1 : ∀ t : Fin cfg0.N, cfg0.idle 1 (grid0.coords t) = false := by decide +kernel
/-- Input window 2 (the target-logit block) is never idle. -/
theorem liveAt0_2 : ∀ t : Fin cfg0.N, cfg0.idle 2 (grid0.coords t) = false := by decide +kernel
/-- At a first class tile the output window is idle: nothing is stored into it. -/
theorem idleAt0_3_A : ∀ t : Fin cfg0.N, cond0_0 (grid0.coords t) → ¬cond0_1 (grid0.coords t) → cfg0.idle 3 (grid0.coords t) = true := by decide +kernel
/-- At a first class tile the output block is not written back. -/
theorem noFlush0_3_A : ∀ t : Fin cfg0.N, cond0_0 (grid0.coords t) → ¬cond0_1 (grid0.coords t) → (cfg0.win 3).flush t = false := by decide +kernel
/-- At a middle class tile the output window is idle: nothing is stored into it. -/
theorem idleAt0_3_B : ∀ t : Fin cfg0.N, ¬cond0_0 (grid0.coords t) → ¬cond0_1 (grid0.coords t) → cfg0.idle 3 (grid0.coords t) = true := by decide +kernel
/-- At a middle class tile the output block is not written back. -/
theorem noFlush0_3_B : ∀ t : Fin cfg0.N, ¬cond0_0 (grid0.coords t) → ¬cond0_1 (grid0.coords t) → (cfg0.win 3).flush t = false := by decide +kernel
/-- At the last class tile the output window is live: the block is stored whole. -/
theorem liveAt0_3_C : ∀ t : Fin cfg0.N, ¬cond0_0 (grid0.coords t) → cond0_1 (grid0.coords t) → cfg0.idle 3 (grid0.coords t) = false := by decide +kernel

/-! ## The memrefs the body is called with -/

/-- One staging buffer of the output window, through which its contents are stated (which of the
    two does not matter: both are whole buffers of the block's shape). -/
abbrev VO0_3 : View sig .tc .vmem S1024x1 .f32 := (Memref.whole cc0_stg3_0 : Memref sig .tc .vmem S1024x1 .f32).view
/-- Each window's current staging memref at point `t`, and its wholeness. -/
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1792x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
/-- The scratch holding the running maximum of a row tile's logits over the class tiles met so far. -/
abbrev scM0_0 : Memref sig .tc .vmem S1024x1 .f32 := Memref.whole cc0_scratch0
/-- The scratch holding the running sum of exponentials, relative to the running maximum. -/
abbrev scM0_1 : Memref sig .tc .vmem S1024x1 .f32 := Memref.whole cc0_scratch1
/-- The running maximum's scratch as a view: what it holds is stated through it. -/
abbrev VS0_0 : View sig .tc .vmem S1024x1 .f32 := scM0_0.view
/-- The running sum's scratch as a view. -/
abbrev VS0_1 : View sig .tc .vmem S1024x1 .f32 := scM0_1.view

/-- The region's invariant before the first point: both scratches owned whole at some contents,
    and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.IdealRunFirst.lean ====
import proofs.«415740_j40690520162428_3_alg».proof.Proof.IdealCases

-- membership in a rectangle of long extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 1000000 in
/-- FIRST class tile of a row tile (the class-tile coordinate is 0). The running maximum is reset to
    -∞ and the running sum to 0, whatever the two scratches held; then the unmasked update: the new
    maximum is the larger of the old one and the row maxima of this tile's scaled logits, the sum is
    rescaled by the exponential of the maximum's decrease and the tile's exponentials are added. The
    output block is not touched. The pieces each scratch ends with are the witnesses; the statement
    is that the body, owning the three input blocks at their contents, the output buffer at any
    contents (handed back as it was) and the two scratches at anything, runs to a continuation that
    receives the inputs as they were and each scratch with its pieces written. -/
noncomputable def kernelRun0_A (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (hc2 : cond0_2 i)
    (x0 : Vec F S1024x256 .bf16) (x1 : Vec F S1792x256 .bf16) (x2 : Vec F S1024x1 .f32) :
    Σ' (L3 : List (View.Piece (Elt F) S1024x1 .f32)), Σ' (LS0 : List (View.Piece (Elt F) S1024x1 .f32)), { LS1 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0_kernel i arg2 harg2 arg3 harg3 arg4 harg4 arg5 harg5 arg6 harg6 arg7 harg7) K } := by
  refine ⟨[], ?_, ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.IdealRunMiddle.lean ====
import proofs.«415740_j40690520162428_3_alg».proof.Proof.IdealCases

-- membership in a rectangle of long extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 1000000 in
/-- MIDDLE class tile (the class-tile coordinate is 1, 2, 3 or 4). No reset; the unmasked update of
    the running maximum and the running sum from what the point before left in the two scratches
    (`xs0`, `xs1`). The output block is not touched. The pieces each scratch ends with are the
    witnesses; the statement is that the body, owning the three input blocks at their contents, the
    output buffer at any contents (handed back as it was) and the two scratches at `xs0`, `xs1`,
    runs to a continuation that receives the inputs as they were and each scratch with its pieces
    written. -/
noncomputable def kernelRun0_B (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i)
    (x0 : Vec F S1024x256 .bf16) (x1 : Vec F S1792x256 .bf16) (x2 : Vec F S1024x1 .f32) (xs0 : Vec F S1024x1 .f32) (xs1 : Vec F S1024x1 .f32) :
    Σ' (L3 : List (View.Piece (Elt F) S1024x1 .f32)), Σ' (LS0 : List (View.Piece (Elt F) S1024x1 .f32)), { LS1 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0_kernel i arg2 harg2 arg3 harg3 arg4 harg4 arg5 harg5 arg6 harg6 arg7 harg7) K } := by
  refine ⟨[], ?_, ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.IdealRunLast.lean ====
import proofs.«415740_j40690520162428_3_alg».proof.Proof.IdealCases

-- membership in a rectangle of long extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 1000000 in
/-- LAST class tile of a row tile (the class-tile coordinate is 5). The logits of the columns at or
    past the class count are replaced by the mask fill; then the update of the running maximum and
    the running sum from what the point before left (`xs0`, `xs1`); then the output block is
    stored whole: maximum plus logarithm of the sum, minus the target logit. The pieces the output
    buffer and each scratch end with are the witnesses; the statement is that the body, owning the
    three input blocks at their contents, the output buffer at anything and the two scratches at
    `xs0`, `xs1`, runs to a continuation that receives the inputs as they were and the output
    buffer and each scratch with its pieces written. -/
noncomputable def kernelRun0_C (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i)
    (x0 : Vec F S1024x256 .bf16) (x1 : Vec F S1792x256 .bf16) (x2 : Vec F S1024x1 .f32) (xs0 : Vec F S1024x1 .f32) (xs1 : Vec F S1024x1 .f32) :
    Σ' (L3 : List (View.Piece (Elt F) S1024x1 .f32)), Σ' (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, ?_, fun E K => ?run⟩
  case run =>
    simp only [cc0_kernel_eq_skeleton, k0_part1_eq_skeleton]; unfold cc0_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Hand

end
-- ==== Proof.IdealFrame.lean ====
import proofs.«415740_j40690520162428_3_alg».proof.Proof.IdealRunFirst
import proofs.«415740_j40690520162428_3_alg».proof.Proof.IdealRunMiddle
import proofs.«415740_j40690520162428_3_alg».proof.Proof.IdealRunLast

-- membership in a rectangle of long extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each case leaves in the output buffer and in the two scratches -/

/-- At the first class tile nothing is stored into the output block: no pieces. A placeholder (junk read
    back) that nothing consults: at these points the block is neither written back nor read at the
    next point. -/
def out0_A_3 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (hc2 : cond0_2 i)
    (x0 : Vec F S1024x256 .bf16) (x1 : Vec F S1792x256 .bf16) (x2 : Vec F S1024x1 .f32) : Vec F S1024x1 .f32 :=
  VO0_3.read (Elt F) (VO0_3.writes (Elt F) VO0_3.junk (kernelRun0_A c i arg2 harg2 arg3 harg3 arg4 harg4 arg5 harg5 arg6 harg6 arg7 harg7 hc0 hc1 hc2 x0 x1 x2).1)

/-- The pieces the first class tile leaves in the scratch of the running maximum are whole-block stores: they
    tile the scratch, so they cover it. -/
theorem scover0_A_0 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (hc2 : cond0_2 i)
    (x0 : Vec F S1024x256 .bf16) (x1 : Vec F S1792x256 .bf16) (x2 : Vec F S1024x1 .f32) (y : S1024x1.Idx) :
    ∃ pc ∈ (kernelRun0_A c i arg2 harg2 arg3 harg3 arg4 harg4 arg5 harg5 arg6 harg6 arg7 harg7 hc0 hc1 hc2 x0 x1 x2).2.1, y ∈ pc.1.set :=
  View.cover_of_tiledL (kernelRun0_A c i arg2 harg2 arg3 harg3 arg4 harg4 arg5 harg5 arg6 harg6 arg7 harg7 hc0 hc1 hc2 x0 x1 x2).2.1 S1024x1.size (by sl_kernel_rfl) y

/-- What the first class tile leaves in the scratch of the running maximum: its pieces read back over junk. -/
def sout0_A_0 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (hc2 : cond0_2 i)
    (x0 : Vec F S1024x256 .bf16) (x1 : Vec F S1792x256 .bf16) (x2 : Vec F S1024x1 .f32) : Vec F S1024x1 .f32 :=
  VS0_0.read (Elt F) (VS0_0.writes (Elt F) VS0_0.junk (kernelRun0_A c i arg2 harg2 arg3 harg3 arg4 harg4 arg5 harg5 arg6 harg6 arg7 harg7 hc0 hc1 hc2 x0 x1 x2).2.1)

/-- The pieces the first class tile leaves in the scratch of the running sum are whole-block stores: they
    tile the scratch, so they cover it. -/
theorem scover0_A_1 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (hc2 : cond0_2 i)
    (x0 : Vec F S1024x256 .bf16) (x1 : Vec F S1792x256 .bf16) (x2 : Vec F S1024x1 .f32) (y : S1024x1.Idx) :
    ∃ pc ∈ (kernelRun0_A c i arg2 harg2 arg3 harg3 arg4 harg4 arg5 harg5 arg6 harg6 arg7 harg7 hc0 hc1 hc2 x0 x1 x2).2.2.1, y ∈ pc.1.set :=
  View.cover_of_tiledL (kernelRun0_A c i arg2 harg2 arg3 harg3 arg4 harg4 arg5 harg5 arg6 harg6 arg7 harg7 hc0 hc1 hc2 x0 x1 x2).2.2.1 S1024x1.size (by sl_kernel_rfl) y

/-- What the first class tile leaves in the scratch of the running sum: its pieces read back over junk. -/
def sout0_A_1 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (hc2 : cond0_2 i)
    (x0 : Vec F S1024x256 .bf16) (x1 : Vec F S1792x256 .bf16) (x2 : Vec F S1024x1 .f32) : Vec F S1024x1 .f32 :=
  VS0_1.read (Elt F) (VS0_1.writes (Elt F) VS0_1.junk (kernelRun0_A c i arg2 harg2 arg3 harg3 arg4 harg4 arg5 harg5 arg6 harg6 arg7 harg7 hc0 hc1 hc2 x0 x1 x2).2.2.1)

/-- At a middle class tile nothing is stored into the output block: no pieces. A placeholder (junk read
    back) that nothing consults: at these points the block is neither written back nor read at the
    next point. -/
def out0_B_3 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i)
    (x0 : Vec F S1024x256 .bf16) (x1 : Vec F S1792x256 .bf16) (x2 : Vec F S1024x1 .f32) (xs0 : Vec F S1024x1 .f32) (xs1 : Vec F S1024x1 .f32) : Vec F S1024x1 .f32 :=
  VO0_3.read (Elt F) (VO0_3.writes (Elt F) VO0_3.junk (kernelRun0_B c i arg2 harg2 arg3 harg3 arg4 harg4 arg5 harg5 arg6 harg6 arg7 harg7 hc0 hc1 hc2 x0 x1 x2 xs0 xs1).1)

/-- The pieces a middle class tile leaves in the scratch of the running maximum are whole-block stores: they
    tile the scratch, so they cover it. -/
theorem scover0_B_0 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i)
    (x0 : Vec F S1024x256 .bf16) (x1 : Vec F S1792x256 .bf16) (x2 : Vec F S1024x1 .f32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 hc0 hc1 hc2 x0 x1 x2 xs0 xs1).2.1, y ∈ pc.1.set :=
  View.cover_of_tiledL (kernelRun0_B c i arg2 harg2 arg3 harg3 arg4 harg4 arg5 harg5 arg6 harg6 arg7 harg7 hc0 hc1 hc2 x0 x1 x2 xs0 xs1).2.1 S1024x1.size (by sl_kernel_rfl) y

/-- What a middle class tile leaves in the scratch of the running maximum: its pieces read back over junk. -/
def sout0_B_0 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i)
    (x0 : Vec F S1024x256 .bf16) (x1 : Vec F S1792x256 .bf16) (x2 : Vec F S1024x1 .f32) (xs0 : Vec F S1024x1 .f32) (xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 hc2 x0 x1 x2 xs0 xs1).2.1)

/-- The pieces a middle class tile leaves in the scratch of the running sum are whole-block stores: they
    tile the scratch, so they cover it. -/
theorem scover0_B_1 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i)
    (x0 : Vec F S1024x256 .bf16) (x1 : Vec F S1792x256 .bf16) (x2 : Vec F S1024x1 .f32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 hc0 hc1 hc2 x0 x1 x2 xs0 xs1).2.2.1, y ∈ pc.1.set :=
  View.cover_of_tiledL (kernelRun0_B c i arg2 harg2 arg3 harg3 arg4 harg4 arg5 harg5 arg6 harg6 arg7 harg7 hc0 hc1 hc2 x0 x1 x2 xs0 xs1).2.2.1 S1024x1.size (by sl_kernel_rfl) y

/-- What a middle class tile leaves in the scratch of the running sum: its pieces read back over junk. -/
def sout0_B_1 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i)
    (x0 : Vec F S1024x256 .bf16) (x1 : Vec F S1792x256 .bf16) (x2 : Vec F S1024x1 .f32) (xs0 : Vec F S1024x1 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 hc0 hc1 hc2 x0 x1 x2 xs0 xs1).2.2.1)

/-- At the last class tile the one store into the output buffer is of the whole block: its pieces
    tile the block, so they cover it. -/
theorem cover0_C_3 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i)
    (x0 : Vec F S1024x256 .bf16) (x1 : Vec F S1792x256 .bf16) (x2 : Vec F S1024x1 .f32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 hc0 hc1 hc2 x0 x1 x2 xs0 xs1).1, y ∈ pc.1.set :=
  View.cover_of_tiledL (kernelRun0_C c i arg2 harg2 arg3 harg3 arg4 harg4 arg5 harg5 arg6 harg6 arg7 harg7 hc0 hc1 hc2 x0 x1 x2 xs0 xs1).1 S1024x1.size (by sl_kernel_rfl) y

/-- What the last class tile leaves in the output buffer: its pieces read back over junk (the row
    tile's maximum plus the logarithm of its sum, minus the target logit). -/
def out0_C_3 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i)
    (x0 : Vec F S1024x256 .bf16) (x1 : Vec F S1792x256 .bf16) (x2 : Vec F S1024x1 .f32) (xs0 : Vec F S1024x1 .f32) (xs1 : Vec F S1024x1 .f32) : Vec F S1024x1 .f32 :=
  VO0_3.read (Elt F) (VO0_3.writes (Elt F) VO0_3.junk (kernelRun0_C c i arg2 harg2 arg3 harg3 arg4 harg4 arg5 harg5 arg6 harg6 arg7 harg7 hc0 hc1 hc2 x0 x1 x2 xs0 xs1).1)

/-- The pieces the last class tile leaves in the scratch of the running maximum are whole-block stores: they
    tile the scratch, so they cover it. -/
theorem scover0_C_0 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i)
    (x0 : Vec F S1024x256 .bf16) (x1 : Vec F S1792x256 .bf16) (x2 : Vec F S1024x1 .f32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 hc0 hc1 hc2 x0 x1 x2 xs0 xs1).2.1, y ∈ pc.1.set :=
  View.cover_of_tiledL (kernelRun0_C c i arg2 harg2 arg3 harg3 arg4 harg4 arg5 harg5 arg6 harg6 arg7 harg7 hc0 hc1 hc2 x0 x1 x2 xs0 xs1).2.1 S1024x1.size (by sl_kernel_rfl) y

/-- What the last class tile leaves in the scratch of the running maximum: its pieces read back over junk. -/
def sout0_C_0 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i)
    (x0 : Vec F S1024x256 .bf16) (x1 : Vec F S1792x256 .bf16) (x2 : Vec F S1024x1 .f32) (xs0 : Vec F S1024x1 .f32) (xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 hc2 x0 x1 x2 xs0 xs1).2.1)

/-- The pieces the last class tile leaves in the scratch of the running sum are whole-block stores: they
    tile the scratch, so they cover it. -/
theorem scover0_C_1 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i)
    (x0 : Vec F S1024x256 .bf16) (x1 : Vec F S1792x256 .bf16) (x2 : Vec F S1024x1 .f32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 hc0 hc1 hc2 x0 x1 x2 xs0 xs1).2.2.1, y ∈ pc.1.set :=
  View.cover_of_tiledL (kernelRun0_C c i arg2 harg2 arg3 harg3 arg4 harg4 arg5 harg5 arg6 harg6 arg7 harg7 hc0 hc1 hc2 x0 x1 x2 xs0 xs1).2.2.1 S1024x1.size (by sl_kernel_rfl) y

/-- What the last class tile leaves in the scratch of the running sum: its pieces read back over junk. -/
def sout0_C_1 (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i)
    (x0 : Vec F S1024x256 .bf16) (x1 : Vec F S1792x256 .bf16) (x2 : Vec F S1024x1 .f32) (xs0 : Vec F S1024x1 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 hc0 hc1 hc2 x0 x1 x2 xs0 xs1).2.2.1)

/-! ## The case of a point, from its residue modulo 6 -/

theorem cA0 (t : Fin cfg0.N) (h0 : t.val % 6 = 0) : cond0_0 (grid0.coords t) := (hcond0_0 t).mpr h0
theorem cA1 (t : Fin cfg0.N) (h0 : t.val % 6 = 0) : ¬cond0_1 (grid0.coords t) := fun h => by
  have h5 := (hcond0_1 t).mp h; omega
theorem cA2 (t : Fin cfg0.N) (h0 : t.val % 6 = 0) : cond0_2 (grid0.coords t) := (hcond0_2 t).mpr (by omega)
theorem cB0 (t : Fin cfg0.N) (h0 : ¬t.val % 6 = 0) : ¬cond0_0 (grid0.coords t) := fun h => h0 ((hcond0_0 t).mp h)
theorem cB1 (t : Fin cfg0.N) (h1 : ¬t.val % 6 = 5) : ¬cond0_1 (grid0.coords t) := fun h => h1 ((hcond0_1 t).mp h)
theorem cB2 (t : Fin cfg0.N) (h1 : ¬t.val % 6 = 5) : cond0_2 (grid0.coords t) := (hcond0_2 t).mpr h1
theorem cC0 (t : Fin cfg0.N) (h1 : t.val % 6 = 5) : ¬cond0_0 (grid0.coords t) := fun h => by
  have h0 := (hcond0_0 t).mp h; omega
theorem cC1 (t : Fin cfg0.N) (h1 : t.val % 6 = 5) : cond0_1 (grid0.coords t) := (hcond0_1 t).mpr h1
theorem cC2 (t : Fin cfg0.N) (h1 : t.val % 6 = 5) : ¬cond0_2 (grid0.coords t) := fun h => (hcond0_2 t).mp h h1

/-! ## What the output buffer and the two scratches hold after each point -/

/-- THE ACCUMULATION. After the body at position `n`: what the output buffer holds, what the scratch
    of the running maximum holds, what the scratch of the running sum holds. A first class tile
    starts afresh (the scratches are reset whatever they held); a middle or last class tile updates
    what the point before left in the two scratches. -/
def outsAt0 (c : Dev nD) : (n : ℕ) → n < cfg0.N → Vec F S1024x1 .f32 × Vec F S1024x1 .f32 × Vec F S1024x1 .f32
  | 0, hn =>
    (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (cA0 ⟨0, hn⟩ (Nat.zero_mod _)) (cA1 ⟨0, hn⟩ (Nat.zero_mod _)) (cA2 ⟨0, hn⟩ (Nat.zero_mod _)) (iblk m c 0 ⟨0, hn⟩) (iblk m c 1 ⟨0, hn⟩) (iblk m c 2 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (cA0 ⟨0, hn⟩ (Nat.zero_mod _)) (cA1 ⟨0, hn⟩ (Nat.zero_mod _)) (cA2 ⟨0, hn⟩ (Nat.zero_mod _)) (iblk m c 0 ⟨0, hn⟩) (iblk m c 1 ⟨0, hn⟩) (iblk m c 2 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (cA0 ⟨0, hn⟩ (Nat.zero_mod _)) (cA1 ⟨0, hn⟩ (Nat.zero_mod _)) (cA2 ⟨0, hn⟩ (Nat.zero_mod _)) (iblk m c 0 ⟨0, hn⟩) (iblk m c 1 ⟨0, hn⟩) (iblk m c 2 ⟨0, hn⟩))
  | n + 1, hn =>
    if h0 : (n + 1) % 6 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (cA0 ⟨n + 1, hn⟩ h0) (cA1 ⟨n + 1, hn⟩ h0) (cA2 ⟨n + 1, hn⟩ h0) (iblk m c 0 ⟨n + 1, hn⟩) (iblk m c 1 ⟨n + 1, hn⟩) (iblk m c 2 ⟨n + 1, hn⟩),
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (cA0 ⟨n + 1, hn⟩ h0) (cA1 ⟨n + 1, hn⟩ h0) (cA2 ⟨n + 1, hn⟩ h0) (iblk m c 0 ⟨n + 1, hn⟩) (iblk m c 1 ⟨n + 1, hn⟩) (iblk m c 2 ⟨n + 1, hn⟩),
      sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (cA0 ⟨n + 1, hn⟩ h0) (cA1 ⟨n + 1, hn⟩ h0) (cA2 ⟨n + 1, hn⟩ h0) (iblk m c 0 ⟨n + 1, hn⟩) (iblk m c 1 ⟨n + 1, hn⟩) (iblk m c 2 ⟨n + 1, hn⟩))
    else if h1 : (n + 1) % 6 = 5 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (cC0 ⟨n + 1, hn⟩ h1) (cC1 ⟨n + 1, hn⟩ h1) (cC2 ⟨n + 1, hn⟩ h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (cC0 ⟨n + 1, hn⟩ h1) (cC1 ⟨n + 1, hn⟩ h1) (cC2 ⟨n + 1, hn⟩ h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
      sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (cC0 ⟨n + 1, hn⟩ h1) (cC1 ⟨n + 1, hn⟩ h1) (cC2 ⟨n + 1, hn⟩ h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (cB0 ⟨n + 1, hn⟩ h0) (cB1 ⟨n + 1, hn⟩ h1) (cB2 ⟨n + 1, hn⟩ h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (cB0 ⟨n + 1, hn⟩ h0) (cB1 ⟨n + 1, hn⟩ h1) (cB2 ⟨n + 1, hn⟩ h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (cB0 ⟨n + 1, hn⟩ h0) (cB1 ⟨n + 1, hn⟩ h1) (cB2 ⟨n + 1, hn⟩ h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)

/-- `outsAt0` at a first class tile: that case's contents. -/
theorem outsAt0_A (c : Dev nD) (t : Fin cfg0.N) (h0 : t.val % 6 = 0) :
    outsAt0 m c t.val t.isLt =
      (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cA0 t h0) (cA1 t h0) (cA2 t h0) (iblk m c 0 t) (iblk m c 1 t) (iblk m c 2 t),
      sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cA0 t h0) (cA1 t h0) (cA2 t h0) (iblk m c 0 t) (iblk m c 1 t) (iblk m c 2 t),
      sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cA0 t h0) (cA1 t h0) (cA2 t h0) (iblk m c 0 t) (iblk m c 1 t) (iblk m c 2 t)) := by
  obtain ⟨n, hn⟩ := t
  cases n with
  | zero => exact rfl
  | succ n => exact (dif_pos h0).trans rfl

/-- `outsAt0` at a middle class tile: that case's contents, over what the point before left in the
    two scratches. -/
theorem outsAt0_B (c : Dev nD) (t : Fin cfg0.N) (h0 : ¬t.val % 6 = 0) (h1 : ¬t.val % 6 = 5) :
    outsAt0 m c t.val t.isLt =
      (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cB0 t h0) (cB1 t h1) (cB2 t h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
      sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cB0 t h0) (cB1 t h1) (cB2 t h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
      sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cB0 t h0) (cB1 t h1) (cB2 t h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; exact absurd (Nat.zero_mod _) h0)
  | succ n => exact (dif_neg h0).trans ((dif_neg h1).trans rfl)

/-- `outsAt0` at the last class tile: that case's contents, over what the point before left in the
    two scratches. -/
theorem outsAt0_C (c : Dev nD) (t : Fin cfg0.N) (h1 : t.val % 6 = 5) :
    outsAt0 m c t.val t.isLt =
      (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cC0 t h1) (cC1 t h1) (cC2 t h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
      sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cC0 t h1) (cC1 t h1) (cC2 t h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
      sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cC0 t h1) (cC1 t h1) (cC2 t h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; exact absurd (show (0 : ℕ) % 6 = 5 from h1) (by decide))
  | succ n =>
    have h1' : (n + 1) % 6 = 5 := h1
    have h0 : ¬(n + 1) % 6 = 0 := by omega
    exact (dif_neg h0).trans ((dif_pos h1).trans rfl)

/-- The region's invariant before position `n`: before the first point both scratches at anything;
    afterwards the scratch of the running maximum and the scratch of the running sum at what the
    point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the two scratches at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a point that is not the first: the two scratches at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them; after the
    body at point `t` each input's buffer at its block and the output's at `outsAt0`'s first
    component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`: the invariant, the core's debt (none), and the four
    windows' current staging buffers. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' buffers hold their blocks; the residue of the point modulo 6
    says which case it is in. At a first class tile the two scratches are handed over at anything
    (before the first point the launch's invariant, later what the row tile before left, forgotten)
    and come back reset and updated; at a middle class tile they are handed over at what the point
    before left and come back updated, the output buffer untouched; at the last class tile they are
    handed over likewise, the output buffer at anything, and the output buffer comes back holding
    the row tile's result. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 48 := lt_of_lt_of_eq t.isLt (show cfg0.N = 48 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 6 = 0
  · rw [Dat.leavesExact_idle (dats m 0 c) 3 t (idleAt0_3_A t (cA0 t h0) (cA1 t h0)) (noFlush0_3_A t (cA0 t h0) (cA1 t h0))]
    rw [outsAt0_A m c t h0]
    unfold sout0_A_0 sout0_A_1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩⟩
      iapply ((kernelRun0_A c (grid0.coords t) _ _ _ _ _ _ _ _ _ _ _ _ (cA0 t h0) (cA1 t h0) (cA2 t h0) (iblk m c 0 t) (iblk m c 1 t) (iblk m c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_A c (grid0.coords t) _ _ _ _ _ _ _ _ _ _ _ _ (cA0 t h0) (cA1 t h0) (cA2 t h0) (iblk m c 0 t) (iblk m c 1 t) (iblk m c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 6 = 5
    · rw [show (dats m 0 c).leavesExact 3 t = owns (c : Thread nD τ) (ms0_3 t) fullShare ((dats m 0 c).after 3 t) from by
        unfold Dat.leavesExact; rw [liveAt0_3_C t (cC0 t h1) (cC1 t h1)], after0_3]
      rw [outsAt0_C m c t h1]
      unfold out0_C_3 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_C c (grid0.coords t) _ _ _ _ _ _ _ _ _ _ _ _ (cC0 t h1) (cC1 t h1) (cC2 t h1) (iblk m c 0 t) (iblk m c 1 t) (iblk m c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _)
          unfold owns; iexists _; isplitr
          swap; · iexact HS1
          ipureintro; exact View.read_writes_of_cover _ _ _ _ _ (scover0_C_1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _ _)
    · rw [Dat.leavesExact_idle (dats m 0 c) 3 t (idleAt0_3_B t (cB0 t h0) (cB1 t h1)) (noFlush0_3_B t (cB0 t h0) (cB1 t h1))]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_B c (grid0.coords t) _ _ _ _ _ _ _ _ _ _ _ _ (cB0 t h0) (cB1 t h1) (cB2 t h1) (iblk m c 0 t) (iblk m c 1 t) (iblk m c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _)
          unfold owns; iexists _; isplitr
          swap; · iexact HS1
          ipureintro; exact View.read_writes_of_cover _ _ _ _ _ (scover0_B_1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: what the two scratches
    hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 48 := N_0; omega)

/-! ## The run and the frame -/

-- the launch theorem's implicit arguments are found by unifying its conclusion with this one, which
-- takes unfolding plain definitions in a metavariable's type
set_option backward.isDefEq.respectTransparency.types false in
/-- From any memory with zero counters, every weakly fair execution of the program on the
    TensorCores terminates, and in every final state every array of the pipeline holds what the
    proof data computes and every other unscoped buffer what the host lines after the region leave. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3]) (hsub := sfx_sub) (hfresh := sfx_fresh) (hkeep := sfx_keeps)
    (hmain := hmain m Variants.none) (hA := A_eq m) (hin := hin m) (hout := hout m)

/-- THE FRAME: the five argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.IdealPieces.lean ====
/-
  What each case of the body leaves, as a payload of the point's input blocks and of what the point before left.

  A row tile meets six class tiles. At each the body keeps two columns of 1024 entries: the running maximum of the
  row's scaled logits over the class tiles met so far, and the running sum of their exponentials relative to that
  maximum. At the first class tile both are reset (to -∞ and to 0) and the update then reads the reset values back; at a
  middle class tile the update reads what the point before left; at the last class tile the columns past the class
  count are masked, the two columns are updated, and the output block is stored: the new maximum plus the logarithm of
  the NEW sum (the sum is read after its store), minus the target logit. Every store and load here is of a whole
  buffer, so what a buffer ends holding is the payload of the last store into it, with each loaded value replaced by the
  contents it read.
-/
import proofs.«415740_j40690520162428_3_alg».proof.Proof.IdealFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The offsets of a whole-buffer rectangle are zero on both axes. -/
theorem offsets_zero : (![0, 0] : Fin 2 → Nat) = fun _ => 0 := funext fun a => by fin_cases a <;> rfl

/-! ## First class tile: the reset, then the update over the reset values -/

/-- The running maximum after a first class tile: the larger of the reset value -∞ and the row maxima of this tile's scaled logits (the later of the two stores covers the scratch; its load reads the reset back). -/
theorem sout0_A_0_eq (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (hc2 : cond0_2 i)
    (x0 : Vec F S1024x256 .bf16) (x1 : Vec F S1792x256 .bf16) (x2 : Vec F S1024x1 .f32) :
    sout0_A_0 c i arg2 harg2 arg3 harg3 arg4 harg4 arg5 harg5 arg6 harg6 arg7 harg7 hc0 hc1 hc2 x0 x1 x2 = k0_pay6 x0 x1 (k0_pay1 (F := F)) := by
  unfold sout0_A_0
  rw [View.read_writes_eq_canon _ _ _ (scover0_A_0 c i arg2 harg2 arg3 harg3 arg4 harg4 arg5 harg5 arg6 harg6 arg7 harg7 hc0 hc1 hc2 x0 x1 x2)]
  unfold kernelRun0_A
  dsimp only
  sl_unfold_words
  rw [View.canon_cons_unit_zero (S := S1024x1) offsets_zero]
  simp only [View.readAt_eq_ld, harg2.read_unread, harg3.read_unread, harg4.read_unread, harg6.read_unread, harg7.read_unread, View.ld_unit_zero (S := S1024x256) offsets_zero, View.ld_unit_zero (S := S1792x256) offsets_zero, View.ld_unit_zero (S := S1024x1) offsets_zero, View.readCov_unit_zero (S := S1024x1) _ offsets_zero]

/-- The running sum after a first class tile: the update over the reset maximum -∞ (read twice) and the reset sum 0. -/
theorem sout0_A_1_eq (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (hc2 : cond0_2 i)
    (x0 : Vec F S1024x256 .bf16) (x1 : Vec F S1792x256 .bf16) (x2 : Vec F S1024x1 .f32) :
    sout0_A_1 c i arg2 harg2 arg3 harg3 arg4 harg4 arg5 harg5 arg6 harg6 arg7 harg7 hc0 hc1 hc2 x0 x1 x2 = k0_pay5 x0 x1 (k0_pay1 (F := F)) (k0_pay1 (F := F)) (k0_pay2 (F := F)) := by
  unfold sout0_A_1
  rw [View.read_writes_eq_canon _ _ _ (scover0_A_1 c i arg2 harg2 arg3 harg3 arg4 harg4 arg5 harg5 arg6 harg6 arg7 harg7 hc0 hc1 hc2 x0 x1 x2)]
  unfold kernelRun0_A
  dsimp only
  sl_unfold_words
  rw [View.canon_cons_unit_zero (S := S1024x1) offsets_zero]
  simp only [View.readAt_eq_ld, harg2.read_unread, harg3.read_unread, harg4.read_unread, harg6.read_unread, harg7.read_unread, View.ld_unit_zero (S := S1024x256) offsets_zero, View.ld_unit_zero (S := S1792x256) offsets_zero, View.ld_unit_zero (S := S1024x1) offsets_zero, View.readCov_unit_zero (S := S1024x1) _ offsets_zero]

/-! ## Middle class tile: the update over what the point before left -/

/-- The running maximum after a middle class tile: the larger of the old maximum and the row maxima of this tile's scaled logits. -/
theorem sout0_B_0_eq (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i)
    (x0 : Vec F S1024x256 .bf16) (x1 : Vec F S1792x256 .bf16) (x2 : Vec F S1024x1 .f32) (xs0 : Vec F S1024x1 .f32) (xs1 : Vec F S1024x1 .f32) :
    sout0_B_0 c i arg2 harg2 arg3 harg3 arg4 harg4 arg5 harg5 arg6 harg6 arg7 harg7 hc0 hc1 hc2 x0 x1 x2 xs0 xs1 = k0_pay6 x0 x1 xs0 := by
  unfold sout0_B_0
  rw [View.read_writes_eq_canon _ _ _ (scover0_B_0 c i arg2 harg2 arg3 harg3 arg4 harg4 arg5 harg5 arg6 harg6 arg7 harg7 hc0 hc1 hc2 x0 x1 x2 xs0 xs1)]
  unfold kernelRun0_B
  dsimp only
  sl_unfold_words
  rw [View.canon_unit_zero offsets_zero]
  simp only [View.readAt_eq_ld, harg2.read_unread, harg3.read_unread, harg4.read_unread, harg6.read_unread, harg7.read_unread, View.ld_unit_zero (S := S1024x256) offsets_zero, View.ld_unit_zero (S := S1792x256) offsets_zero, View.ld_unit_zero (S := S1024x1) offsets_zero, View.readCov_unit_zero (S := S1024x1) _ offsets_zero]

/-- The running sum after a middle class tile: the old sum rescaled by the exponential of the maximum's decrease, plus this tile's exponentials relative to the new maximum. -/
theorem sout0_B_1_eq (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i)
    (x0 : Vec F S1024x256 .bf16) (x1 : Vec F S1792x256 .bf16) (x2 : Vec F S1024x1 .f32) (xs0 : Vec F S1024x1 .f32) (xs1 : Vec F S1024x1 .f32) :
    sout0_B_1 c i arg2 harg2 arg3 harg3 arg4 harg4 arg5 harg5 arg6 harg6 arg7 harg7 hc0 hc1 hc2 x0 x1 x2 xs0 xs1 = k0_pay5 x0 x1 xs0 xs0 xs1 := by
  unfold sout0_B_1
  rw [View.read_writes_eq_canon _ _ _ (scover0_B_1 c i arg2 harg2 arg3 harg3 arg4 harg4 arg5 harg5 arg6 harg6 arg7 harg7 hc0 hc1 hc2 x0 x1 x2 xs0 xs1)]
  unfold kernelRun0_B
  dsimp only
  sl_unfold_words
  rw [View.canon_unit_zero offsets_zero]
  simp only [View.readAt_eq_ld, harg2.read_unread, harg3.read_unread, harg4.read_unread, harg6.read_unread, harg7.read_unread, View.ld_unit_zero (S := S1024x256) offsets_zero, View.ld_unit_zero (S := S1792x256) offsets_zero, View.ld_unit_zero (S := S1024x1) offsets_zero, View.readCov_unit_zero (S := S1024x1) _ offsets_zero]

/-! ## Last class tile: the masked update, then the output block -/

/-- The running maximum after the last class tile: the larger of the old maximum and the row maxima of this tile's masked scaled logits. -/
theorem sout0_C_0_eq (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i)
    (x0 : Vec F S1024x256 .bf16) (x1 : Vec F S1792x256 .bf16) (x2 : Vec F S1024x1 .f32) (xs0 : Vec F S1024x1 .f32) (xs1 : Vec F S1024x1 .f32) :
    sout0_C_0 c i arg2 harg2 arg3 harg3 arg4 harg4 arg5 harg5 arg6 harg6 arg7 harg7 hc0 hc1 hc2 x0 x1 x2 xs0 xs1 = k0_pay10 (BitVec.ofNat 32 (i 1).val) (k0_pay3 x0 x1) xs0 := by
  unfold sout0_C_0
  rw [View.read_writes_eq_canon _ _ _ (scover0_C_0 c i arg2 harg2 arg3 harg3 arg4 harg4 arg5 harg5 arg6 harg6 arg7 harg7 hc0 hc1 hc2 x0 x1 x2 xs0 xs1)]
  unfold kernelRun0_C
  dsimp only
  sl_unfold_words
  rw [View.canon_unit_zero offsets_zero]
  simp only [View.readAt_eq_ld, harg2.read_unread, harg3.read_unread, harg4.read_unread, harg6.read_unread, harg7.read_unread, View.ld_unit_zero (S := S1024x256) offsets_zero, View.ld_unit_zero (S := S1792x256) offsets_zero, View.ld_unit_zero (S := S1024x1) offsets_zero, View.readCov_unit_zero (S := S1024x1) _ offsets_zero]

/-- The running sum after the last class tile: the masked update of the old sum. -/
theorem sout0_C_1_eq (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i)
    (x0 : Vec F S1024x256 .bf16) (x1 : Vec F S1792x256 .bf16) (x2 : Vec F S1024x1 .f32) (xs0 : Vec F S1024x1 .f32) (xs1 : Vec F S1024x1 .f32) :
    sout0_C_1 c i arg2 harg2 arg3 harg3 arg4 harg4 arg5 harg5 arg6 harg6 arg7 harg7 hc0 hc1 hc2 x0 x1 x2 xs0 xs1 = k0_pay9 (BitVec.ofNat 32 (i 1).val) (k0_pay3 x0 x1) xs0 xs0 xs1 := by
  unfold sout0_C_1
  rw [View.read_writes_eq_canon _ _ _ (scover0_C_1 c i arg2 harg2 arg3 harg3 arg4 harg4 arg5 harg5 arg6 harg6 arg7 harg7 hc0 hc1 hc2 x0 x1 x2 xs0 xs1)]
  unfold kernelRun0_C
  dsimp only
  sl_unfold_words
  rw [View.canon_unit_zero offsets_zero]
  simp only [View.readAt_eq_ld, harg2.read_unread, harg3.read_unread, harg4.read_unread, harg6.read_unread, harg7.read_unread, View.ld_unit_zero (S := S1024x256) offsets_zero, View.ld_unit_zero (S := S1792x256) offsets_zero, View.ld_unit_zero (S := S1024x1) offsets_zero, View.readCov_unit_zero (S := S1024x1) _ offsets_zero]

/-- The output block the last class tile stores: the new maximum plus the logarithm of the new sum (the sum's scratch is loaded after its store, so the load reads the updated sum), minus the target-logit block. -/
theorem out0_C_3_eq (c : Dev nD) (i : grid0.Coords) (arg2 : Memref sig .tc .vmem S1024x256 .bf16) (harg2 : arg2.IsWhole) (arg3 : Memref sig .tc .vmem S1792x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i)
    (x0 : Vec F S1024x256 .bf16) (x1 : Vec F S1792x256 .bf16) (x2 : Vec F S1024x1 .f32) (xs0 : Vec F S1024x1 .f32) (xs1 : Vec F S1024x1 .f32) :
    out0_C_3 c i arg2 harg2 arg3 harg3 arg4 harg4 arg5 harg5 arg6 harg6 arg7 harg7 hc0 hc1 hc2 x0 x1 x2 xs0 xs1 = k0_pay11 (BitVec.ofNat 32 (i 1).val) (k0_pay3 x0 x1) xs0 (k0_pay9 (BitVec.ofNat 32 (i 1).val) (k0_pay3 x0 x1) xs0 xs0 xs1) x2 := by
  unfold out0_C_3
  rw [View.read_writes_eq_canon _ _ _ (cover0_C_3 c i arg2 harg2 arg3 harg3 arg4 harg4 arg5 harg5 arg6 harg6 arg7 harg7 hc0 hc1 hc2 x0 x1 x2 xs0 xs1)]
  unfold kernelRun0_C
  dsimp only
  sl_unfold_words
  rw [View.canon_unit_zero offsets_zero]
  simp only [View.readAt_eq_ld, harg2.read_unread, harg3.read_unread, harg4.read_unread, harg6.read_unread, harg7.read_unread, View.ld_unit_zero (S := S1024x256) offsets_zero, View.ld_unit_zero (S := S1792x256) offsets_zero, View.ld_unit_zero (S := S1024x1) offsets_zero, View.readCov_unit_zero (S := S1024x1) _ offsets_zero]

end Cert.KernelIdeal.Hand

end
-- ==== Proof.LogSumExp.lean ====
/-
  Log-sum-exp of one row of logits, computed two ways over the extended reals.

  The row has N logits. One way takes them all at once: their maximum M, the sum S of exp (a j - M), and for a
  chosen class the negative log-probability -((a lab - M) - log S).

  The other way visits the row in K + 1 consecutive tiles of T lanes each; lanes past the row's end hold -∞. It
  keeps a running maximum m and a running sum l. A tile with entries v replaces m by m' = max m (max v) and l by
  exp (m - m') · l + ∑ exp (v q - m'): the old sum is rescaled to the new maximum. From m = -∞, l = 0 the state
  after the last tile is (M, S), because exp (m - m') · exp (x - m) = exp (x - m') for real numbers, a lane at -∞
  adds exp (-∞) = 0, and exp (-∞ - m') · 0 = 0 starts the recurrence. Hence m + log l - a lab equals the first
  way's value: `tiledNll_eq_rowNll`.

  The proof reads the row on ℕ (entry i below N, -∞ from N on). The running maximum after tile k is then the
  supremum of the first (k + 1) · T entries, a real number as soon as the row is nonempty and real; the running sum
  is the sum of exp (entry - that maximum) over the same entries, each term a nonnegative real; and at k = K the
  initial segment covers the whole row, the entries past N adding -∞ to the supremum and 0 to the sum.
-/
import Idealize.ShloMosaic.PureOps.Ideal
import Idealize.ShloMosaic.PureOps.Ideal.Laws

noncomputable section

namespace Cert.LogSumExp

open Idealize.ShloMosaic
open scoped BigOperators

/-- The running maximum after a tile with entries `v`, from the maximum `m` before it. -/
def stepMax {T : ℕ} (m : EReal) (v : Fin T → EReal) : EReal :=
  max m ((Finset.univ : Finset (Fin T)).fold max ⊥ v)

/-- The running sum after a tile: the sum before it rescaled to the new maximum, plus the tile's terms. -/
def stepSum {T : ℕ} (m l : EReal) (v : Fin T → EReal) : EReal :=
  Ideal.exp (m - stepMax m v) * l + ∑ q : Fin T, Ideal.exp (v q - stepMax m v)

/-- The running maximum after tiles 0 … k, started from -∞ at tile 0. -/
def runMax {T : ℕ} (v : ℕ → Fin T → EReal) : ℕ → EReal
  | 0 => stepMax ⊥ (v 0)
  | k + 1 => stepMax (runMax v k) (v (k + 1))

/-- The running sum after tiles 0 … k, started from 0 (and maximum -∞) at tile 0. -/
def runSum {T : ℕ} (v : ℕ → Fin T → EReal) : ℕ → EReal
  | 0 => stepSum ⊥ 0 (v 0)
  | k + 1 => stepSum (runMax v k) (runSum v k) (v (k + 1))

/-- A row of N entries laid out in tiles of T lanes: lane q of tile k is entry k · T + q, and -∞ past the end. -/
def tiled {N : ℕ} (T : ℕ) (a : Fin N → EReal) (k : ℕ) (q : Fin T) : EReal :=
  if h : k * T + q.val < N then a ⟨k * T + q.val, h⟩ else ⊥

/-- The whole row's maximum (over -∞). -/
def rowMax {N : ℕ} (a : Fin N → EReal) : EReal := max ⊥ ((Finset.univ : Finset (Fin N)).fold max ⊥ a)

/-- The whole row's sum of exponentials shifted by the maximum. -/
def rowSum {N : ℕ} (a : Fin N → EReal) : EReal := 0 + ∑ j : Fin N, Ideal.exp (a j - rowMax a)

/-- The negative log-probability of class `lab`, the row taken at once. -/
def rowNll {N : ℕ} (a : Fin N → EReal) (lab : Fin N) : EReal :=
  -((a lab - rowMax a) - Ideal.log (rowSum a))

/-- The same from the tiled recurrence after tile K, against the chosen class's logit `t`. -/
def tiledNll {N : ℕ} (T K : ℕ) (a : Fin N → EReal) (t : EReal) : EReal :=
  (runMax (tiled T a) K + Ideal.log (runSum (tiled T a) K)) - t

/-! ### The row read on ℕ

  Entry i of the row for i < N and -∞ from N on: lane q of tile k is entry k · T + q of this sequence, so running
  maxima are suprema over initial segments of ℕ and running sums are sums over them. -/

/-- The row continued by -∞ past its end. -/
def ext {N : ℕ} (a : Fin N → EReal) (i : ℕ) : EReal :=
  if h : i < N then a ⟨i, h⟩ else ⊥

theorem tiled_eq {N : ℕ} (T : ℕ) (a : Fin N → EReal) (k : ℕ) (q : Fin T) :
    tiled T a k q = ext a (k * T + q.val) := rfl

theorem ext_val {N : ℕ} (a : Fin N → EReal) (j : Fin N) : ext a j.val = a j := by
  unfold ext
  rw [dif_pos j.isLt]

theorem ext_of_le {N : ℕ} (a : Fin N → EReal) {i : ℕ} (h : N ≤ i) : ext a i = ⊥ := by
  unfold ext
  rw [dif_neg (not_lt.2 h)]

theorem ext_ne_top {N : ℕ} (a : Fin N → EReal) (ha : ∀ j, ∃ r : ℝ, a j = (r : EReal)) (i : ℕ) :
    ext a i ≠ ⊤ := by
  unfold ext
  split_ifs with h
  · obtain ⟨r, hr⟩ := ha ⟨i, h⟩
    rw [hr]
    exact EReal.coe_ne_top r
  · exact bot_ne_top

/-- Folding max from -∞ is the supremum. -/
theorem fold_max_eq_sup {ι : Type*} (s : Finset ι) (v : ι → EReal) :
    s.fold max ⊥ v = s.sup v := rfl

/-! ### Running maxima are suprema of initial segments -/

/-- One more tile: the supremum over the first k · T entries joined with tile k is the supremum over the
    first (k + 1) · T entries. -/
theorem stepMax_tile {N : ℕ} (T : ℕ) (a : Fin N → EReal) (k : ℕ) :
    stepMax ((Finset.range (k * T)).sup (ext a)) (tiled T a k)
      = (Finset.range ((k + 1) * T)).sup (ext a) := by
  unfold stepMax
  rw [fold_max_eq_sup]
  have hkT : (k + 1) * T = k * T + T := by rw [Nat.add_mul, one_mul]
  apply le_antisymm
  · apply max_le
    · exact Finset.sup_mono (Finset.range_mono (by rw [hkT]; exact Nat.le_add_right _ _))
    · apply Finset.sup_le
      intro q _
      rw [tiled_eq]
      exact Finset.le_sup (f := ext a) (Finset.mem_range.2 (by rw [hkT]; exact Nat.add_lt_add_left q.isLt _))
  · apply Finset.sup_le
    intro i hi
    rw [Finset.mem_range, hkT] at hi
    by_cases h : i < k * T
    · exact le_max_of_le_left (Finset.le_sup (f := ext a) (Finset.mem_range.2 h))
    · apply le_max_of_le_right
      have hq : i - k * T < T := by omega
      have hle := Finset.le_sup (f := tiled T a k) (Finset.mem_univ (⟨i - k * T, hq⟩ : Fin T))
      rw [tiled_eq] at hle
      have : k * T + (i - k * T) = i := by omega
      simpa only [this] using hle

theorem runMax_eq {N : ℕ} (T : ℕ) (a : Fin N → EReal) (k : ℕ) :
    runMax (tiled T a) k = (Finset.range ((k + 1) * T)).sup (ext a) := by
  induction k with
  | zero =>
    have h := stepMax_tile T a 0
    rw [Nat.zero_mul, Finset.range_zero, Finset.sup_empty] at h
    exact h
  | succ k ih =>
    show stepMax (runMax (tiled T a) k) (tiled T a (k + 1)) = _
    rw [ih]
    exact stepMax_tile T a (k + 1)

theorem rowMax_eq {N : ℕ} (a : Fin N → EReal) {n : ℕ} (hn : N ≤ n) :
    rowMax a = (Finset.range n).sup (ext a) := by
  unfold rowMax
  rw [fold_max_eq_sup, max_eq_right bot_le]
  apply le_antisymm
  · apply Finset.sup_le
    intro j _
    rw [← ext_val a j]
    exact Finset.le_sup (f := ext a) (Finset.mem_range.2 (lt_of_lt_of_le j.isLt hn))
  · apply Finset.sup_le
    intro i _
    unfold ext
    split_ifs with h
    · exact Finset.le_sup (f := a) (Finset.mem_univ _)
    · exact bot_le

/-- The supremum of a nonempty initial segment of a nonempty real row is a real number. -/
theorem sup_real {N : ℕ} (a : Fin N → EReal) (ha : ∀ j, ∃ r : ℝ, a j = (r : EReal)) (hN : 0 < N)
    {n : ℕ} (hn : 0 < n) : ∃ M : ℝ, (Finset.range n).sup (ext a) = (M : EReal) := by
  have hbot : (Finset.range n).sup (ext a) ≠ ⊥ := by
    obtain ⟨r, hr⟩ := ha ⟨0, hN⟩
    have h0 : ext a 0 = (r : EReal) := by rw [← hr]; exact ext_val a ⟨0, hN⟩
    have hle := Finset.le_sup (f := ext a) (Finset.mem_range.2 hn)
    rw [h0] at hle
    exact ne_bot_of_le_ne_bot (EReal.coe_ne_bot r) hle
  have htop : (Finset.range n).sup (ext a) ≠ ⊤ := by
    apply ne_of_lt
    rw [Finset.sup_lt_iff bot_lt_top]
    intro i _
    exact lt_top_iff_ne_top.2 (ext_ne_top a ha i)
  exact ⟨_, (EReal.coe_toReal htop hbot).symm⟩

/-! ### Exponentials shifted by a real maximum are real numbers -/

/-- exp (x - M) as a real number, for x real or -∞. -/
def ex (x : EReal) (M : ℝ) : ℝ := if x = ⊥ then 0 else Real.exp (x.toReal - M)

theorem ex_nonneg (x : EReal) (M : ℝ) : 0 ≤ ex x M := by
  unfold ex
  split_ifs
  · exact le_refl _
  · exact (Real.exp_pos _).le

theorem ex_pos {x : EReal} (hx : x ≠ ⊥) (M : ℝ) : 0 < ex x M := by
  unfold ex
  rw [if_neg hx]
  exact Real.exp_pos _

/-- Rescaling to another maximum: exp (M - M') · exp (x - M) = exp (x - M'). -/
theorem ex_rescale (x : EReal) (M M' : ℝ) : Real.exp (M - M') * ex x M = ex x M' := by
  unfold ex
  split_ifs
  · exact mul_zero _
  · rw [← Real.exp_add]
    congr 1
    ring

theorem exp_sub_coe {x : EReal} (hx : x ≠ ⊤) (M : ℝ) :
    Ideal.exp (x - (M : EReal)) = ((ex x M : ℝ) : EReal) := by
  induction x using EReal.rec with
  | bot =>
    rw [EReal.bot_sub, Ideal.exp_bot]
    unfold ex
    rw [if_pos rfl, EReal.coe_zero]
  | top => exact absurd rfl hx
  | coe r =>
    rw [← EReal.coe_sub, Ideal.exp_coe]
    unfold ex
    rw [if_neg (EReal.coe_ne_bot r), EReal.toReal_coe]

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert i s hi ih => rw [Finset.sum_insert hi, Finset.sum_insert hi, EReal.coe_add, ih]

theorem sum_exp_eq (g : ℕ → EReal) (hg : ∀ i, g i ≠ ⊤) (s : Finset ℕ) (M : ℝ) :
    ∑ i ∈ s, Ideal.exp (g i - (M : EReal)) = ((∑ i ∈ s, ex (g i) M : ℝ) : EReal) := by
  rw [coe_sum]
  exact Finset.sum_congr rfl (fun i _ => exp_sub_coe (hg i) M)

/-- A sum of shifted exponentials rescales to a new maximum termwise. -/
theorem rescale_sum (g : ℕ → EReal) (hg : ∀ i, g i ≠ ⊤) (s : Finset ℕ) (M M' : ℝ) :
    Ideal.exp ((M : EReal) - (M' : EReal)) * ∑ i ∈ s, Ideal.exp (g i - (M : EReal))
      = ∑ i ∈ s, Ideal.exp (g i - (M' : EReal)) := by
  rw [sum_exp_eq g hg s M, sum_exp_eq g hg s M', ← EReal.coe_sub, Ideal.exp_coe, ← EReal.coe_mul,
    Finset.mul_sum]
  exact congrArg _ (Finset.sum_congr rfl (fun i _ => ex_rescale (g i) M M'))

/-! ### Running sums are sums over initial segments -/

/-- The terms of tile k are the terms of entries k · T … k · T + T - 1. -/
theorem tile_sum {N : ℕ} (T : ℕ) (a : Fin N → EReal) (k : ℕ) (c : EReal) :
    ∑ q : Fin T, Ideal.exp (tiled T a k q - c)
      = ∑ i ∈ Finset.range T, Ideal.exp (ext a (k * T + i) - c) :=
  Fin.sum_univ_eq_sum_range (fun i => Ideal.exp (ext a (k * T + i) - c)) T

theorem runSum_eq {N : ℕ} (T : ℕ) (hT : 0 < T) (a : Fin N → EReal)
    (ha : ∀ j, ∃ r : ℝ, a j = (r : EReal)) (hN : 0 < N) (k : ℕ) :
    runSum (tiled T a) k
      = ∑ i ∈ Finset.range ((k + 1) * T), Ideal.exp (ext a i - runMax (tiled T a) k) := by
  induction k with
  | zero =>
    show stepSum ⊥ 0 (tiled T a 0) = _
    unfold stepSum
    rw [mul_zero, zero_add, tile_sum]
    show _ = ∑ i ∈ Finset.range ((0 + 1) * T), Ideal.exp (ext a i - stepMax ⊥ (tiled T a 0))
    rw [Nat.zero_add, Nat.one_mul]
    exact Finset.sum_congr rfl (fun i _ => by rw [Nat.zero_mul, Nat.zero_add])
  | succ k ih =>
    have hpos : ∀ j : ℕ, 0 < (j + 1) * T := fun j => Nat.mul_pos (Nat.succ_pos j) hT
    obtain ⟨M, hM⟩ : ∃ M : ℝ, runMax (tiled T a) k = (M : EReal) := by
      rw [runMax_eq]; exact sup_real a ha hN (hpos k)
    obtain ⟨M', hM'⟩ : ∃ M' : ℝ, runMax (tiled T a) (k + 1) = (M' : EReal) := by
      rw [runMax_eq]; exact sup_real a ha hN (hpos (k + 1))
    rw [hM']
    have hM'' : stepMax (runMax (tiled T a) k) (tiled T a (k + 1)) = (M' : EReal) := hM'
    show stepSum (runMax (tiled T a) k) (runSum (tiled T a) k) (tiled T a (k + 1)) = _
    unfold stepSum
    rw [hM'', ih, hM, rescale_sum (ext a) (ext_ne_top a ha), tile_sum,
      show (k + 1 + 1) * T = (k + 1) * T + T by rw [Nat.add_mul (k + 1) 1 T, Nat.one_mul],
      Finset.sum_range_add]

theorem rowSum_terms {N : ℕ} (a : Fin N → EReal) {n : ℕ} (hn : N ≤ n) (c : EReal) :
    ∑ j : Fin N, Ideal.exp (a j - c) = ∑ i ∈ Finset.range n, Ideal.exp (ext a i - c) := by
  rw [← Finset.sum_subset (Finset.range_mono hn) (fun i _ hi => by
    rw [Finset.mem_range, not_lt] at hi
    rw [ext_of_le a hi, EReal.bot_sub, Ideal.exp_bot])]
  rw [Finset.sum_range]
  exact Finset.sum_congr rfl (fun j _ => by rw [ext_val])

/-- For a row of real logits whose last tile K holds at least one of them, the tiled recurrence and the row taken
    at once give the same negative log-probability. -/
theorem tiledNll_eq_rowNll {N : ℕ} (T K : ℕ) (hT : 0 < T) (hlo : K * T < N) (hhi : N ≤ (K + 1) * T)
    (a : Fin N → EReal) (ha : ∀ j, ∃ r : ℝ, a j = (r : EReal)) (lab : Fin N) :
    tiledNll T K a (a lab) = rowNll a lab := by
  have hN : 0 < N := lt_of_le_of_lt (Nat.zero_le _) hlo
  have hn : 0 < (K + 1) * T := Nat.mul_pos (Nat.succ_pos K) hT
  have hmax : runMax (tiled T a) K = rowMax a := by rw [runMax_eq, rowMax_eq a hhi]
  have hsum : runSum (tiled T a) K = rowSum a := by
    rw [runSum_eq T hT a ha hN, hmax]
    unfold rowSum
    rw [zero_add, rowSum_terms a hhi]
  obtain ⟨M, hM⟩ : ∃ M : ℝ, rowMax a = (M : EReal) := by
    rw [rowMax_eq a hhi]; exact sup_real a ha hN hn
  have hS : rowSum a = ((∑ i ∈ Finset.range ((K + 1) * T), ex (ext a i) M : ℝ) : EReal) := by
    unfold rowSum
    rw [zero_add, rowSum_terms a hhi, hM, sum_exp_eq (ext a) (ext_ne_top a ha)]
  have hpos : 0 < ∑ i ∈ Finset.range ((K + 1) * T), ex (ext a i) M := by
    apply Finset.sum_pos' (fun i _ => ex_nonneg _ _)
    refine ⟨0, Finset.mem_range.2 hn, ex_pos ?_ M⟩
    obtain ⟨r, hr⟩ := ha ⟨0, hN⟩
    have h0 : ext a 0 = (r : EReal) := by rw [← hr]; exact ext_val a ⟨0, hN⟩
    rw [h0]
    exact EReal.coe_ne_bot r
  obtain ⟨r, hr⟩ := ha lab
  unfold tiledNll rowNll
  rw [hmax, hsum, hS, hM, hr, Ideal.log_coe, if_neg (not_le.2 hpos)]
  rw [← EReal.coe_add, ← EReal.coe_sub, ← EReal.coe_sub, ← EReal.coe_sub, ← EReal.coe_neg]
  congr 1
  ring

end Cert.LogSumExp

end
-- ==== Proof.LossTail.lean ====
/-
  The last stage both programs share: from a per-row validity mask and the per-row negative log-probabilities to the
  scalar loss. Valid rows are counted (the count floored at one), the invalid rows' terms replaced by zero, the rest
  summed and divided by the count; last, an infinite quotient is replaced by the largest finite value of its sign.
  Both programs apply exactly these operations, so the loss is one function of (mask, per-row values): equal
  masks and equal per-row values give equal losses, and the function itself is never opened.
-/
import Idealize.ShloMosaic.PureOps
import Idealize.ShloMosaic.PureOps.Ideal

noncomputable section

namespace Cert.Loss

open Idealize.ShloMosaic

/-- One entry per row of the batch. -/
abbrev Rows : Shape := ⟨1, ![8192]⟩
/-- A single number. -/
abbrev One : Shape := ⟨0, ![]⟩

/-- An infinite value replaced by the largest finite one of its sign (and an undefined one by zero; over the extended
    reals no value is undefined). -/
def clipInfinite (x : FVec Ideal One .f32) : FVec Ideal One .f32 :=
  let y1 : FVec Ideal One .f32 := select (cmpf (F := Ideal) .une x x) (constant (F := Ideal) One .f32 0x00000000#32) x
  let y2 : FVec Ideal One .f32 := select (cmpf (F := Ideal) .oeq y1 (constant (F := Ideal) One .f32 0x7F800000#32)) (constant (F := Ideal) One .f32 0x7F7FFFFF#32) y1
  select (cmpf (F := Ideal) .oeq y2 (constant (F := Ideal) One .f32 0xFF800000#32)) (constant (F := Ideal) One .f32 0xFF7FFFFF#32) y2

/-- The mean of the per-row values over the valid rows, then `clipInfinite`. -/
def meanOverValid (hb : One.BroadcastsInDim Rows (![] : Fin 0 → Fin Rows.rank)) (hr : Rows.ReducesTo [0] One) (hS : 0 < One.numel)
    (valid : IVec Rows 1) (nll : FVec Ideal Rows .f32) : FVec Ideal One .f32 :=
  let cnt : FVec Ideal One .f32 := Host.reduceAdd (F := Ideal) (uitofp (F := Ideal) .f32 valid) (constant (F := Ideal) One .f32 0x00000000#32) hr hS
  let den : FVec Ideal One .f32 := maximumf cnt (constant (F := Ideal) One .f32 0x3F800000#32)
  let kept : FVec Ideal Rows .f32 := select valid nll (broadcastInDim Rows ![] hb (constant (F := Ideal) One .f32 0x00000000#32))
  let tot : FVec Ideal One .f32 := Host.reduceAdd (F := Ideal) kept (constant (F := Ideal) One .f32 0x00000000#32) hr hS
  clipInfinite (Host.divf (F := Ideal) tot den)

end Cert.Loss

end
-- ==== Proof.RowLoss.lean ====
/-
  What both programs compute, as ONE function of the five argument arrays.

  Row n of the batch has a feature vector x n (256 entries). Class j (10532 classes) has a weight row: row j of the
  first table for j < 5532, row j - 5532 of the second after that. The logit of row n and class j is thirty times the
  inner product of the two. A row's label is its target minus one; its negative log-probability is the log-sum-exp
  value of its row of logits at its label (LogSumExp.lean); the row is valid unless its label is the reserved value
  5554. The loss is the mean over the valid rows (LossTail.lean).
-/
import Idealize.ShloMosaic.Lib.ValueIdx
import proofs.«415740_j40690520162428_3_alg».proof.Proof.LogSumExp
import proofs.«415740_j40690520162428_3_alg».proof.Proof.LossTail

noncomputable section

namespace Cert.RowLoss

open Idealize.ShloMosaic Idealize.ShloMosaic.ValueIdx
open scoped BigOperators

abbrev SX : Shape := ⟨2, ![8192, 256]⟩
abbrev SLut : Shape := ⟨2, ![5532, 256]⟩
abbrev SCq : Shape := ⟨2, ![5000, 256]⟩

/-- Entry f of class j's weight row. -/
def weight (lut : FVec Ideal SLut .f32) (cq : FVec Ideal SCq .f32) (j : Fin 10532) (f : Fin 256) : EReal :=
  if h : j.val < 5532 then lut (ix2 (⟨j.val, h⟩ : Fin 5532) f)
  else cq (ix2 (⟨j.val - 5532, by have := j.isLt; omega⟩ : Fin 5000) f)

/-- The scale 30, as the word both programs carry. -/
def scale : EReal := Ideal.ofBits .f32 0x41F00000#32

/-- The logit of row n and class j. -/
def logit (x : FVec Ideal SX .f32) (lut : FVec Ideal SLut .f32) (cq : FVec Ideal SCq .f32) (n : Fin 8192) (j : Fin 10532) : EReal :=
  (∑ f : Fin 256, x (ix2 n f) * weight lut cq j f) * scale

/-- Row n's label as a class index: target minus one (reduced into range, which changes nothing where
    1 ≤ target ≤ 10532). -/
def label (tg : IVec Loss.Rows 32) (n : Fin 8192) : Fin 10532 :=
  ⟨(tg (ix1 n) - 1#32).toNat % 10532, Nat.mod_lt _ (by norm_num)⟩

/-- Row n counts unless its label is 5554. -/
def valid (tg : IVec Loss.Rows 32) : IVec Loss.Rows 1 :=
  fun i => if tg i - 1#32 = 5554#32 then 0#1 else 1#1

/-- Row n's negative log-probability. -/
def nll (x : FVec Ideal SX .f32) (tg : IVec Loss.Rows 32) (lut : FVec Ideal SLut .f32) (cq : FVec Ideal SCq .f32) :
    FVec Ideal Loss.Rows .f32 :=
  fun i => LogSumExp.rowNll (fun j => logit x lut cq (i 0) j) (label tg (i 0))

/-- The loss. -/
def loss (hb : Loss.One.BroadcastsInDim Loss.Rows (![] : Fin 0 → Fin Loss.Rows.rank)) (hr : Loss.Rows.ReducesTo [0] Loss.One)
    (hS : 0 < Loss.One.numel) (x : FVec Ideal SX .f32) (tg : IVec Loss.Rows 32) (lut : FVec Ideal SLut .f32)
    (cq : FVec Ideal SCq .f32) : FVec Ideal Loss.One .f32 :=
  Loss.meanOverValid hb hr hS (valid tg) (nll x tg lut cq)

/-- The inputs the statement admits: every float entry a real number, every target between 1 and 10532. -/
structure Admitted (x : FVec Ideal SX .f32) (tg : IVec Loss.Rows 32) (lut : FVec Ideal SLut .f32) (cq : FVec Ideal SCq .f32) : Prop where
  x_real : ∀ i, ∃ r : ℝ, x i = (r : EReal)
  lut_real : ∀ i, ∃ r : ℝ, lut i = (r : EReal)
  cq_real : ∀ i, ∃ r : ℝ, cq i = (r : EReal)
  target_range : ∀ n : Fin 8192, 1 ≤ (tg (ix1 n)).toInt ∧ (tg (ix1 n)).toInt ≤ 10532

end Cert.RowLoss

end
-- ==== Proof.LibTransposedMatmul.lean ====
/-
  A general fact about matrix products whose right operand is stored transposed, at the extended reals.

  The dimension numbers contract the SECOND axis of both operands: an M × K matrix l against an N × K matrix r, whose
  row q is the weight row of output column q. Entry (p, q) of the product pairs row p of l with row q of r.

  `matmul_transposed_acc_apply`: into any accumulator, entry (p, q) is the accumulator's entry plus the sum over k of
  l[p, k] · r[q, k].
  `matmul_transposed_apply`: into the zero accumulator, just that sum.
-/
import Idealize.ShloMosaic.PureOps.Ideal.Laws
import Idealize.ShloMosaic.Lib.ValueIdx

noncomputable section

namespace Cert.LibTransposedMatmul

open Idealize.ShloMosaic Idealize.ShloMosaic.ValueIdx
open scoped BigOperators

variable {M K N : ℕ}

/-- The left operand's index at output index j and contraction index k: row j 0 … -/
theorem transposed_lhs_0 (j : (⟨2, ![M, N]⟩ : Shape).Idx) (k : (DotDims.transposedRhs M K N).contr.Idx) :
    ((DotDims.transposedRhs M K N).lhsIdx j k 0).val = (j 0).val := rfl

/-- … and column k. -/
theorem transposed_lhs_1 (j : (⟨2, ![M, N]⟩ : Shape).Idx) (k : (DotDims.transposedRhs M K N).contr.Idx) :
    ((DotDims.transposedRhs M K N).lhsIdx j k 1).val = (k ⟨0, Nat.one_pos⟩).val := rfl

/-- The right operand's index: row j 1 (the output's column) … -/
theorem transposed_rhs_0 (j : (⟨2, ![M, N]⟩ : Shape).Idx) (k : (DotDims.transposedRhs M K N).contr.Idx) :
    ((DotDims.transposedRhs M K N).rhsIdx j k 0).val = (j 1).val := rfl

/-- … and column k. -/
theorem transposed_rhs_1 (j : (⟨2, ![M, N]⟩ : Shape).Idx) (k : (DotDims.transposedRhs M K N).contr.Idx) :
    ((DotDims.transposedRhs M K N).rhsIdx j k 1).val = (k ⟨0, Nat.one_pos⟩).val := rfl

/-- The contraction's sum at entry (p, q), re-indexed by the one contracted coordinate: ∑ k, l[p, k] · r[q, k]. -/
theorem sum_transposed {φ₁ φ₂ : FTy} (l : FVec Ideal ⟨2, ![M, K]⟩ φ₁) (r : FVec Ideal ⟨2, ![N, K]⟩ φ₂) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact transposed_lhs_0 _ _
      | ⟨1, _⟩ => exact (transposed_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact transposed_rhs_0 _ _
      | ⟨1, _⟩ => exact (transposed_rhs_1 _ _).trans hk)
  rw [el, er]

/-- A product with the right operand transposed, into any accumulator: at entry (p, q), acc[p, q] + ∑ k, l[p, k] · r[q, k]. -/
theorem matmul_transposed_acc_apply {φ₁ φ₂ : FTy} (prec : Option ContractPrecision) (l : FVec Ideal ⟨2, ![M, K]⟩ φ₁)
    (r : FVec Ideal ⟨2, ![N, K]⟩ φ₂) (acc : FVec Ideal ⟨2, ![M, N]⟩ .f32) (p : Fin M) (q : Fin N) :
    FloatOps.matmul (DotDims.transposedRhs M K N) prec l r acc (ix2 p q)
      = acc (ix2 p q) + ∑ k : Fin K, l (ix2 p k) * r (ix2 q k) := by
  rw [Ideal.matmul_apply, sum_transposed]

/-- Into the zero accumulator: at entry (p, q), ∑ k, l[p, k] · r[q, k]. -/
theorem matmul_transposed_apply {φ₁ φ₂ : FTy} (prec : Option ContractPrecision) (l : FVec Ideal ⟨2, ![M, K]⟩ φ₁)
    (r : FVec Ideal ⟨2, ![N, K]⟩ φ₂) (p : Fin M) (q : Fin N) :
    FloatOps.matmul (DotDims.transposedRhs M K N) prec l r (constant (F := Ideal) ⟨2, ![M, N]⟩ .f32 0x00000000#32) (ix2 p q)
      = ∑ k : Fin K, l (ix2 p k) * r (ix2 q k) := by
  rw [Ideal.matmul_constant_zero_apply, sum_transposed]

end Cert.LibTransposedMatmul

end
-- ==== Proof.TileValues.lean ====
/-
  The kernel body's arithmetic, read one entry at a time over the extended reals.

  The body visits a block of 1024 rows and a tile of 1792 classes. Its logit tile is the product of the row block by
  the class block (one class per row of the weight block), times thirty. From the tile it updates a running row
  maximum and a running row sum of exponentials; at the last class tile the lanes past class 10532 are replaced by -∞
  first, and the row's value (new maximum + log of the sum) − the chosen class's logit is written.

  Each stored value is read here at a row p (and lane q) as the corresponding step of the log-sum-exp recurrence.
-/
import proofs.«415740_j40690520162428_3_alg».proof.Proof.Gen.KernelIdeal.Skeleton
import proofs.«415740_j40690520162428_3_alg».proof.Proof.RowLoss
import proofs.«415740_j40690520162428_3_alg».proof.Proof.LibTransposedMatmul
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.StableHlo.Predicate

noncomputable section

namespace Cert.KernelIdeal.TileValues

open Cert.KernelIdeal Cert.KernelIdeal.Gen Idealize.ShloMosaic Idealize.ShloMosaic.ValueIdx
open scoped BigOperators

variable [Facts]
open Facts₀ Facts

/-- The -∞ word. -/
theorem ofBits_neg_inf : Ideal.ofBits .f32 0xFF800000#32 = ⊥ := by simp [Ideal.ofBits, Ideal.ieee]

/-- The printed dimension numbers are the transposed-right-operand ones. -/
theorem dot_eq : dot_S1024x256_S1792x256_S1024x1792_1_1_0_0_n_n = DotDims.transposedRhs 1024 256 1792 := rfl

theorem pay1_apply (p : Fin 1024) : (k0_pay1 (F := Ideal)) (ix2 p 0) = ⊥ := by
  unfold k0_pay1
  rw [shapeCast_self]
  exact ofBits_neg_inf

theorem pay2_apply (p : Fin 1024) : (k0_pay2 (F := Ideal)) (ix2 p 0) = 0 := by
  unfold k0_pay2
  rw [shapeCast_self]
  exact Ideal.ofBits_zero_f32

/-- Entry (p, q) of the printed product into the zero accumulator: the inner product of row p of l with row q of r. -/
theorem matmul_printed_apply (l : FVec Ideal S1024x256 .bf16) (r : FVec Ideal S1792x256 .bf16) (p : Fin 1024) (q : Fin 1792) :
    matmul dot_S1024x256_S1792x256_S1024x1792_1_1_0_0_n_n none l r (constant (F := Ideal) S1024x1792 .f32 0x00000000#32) (ix2 p q)
      = ∑ k : Fin 256, l (ix2 p k) * r (ix2 q k) :=
  Cert.LibTransposedMatmul.matmul_transposed_apply none l r p q

/-- Row p of the logit tile: lane q is thirty times the inner product of row p of x with row q of w. -/
def tile (x : FVec Ideal S1024x256 .bf16) (w : FVec Ideal S1792x256 .bf16) (p : Fin 1024) : Fin 1792 → EReal :=
  fun q => (∑ f : Fin 256, x (ix2 p f) * w (ix2 q f)) * Cert.RowLoss.scale

theorem pay3_apply (x : FVec Ideal S1024x256 .bf16) (w : FVec Ideal S1792x256 .bf16) (p : Fin 1024) (q : Fin 1792) :
    k0_pay3 (F := Ideal) x w (ix2 p q) = tile x w p q := by
  unfold k0_pay3
  rw [shapeCast_self, shapeCast_self]
  exact congrArg (· * Cert.RowLoss.scale) (matmul_printed_apply x w p q)

/-! ## Columns: a vector of row values kept as one column -/

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (i, c), the column at row i. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The source index over row p with lane q inserted is (p, q). -/
theorem lift_row (h : S1024x1792.Reduces [1] S1024) (p : Fin 1024) (q : Fin 1792) :
    h.lift (ix1 p) q = ix2 p q :=
  funext fun a => Fin.ext (by
    match a with
    | ⟨0, _⟩ => rfl
    | ⟨1, _⟩ => rfl)

/-- A row's maximum over the lanes, from -∞. -/
theorem rowMax_apply (src : FVec Ideal S1024x1792 .f32) (h : S1024x1792.Reduces [1] S1024) (hφ : FKind.Formats .f32)
    (hacc : (0xFF800000#32 : BitVec 32) = 0xFF800000#32) (p : Fin 1024) :
    multiReduction (F := Ideal) .maximumf [1] S1024 src 0xFF800000#32 h hφ hacc (ix1 p)
      = (Finset.univ : Finset (Fin 1792)).fold max ⊥ (fun q => src (ix2 p q)) := by
  refine (Ideal.multiReduction_maximumf_single src 0xFF800000#32 h hφ hacc (ix1 p)).trans ?_
  have e : (src ∘ h.lift (ix1 p)) = fun q : Fin 1792 => src (ix2 p q) := funext fun q => congrArg src (lift_row h p q)
  rw [e]
  exact congrArg (fun b => (Finset.univ : Finset (Fin 1792)).fold max b (fun q => src (ix2 p q))) ofBits_neg_inf

/-- A row's sum over the lanes. -/
theorem rowSum_apply (src : FVec Ideal S1024x1792 .f32) (h : S1024x1792.Reduces [1] S1024) (hφ : FKind.Formats .f32)
    (hacc : (0x00000000#32 : BitVec 32) = 0x00000000#32) (p : Fin 1024) :
    multiReduction (F := Ideal) .add [1] S1024 src 0x00000000#32 h hφ hacc (ix1 p) = ∑ q : Fin 1792, src (ix2 p q) := by
  refine (Ideal.multiReduction_add_single src 0x00000000#32 h hφ hacc (ix1 p)).trans ?_
  exact Finset.sum_congr rfl fun q _ => congrArg src (lift_row h p q)

theorem pay4_apply (x : FVec Ideal S1024x256 .bf16) (w : FVec Ideal S1792x256 .bf16) (mOld : FVec Ideal S1024x1 .f32) (p : Fin 1024) :
    k0_pay4 (F := Ideal) x w mOld (ix2 p 0) = Cert.LogSumExp.stepMax (mOld (ix2 p 0)) (tile x w p) := by
  unfold k0_pay4
  refine congrArg (max (mOld (ix2 p 0))) ?_
  refine (shapeCast_a_a1_apply _ _ p 0).trans ?_
  refine (rowMax_apply _ _ (.inl rfl) rfl p).trans ?_
  exact congrArg (fun v => (Finset.univ : Finset (Fin 1792)).fold max ⊥ v) (funext fun q => pay3_apply x w p q)

theorem pay6_apply (x : FVec Ideal S1024x256 .bf16) (w : FVec Ideal S1792x256 .bf16) (mOld : FVec Ideal S1024x1 .f32) (p : Fin 1024) :
    k0_pay6 (F := Ideal) x w mOld (ix2 p 0) = Cert.LogSumExp.stepMax (mOld (ix2 p 0)) (tile x w p) := by
  unfold k0_pay6
  rw [shapeCast_self]
  exact pay4_apply x w mOld p

theorem pay5_apply (x : FVec Ideal S1024x256 .bf16) (w : FVec Ideal S1792x256 .bf16) (mOld lOld : FVec Ideal S1024x1 .f32) (p : Fin 1024) :
    k0_pay5 (F := Ideal) x w mOld mOld lOld (ix2 p 0)
      = Cert.LogSumExp.stepSum (mOld (ix2 p 0)) (lOld (ix2 p 0)) (tile x w p) := by
  unfold k0_pay5
  rw [shapeCast_self]
  unfold Cert.LogSumExp.stepSum
  refine congrArg₂ (· + ·) ?_ ?_
  · exact congrArg (fun t => Ideal.exp (mOld (ix2 p 0) - t) * lOld (ix2 p 0)) (pay4_apply x w mOld p)
  · refine (shapeCast_a_a1_apply _ _ p 0).trans ?_
    refine (rowSum_apply _ _ (.inl rfl) rfl p).trans ?_
    refine Finset.sum_congr rfl fun q _ => ?_
    exact congrArg₂ (fun a b => Ideal.exp (a - b)) (pay3_apply x w p q)
      ((broadcastTo_a1_ab_apply _ _ p q).trans (pay4_apply x w mOld p))

/-! ## The last class tile: lanes past class 10532 hold -∞ -/

/-- The named fill is -∞. -/
theorem neg_big_bot : Named.named (F := Ideal) Cert.KernelIdeal.κ "neg_big" (φ := .f32) 0xFF333332#32 = ⊥ :=
  IdealRules.named_const.ideal_named_scalar _ _ _ _ rfl

/-- Lane q of the last tile is class 5 · 1792 + q; as 32-bit words the sum does not wrap, so the signed comparison
    with 10532 is the comparison of the numbers. -/
theorem mask_bit (q : Fin 1792) :
    IntOp.cmpi .slt (IntOp.addi (Scalar.muli (BitVec.ofNat 32 5) 1792#32) (BitVec.ofNat 32 q.val)) 10532#32 = 1#1
      ↔ 5 * 1792 + q.val < 10532 := by
  have h1 : (BitVec.ofNat 32 5 * 1792#32 : BitVec 32) = BitVec.ofNat 32 8960 := by decide
  have e : IntOp.addi (Scalar.muli (BitVec.ofNat 32 5) 1792#32) (BitVec.ofNat 32 q.val) = BitVec.ofNat 32 (8960 + q.val) := by
    show BitVec.ofNat 32 5 * 1792#32 + BitVec.ofNat 32 q.val = _
    rw [h1, ← BitVec.ofNat_add]
  rw [e]
  unfold IntOp.cmpi
  have hq := q.isLt
  exact (Idealize.ShloMosaic.StableHlo.Predicate.slt_ofNat_iff (8960 + q.val) 10532 (by omega) (by norm_num)).trans
    (by omega)

/-- The mask at (p, q): on exactly for the lanes that are classes. -/
theorem mask_apply (h : S1024x1792.Iotas .tc 32 [1]) (p : Fin 1024) (q : Fin 1792) :
    cmpi .slt (addi (broadcast S1024x1792 (Scalar.muli (BitVec.ofNat 32 5) 1792#32)) (iota .tc S1024x1792 32 [1] h))
        (broadcast S1024x1792 10532#32) (ix2 p q)
      = if 5 * 1792 + q.val < 10532 then 1#1 else 0#1 := by
  have hi : iota .tc S1024x1792 32 [1] h (ix2 p q) = BitVec.ofNat 32 q.val := iota_single_apply .tc S1024x1792 32 1 h (ix2 p q)
  show IntOp.cmpi .slt (IntOp.addi (Scalar.muli (BitVec.ofNat 32 5) 1792#32) (iota .tc S1024x1792 32 [1] h (ix2 p q))) 10532#32 = _
  rw [hi]
  split
  · next hq => exact (mask_bit q).2 hq
  · next hq => exact eq_zero_of_ne_one (fun hb => hq ((mask_bit q).1 hb))

/-- Row p of the masked tile: the tile on the lanes that are classes, -∞ past them. -/
def maskedTile (v9 : FVec Ideal S1024x1792 .f32) (p : Fin 1024) : Fin 1792 → EReal :=
  fun q => if 5 * 1792 + q.val < 10532 then v9 (ix2 p q) else ⊥

theorem pay7_apply (v9 : FVec Ideal S1024x1792 .f32) (p : Fin 1024) (q : Fin 1792) :
    k0_pay7 (F := Ideal) (BitVec.ofNat 32 5) v9 (ix2 p q) = maskedTile v9 p q := by
  unfold k0_pay7 maskedTile
  refine (select_apply _ _ _ _).trans ?_
  refine (congrArg (fun c => Scalar.select c (v9 (ix2 p q)) _) (mask_apply _ p q)).trans ?_
  split
  · exact select_one _ _
  · exact (select_zero _ _).trans neg_big_bot

theorem pay8_apply (v9 : FVec Ideal S1024x1792 .f32) (mOld : FVec Ideal S1024x1 .f32) (p : Fin 1024) :
    k0_pay8 (F := Ideal) (BitVec.ofNat 32 5) v9 mOld (ix2 p 0)
      = Cert.LogSumExp.stepMax (mOld (ix2 p 0)) (maskedTile v9 p) := by
  unfold k0_pay8
  refine congrArg (max (mOld (ix2 p 0))) ?_
  refine (shapeCast_a_a1_apply _ _ p 0).trans ?_
  refine (rowMax_apply _ _ (.inl rfl) rfl p).trans ?_
  exact congrArg (fun v => (Finset.univ : Finset (Fin 1792)).fold max ⊥ v) (funext fun q => pay7_apply v9 p q)

theorem pay10_apply (v9 : FVec Ideal S1024x1792 .f32) (mOld : FVec Ideal S1024x1 .f32) (p : Fin 1024) :
    k0_pay10 (F := Ideal) (BitVec.ofNat 32 5) v9 mOld (ix2 p 0)
      = Cert.LogSumExp.stepMax (mOld (ix2 p 0)) (maskedTile v9 p) := by
  unfold k0_pay10
  rw [shapeCast_self]
  exact pay8_apply v9 mOld p

theorem pay9_apply (v9 : FVec Ideal S1024x1792 .f32) (mOld lOld : FVec Ideal S1024x1 .f32) (p : Fin 1024) :
    k0_pay9 (F := Ideal) (BitVec.ofNat 32 5) v9 mOld mOld lOld (ix2 p 0)
      = Cert.LogSumExp.stepSum (mOld (ix2 p 0)) (lOld (ix2 p 0)) (maskedTile v9 p) := by
  unfold k0_pay9
  rw [shapeCast_self]
  unfold Cert.LogSumExp.stepSum
  refine congrArg₂ (· + ·) ?_ ?_
  · exact congrArg (fun t => Ideal.exp (mOld (ix2 p 0) - t) * lOld (ix2 p 0)) (pay8_apply v9 mOld p)
  · refine (shapeCast_a_a1_apply _ _ p 0).trans ?_
    refine (rowSum_apply _ _ (.inl rfl) rfl p).trans ?_
    refine Finset.sum_congr rfl fun q _ => ?_
    exact congrArg₂ (fun a b => Ideal.exp (a - b)) (pay7_apply v9 p q)
      ((broadcastTo_a1_ab_apply _ _ p q).trans (pay8_apply v9 mOld p))

theorem pay11_apply (v9 : FVec Ideal S1024x1792 .f32) (mOld lNew tgt : FVec Ideal S1024x1 .f32) (p : Fin 1024) :
    k0_pay11 (F := Ideal) (BitVec.ofNat 32 5) v9 mOld lNew tgt (ix2 p 0)
      = (Cert.LogSumExp.stepMax (mOld (ix2 p 0)) (maskedTile v9 p) + Ideal.log (lNew (ix2 p 0))) - tgt (ix2 p 0) := by
  unfold k0_pay11
  rw [shapeCast_self]
  exact congrArg (fun t => (t + Ideal.log (lNew (ix2 p 0))) - tgt (ix2 p 0)) (pay8_apply v9 mOld p)

end Cert.KernelIdeal.TileValues

end
-- ==== Proof.Admitted.lean ====
/-
  The admitted inputs, read off the printed precondition.

  The precondition is a conjunction of six one-bit scalars: for each of the four float arrays, "every entry's absolute
  value is below +∞"; for the targets, "every entry is at least 1" and "every entry is at most 10532". Each scalar is an
  all-axes reduction by "and" of an elementwise comparison, so the scalar being 1 says the comparison holds at every
  index. A float entry whose absolute value is below +∞ is a real number; a signed comparison of 32-bit words that
  holds is the same inequality between their signed values.
-/
import proofs.«415740_j40690520162428_3_alg».proof.Pre_finite_inputs
import proofs.«415740_j40690520162428_3_alg».proof.Proof.RowLoss
import Idealize.ShloMosaic.Lib.ReduceAll
import Idealize.ShloMosaic.Lib.StableHlo.Predicate
import Idealize.ShloMosaic.Lib.ValueIdx

noncomputable section

namespace Cert.Admitted

open Idealize.ShloMosaic Idealize.ShloMosaic.ValueIdx
open Cert.Pre_finite_inputs

/-- The scalar shape has one index. -/
instance : Subsingleton S_.Idx := ⟨fun a b => funext fun d => d.elim0⟩

/-- The word 0x7F800000 denotes +∞. -/
theorem inf_word : Ideal.ofBits .f32 0x7F800000#32 = (⊤ : EReal) := by simp [Ideal.ofBits, Ideal.ieee]

/-- An extended real whose absolute value max a (-a) is below +∞ is a real number. -/
theorem real_of_abs_lt_top (a : EReal) (h : Ideal.cmp .olt (max a (-a)) ⊤ = 1#1) : ∃ r : ℝ, a = (r : EReal) := by
  unfold Ideal.cmp at h
  rw [StableHlo.Predicate.ofBool_eq_one_iff, decide_eq_true_eq] at h
  induction a using EReal.rec with
  | bot => simp at h
  | coe r => exact ⟨r, rfl⟩
  | top => simp at h

/-- One float array: if the all-axes "and" of |x| < +∞ is 1, every entry of x is a real number. -/
theorem all_real {s : Shape} {axes : List (Fin s.rank)} (x : FVec Ideal s .f32)
    (hb : S_.BroadcastsInDim s (![] : Fin 0 → Fin s.rank)) (hr : s.ReducesTo axes S_) (h0 : 0 < S_.numel)
    (h : Host.reduce IntOp.andi (cmpf .olt (Host.absf x) (broadcastInDim s ![] hb (constant (F := Ideal) S_ .f32 0x7F800000#32)))
      (constantI S_ 1 1#1) hr h0 ix0 = 1#1) (i : s.Idx) : ∃ r : ℝ, x i = (r : EReal) := by
  have e := Host.reduce_andi_all _ _ hr h0 ix0 h i
  refine real_of_abs_lt_top (x i) ?_
  rw [← inf_word]
  exact e

/-- A signed "≥" of 32-bit words that holds is "≤" between the signed values, the other way round. -/
theorem toInt_le_of_sge {a b : BitVec 32} (h : IntOp.cmpi .sge a b = 1#1) : b.toInt ≤ a.toInt := by
  unfold IntOp.cmpi at h
  rw [StableHlo.Predicate.ofBool_eq_one_iff] at h
  simpa [BitVec.sle] using h

/-- A signed "≤" of 32-bit words that holds is "≤" between the signed values. -/
theorem toInt_le_of_sle {a b : BitVec 32} (h : IntOp.cmpi .sle a b = 1#1) : a.toInt ≤ b.toInt := by
  unfold IntOp.cmpi at h
  rw [StableHlo.Predicate.ofBool_eq_one_iff] at h
  simpa [BitVec.sle] using h

/-- The targets from below: if the "and" over all rows of target ≥ c is 1, every target's signed value is at least c's. -/
theorem all_sge (tg : IVec S8192 32) (c : BitVec 32) (hb : S_.BroadcastsInDim S8192 (![] : Fin 0 → Fin S8192.rank))
    (hr : S8192.ReducesTo [0] S_) (h0 : 0 < S_.numel)
    (h : Host.reduce IntOp.andi (cmpi .sge tg (broadcastInDim S8192 ![] hb (constantI S_ 32 c))) (constantI S_ 1 1#1) hr h0 ix0 = 1#1)
    (i : S8192.Idx) : c.toInt ≤ (tg i).toInt :=
  toInt_le_of_sge (Host.reduce_andi_all _ _ hr h0 ix0 h i)

/-- The targets from above: if the "and" over all rows of target ≤ c is 1, every target's signed value is at most c's. -/
theorem all_sle (tg : IVec S8192 32) (c : BitVec 32) (hb : S_.BroadcastsInDim S8192 (![] : Fin 0 → Fin S8192.rank))
    (hr : S8192.ReducesTo [0] S_) (h0 : 0 < S_.numel)
    (h : Host.reduce IntOp.andi (cmpi .sle tg (broadcastInDim S8192 ![] hb (constantI S_ 32 c))) (constantI S_ 1 1#1) hr h0 ix0 = 1#1)
    (i : S8192.Idx) : (tg i).toInt ≤ c.toInt :=
  toInt_le_of_sle (Host.reduce_andi_all _ _ hr h0 ix0 h i)

/-- THE PRECONDITION DECODED: its six conjuncts, each as the scalar reduction it is. -/
theorem of_pre [Facts] (x : FVec Ideal S8192x256 .f32) (tg : IVec S8192 32) (ious : FVec Ideal S8192 .f32)
    (lut : FVec Ideal S5532x256 .f32) (cq : FVec Ideal S5000x256 .f32)
    (h : fn (F := Ideal) x tg ious lut cq = (fun _ => 1#1)) : Cert.RowLoss.Admitted x tg lut cq := by
  have e := congrFun h ix0
  dsimp only [fn, fn_part1] at e
  simp only [andi, IntOp.andi_eq_one] at e
  obtain ⟨⟨⟨⟨⟨hx, -⟩, hlut⟩, hcq⟩, hge⟩, hle⟩ := e
  refine ⟨all_real x _ _ _ hx, all_real lut _ _ _ hlut, all_real cq _ _ _ hcq, fun n => ⟨?_, ?_⟩⟩
  · exact all_sge tg 1#32 _ _ _ hge (ix1 n)
  · exact all_sle tg 10532#32 _ _ _ hle (ix1 n)

/-- A word whose signed value is between 1 and 10532: its signed and unsigned values agree, and subtracting one does not wrap. -/
theorem word_sub_one (w : BitVec 32) (h1 : 1 ≤ w.toInt) (h2 : w.toInt ≤ 10532) :
    w.toInt = w.toNat ∧ (w - 1#32).toNat = w.toNat - 1 ∧ (w - 1#32).toInt = w.toInt - 1 := by
  have hw : w.toInt = w.toNat := by
    rw [BitVec.toInt_eq_toNat_cond] at h1 h2 ⊢
    split at h1 <;> omega
  have hlt := w.isLt
  have hsub : (w - 1#32).toNat = w.toNat - 1 := by
    rw [BitVec.toNat_sub]; simp; omega
  refine ⟨hw, hsub, ?_⟩
  rw [BitVec.toInt_eq_toNat_cond, hsub, hw]; split <;> omega

/-- Between 1 and 10532 a target minus one, as a word, has the signed value target − 1, and its unsigned value is the label. -/
theorem label_word {tg : IVec Cert.Loss.Rows 32} (n : Fin 8192) (h1 : 1 ≤ (tg (ix1 n)).toInt) (h2 : (tg (ix1 n)).toInt ≤ 10532) :
    (tg (ix1 n) - 1#32).toInt = (tg (ix1 n)).toInt - 1 ∧ (tg (ix1 n) - 1#32).toNat = (Cert.RowLoss.label tg n).val := by
  obtain ⟨hw, hsub, hint⟩ := word_sub_one _ h1 h2
  refine ⟨hint, ?_⟩
  show (tg (ix1 n) - 1#32).toNat = (tg (ix1 n) - 1#32).toNat % 10532
  rw [hsub]; omega

/-- Between 1 and 10532 the label, as an integer, is the target minus one. -/
theorem label_val {tg : IVec Cert.Loss.Rows 32} (n : Fin 8192) (h1 : 1 ≤ (tg (ix1 n)).toInt) (h2 : (tg (ix1 n)).toInt ≤ 10532) :
    ((Cert.RowLoss.label tg n).val : ℤ) = (tg (ix1 n)).toInt - 1 := by
  obtain ⟨hw, hsub, hint⟩ := word_sub_one _ h1 h2
  rw [← (label_word n h1 h2).2, hsub]; omega

/-- The label is a class index. -/
theorem label_lt {tg : IVec Cert.Loss.Rows 32} (n : Fin 8192) (h1 : 1 ≤ (tg (ix1 n)).toInt) (h2 : (tg (ix1 n)).toInt ≤ 10532) :
    (Cert.RowLoss.label tg n).val < 10532 := (Cert.RowLoss.label tg n).isLt

end Cert.Admitted

end
-- ==== Proof.IdealHostBefore.lean ====
/-
  The host operations before the kernel call, read at an index over the extended reals.

  From the targets the host computes each row's label (target minus one), a validity mask (label in range and not the
  reserved value 5554) and, from the label clamped into the class range, the row of the class table to read. The class
  table is the two weight tables stacked and padded with rows of zeros. The row's target logit is thirty times the
  inner product of its feature row with the table row of its label. On admitted targets (between 1 and 10532) the
  clamp changes nothing, so the mask is the shared definition's mask and the target logit is the shared definition's
  logit at the label.
-/
import proofs.«415740_j40690520162428_3_alg».proof.Proof.Gen.KernelIdeal.Frame
import proofs.«415740_j40690520162428_3_alg».proof.Proof.RowLoss
import proofs.«415740_j40690520162428_3_alg».proof.Proof.Admitted
import Idealize.ShloMosaic.Lib.ValueIdx
import Idealize.ShloMosaic.Lib.Pipeline.Value
import Idealize.ShloMosaic.Lib.ValueLayout
import Idealize.ShloMosaic.Lib.StableHlo.Run
import Idealize.ShloMosaic.Lib.IdealHost
import Idealize.ShloMosaic.Lib.KernelVsHost
import Idealize.ShloMosaic.PureOps.Ideal.Laws

noncomputable section

namespace Cert.KernelIdeal.HostValue

open Cert.KernelIdeal Cert.KernelIdeal.Gen Idealize.ShloMosaic Idealize.ShloMosaic.ValueIdx Idealize.ShloMosaic.TcCoe
open scoped BigOperators

/-! ## One row's words -/

/-- The index word of one row: the label clamped into [0, 10531], then wrapped by 10752 if negative. -/
def gatherWord (t : BitVec 32) : BitVec 32 :=
  Scalar.select (IntOp.cmpi .slt (IntOp.minsi 10531#32 (IntOp.maxsi 0#32 (IntOp.subi t 1#32))) 0#32)
    (IntOp.addi (IntOp.minsi 10531#32 (IntOp.maxsi 0#32 (IntOp.subi t 1#32))) 10752#32)
    (IntOp.minsi 10531#32 (IntOp.maxsi 0#32 (IntOp.subi t 1#32)))

/-- The mask word of one row. -/
def maskWord (t : BitVec 32) : BitVec 1 :=
  IntOp.andi (IntOp.andi (IntOp.cmpi .sge (IntOp.subi t 1#32) 0#32) (IntOp.cmpi .slt (IntOp.subi t 1#32) 10532#32))
    (IntOp.cmpi .ne (IntOp.subi t 1#32) 5554#32)

theorem slt_false_of_le {a b : BitVec 32} (h : b.toInt ≤ a.toInt) : a.slt b = false := by
  simp [BitVec.slt]; omega

theorem slt_true_of_lt {a b : BitVec 32} (h : a.toInt < b.toInt) : a.slt b = true := by
  simp [BitVec.slt]; omega

theorem sle_true_of_le {a b : BitVec 32} (h : a.toInt ≤ b.toInt) : a.sle b = true := by
  simp [BitVec.sle]; omega

/-- A label between 0 and 10531 passes the clamp and the wrap unchanged. -/
theorem gatherWord_eq (t : BitVec 32) (h1 : 1 ≤ t.toInt) (h2 : t.toInt ≤ 10532) : gatherWord t = t - 1#32 := by
  obtain ⟨_, _, hint⟩ := Cert.Admitted.word_sub_one t h1 h2
  have e0 : (0#32 : BitVec 32).toInt = 0 := by decide
  have e1 : (10531#32 : BitVec 32).toInt = 10531 := by decide
  have hmax : IntOp.maxsi 0#32 (IntOp.subi t 1#32) = t - 1#32 := by
    unfold IntOp.maxsi IntOp.subi
    rw [slt_false_of_le (by rw [e0, hint]; omega)]; rfl
  have hmin : IntOp.minsi 10531#32 (t - 1#32) = t - 1#32 := by
    unfold IntOp.minsi
    rw [slt_false_of_le (by rw [e1, hint]; omega)]; rfl
  have hneg : IntOp.cmpi .slt (t - 1#32) 0#32 = 0#1 := by
    unfold IntOp.cmpi
    show BitVec.ofBool ((t - 1#32).slt 0#32) = 0#1
    rw [slt_false_of_le (by rw [e0, hint]; omega)]; rfl
  unfold gatherWord
  rw [hmax, hmin, hneg]
  rfl

/-- On an admitted target the two range tests pass, and the mask is the test against 5554. -/
theorem maskWord_eq (t : BitVec 32) (h1 : 1 ≤ t.toInt) (h2 : t.toInt ≤ 10532) :
    maskWord t = if t - 1#32 = 5554#32 then 0#1 else 1#1 := by
  obtain ⟨_, _, hint⟩ := Cert.Admitted.word_sub_one t h1 h2
  have e0 : (0#32 : BitVec 32).toInt = 0 := by decide
  have e1 : (10532#32 : BitVec 32).toInt = 10532 := by decide
  have hge : IntOp.cmpi .sge (t - 1#32) 0#32 = 1#1 := by
    unfold IntOp.cmpi
    show BitVec.ofBool ((0#32 : BitVec 32).sle (t - 1#32)) = 1#1
    rw [sle_true_of_le (by rw [e0, hint]; omega)]; rfl
  have hlt : IntOp.cmpi .slt (t - 1#32) 10532#32 = 1#1 := by
    unfold IntOp.cmpi
    show BitVec.ofBool ((t - 1#32).slt 10532#32) = 1#1
    rw [slt_true_of_lt (by rw [e1, hint]; omega)]; rfl
  unfold maskWord IntOp.subi
  rw [hge, hlt]
  unfold IntOp.cmpi IntOp.andi
  show (1#1 &&& 1#1) &&& BitVec.ofBool ((t - 1#32) != 5554#32) = _
  by_cases h : t - 1#32 = 5554#32
  · rw [if_pos h, h]; decide
  · rw [if_neg h]
    have : ((t - 1#32) != 5554#32) = true := by simpa using h
    rw [this]; decide

/-! ## The stages, as functions of the argument arrays -/

/-- Each row's label word: target minus one. -/
def labelWords (tg : IVec S8192 32) : IVec S8192 32 :=
  subi tg (broadcastInDim S8192 ![] bcast_S_S8192 (constantI S_ 32 1#32))

/-- The validity mask: label at least 0, below 10532, and not 5554. -/
def maskArr (tg : IVec S8192 32) : IVec S8192 1 :=
  andi
    (andi (cmpi .sge (labelWords tg) (broadcastInDim S8192 ![] bcast_S_S8192 (constantI S_ 32 0#32)))
      (cmpi .slt (labelWords tg) (broadcastInDim S8192 ![] bcast_S_S8192 (constantI S_ 32 10532#32))))
    (cmpi .ne (labelWords tg) (broadcastInDim S8192 ![] bcast_S_S8192 (constantI S_ 32 5554#32)))

/-- The label clamped into [0, 10531]. -/
def clamped (tg : IVec S8192 32) : IVec S8192 32 :=
  minsi (broadcastInDim S8192 ![] bcast_S_S8192 (constantI S_ 32 10531#32))
    (maxsi (broadcastInDim S8192 ![] bcast_S_S8192 (constantI S_ 32 0#32)) (labelWords tg))

/-- The table row each batch row reads, as a column of index words. -/
def gatherIndex (tg : IVec S8192 32) : IVec S8192x1 32 :=
  broadcastInDim S8192x1 ![0] bcast_S8192_S8192x1_0
    (select (cmpi .slt (clamped tg) (broadcastInDim S8192 ![] bcast_S_S8192 (constantI S_ 32 0#32)))
      (addi (clamped tg) (broadcastInDim S8192 ![] bcast_S_S8192 (constantI S_ 32 10752#32)))
      (clamped tg))

/-- The class table: the two weight tables stacked, then 220 rows of zeros. -/
def paddedTable (lut : FVec Ideal S5532x256 .f32) (cq : FVec Ideal S5000x256 .f32) : FVec Ideal S10752x256 .f32 :=
  pad S10752x256 ![0, 0] ![220, 0] ![0, 0]
    (concatenate S10532x256 0 [⟨S5532x256, lut⟩, ⟨S5000x256, cq⟩] concatenates_S5532x256_S5000x256_S10532x256_d0)
    (sitofp (F := Ideal) .f32 (constantI S_ 32 0#32)) pads_S10532x256_S10752x256_02200_000 h_S_

/-- The class table in the narrower format. -/
def tableArr (lut : FVec Ideal S5532x256 .f32) (cq : FVec Ideal S5000x256 .f32) : FVec Ideal S10752x256 .bf16 :=
  truncf .bf16 (paddedTable lut cq) bitsLt_bf16_f32

/-- Each row's target logit, as a column. -/
def targetLogitArr (x : FVec Ideal S8192x256 .f32) (tg : IVec S8192 32) (lut : FVec Ideal S5532x256 .f32)
    (cq : FVec Ideal S5000x256 .f32) : FVec Ideal S8192x1 .f32 :=
  mulf
    (broadcastInDim S8192x1 ![0] bcast_S8192_S8192x1_0
      (Host.reduceAdd (F := Ideal)
        (mulf (extf .f32 (truncf .bf16 x bitsLt_bf16_f32) bitsLt_bf16_f32)
          (extf .f32
            (Host.gather gather_S10752x256_S8192x1_S8192x256_1_0_n_n_0_1_1256 (tableArr lut cq) (gatherIndex tg))
            bitsLt_bf16_f32))
        (constant (F := Ideal) S_ .f32 0x00000000#32) reducesTo_S8192x256_S8192_d1 h_S_))
    (broadcastInDim S8192x1 ![] bcast_S_S8192x1 (constant (F := Ideal) S_ .f32 0x41F00000#32))

/-! ## The stages at an index -/

/-- The mask at a row is that row's mask word. -/
theorem maskArr_apply (tg : IVec S8192 32) (i : S8192.Idx) : maskArr tg i = maskWord (tg i) := rfl

/-- The index column at a row is that row's index word. -/
theorem gatherIndex_apply (tg : IVec S8192 32) (n : Fin 8192) : gatherIndex tg (ix2 n 0) = gatherWord (tg (ix1 n)) := by
  unfold gatherIndex
  refine (broadcastInDim_apply ![0] bcast_S8192_S8192x1_0 _ (ix2 n 0) (ix1 n) (fun a => ?_)).trans rfl
  obtain rfl : a = 0 := Subsingleton.elim _ _
  rfl

/-- The stacked tables at class j are class j's weight row. -/
theorem concat_apply (lut : FVec Ideal S5532x256 .f32) (cq : FVec Ideal S5000x256 .f32) (j : Fin 10532) (f : Fin 256) :
    concatenate S10532x256 0 [⟨S5532x256, lut⟩, ⟨S5000x256, cq⟩] concatenates_S5532x256_S5000x256_S10532x256_d0 (ix2 j f)
      = Cert.RowLoss.weight lut cq j f := by
  unfold Cert.RowLoss.weight
  by_cases h : j.val < 5532
  · rw [dif_pos h]
    exact concatenate_pair_apply_left (0 : Fin 2) lut cq _ (ix2 j f) rfl (ix2 (⟨j.val, h⟩ : Fin 5532) f)
      (fun b => by match b with | ⟨0, _⟩ => rfl | ⟨1, _⟩ => rfl)
  · rw [dif_neg h]
    exact concatenate_pair_apply_right (0 : Fin 2) lut cq _ (ix2 j f) rfl rfl
      (ix2 (⟨j.val - 5532, by have := j.isLt; omega⟩ : Fin 5000) f)
      (fun b hb => by match b, hb with | ⟨0, _⟩, hb => exact absurd rfl hb | ⟨1, _⟩, _ => rfl)
      (by show (j.val - 5532) + 5532 = j.val; omega)

/-- The class table at row j: class j's weight row below 10532, zero from there on. -/
theorem paddedTable_apply (lut : FVec Ideal S5532x256 .f32) (cq : FVec Ideal S5000x256 .f32) (j : Fin 10752) (f : Fin 256) :
    paddedTable lut cq (ix2 j f) = if h : j.val < 10532 then Cert.RowLoss.weight lut cq ⟨j.val, h⟩ f else 0 := by
  unfold paddedTable
  by_cases h : j.val < 10532
  · rw [dif_pos h]
    refine (pad_apply_of_inside (s := S10532x256) (t := S10752x256) ![0, 0] ![220, 0] ![0, 0] _ _ pads_S10532x256_S10752x256_02200_000 h_S_ (ix2 j f)
      (ix2 (⟨j.val, h⟩ : Fin 10532) f) (fun a => ?_)).trans (concat_apply lut cq ⟨j.val, h⟩ f)
    match a with
    | ⟨0, _⟩ => show j.val = 0 + j.val * (0 + 1); omega
    | ⟨1, _⟩ => show f.val = 0 + f.val * (0 + 1); omega
  · rw [dif_neg h]
    refine (pad_apply_of_not_inside (s := S10532x256) (t := S10752x256) ![0, 0] ![220, 0] ![0, 0] _ _
      pads_S10532x256_S10752x256_02200_000 h_S_ (ix2 j f) (0 : Fin 2) (fun hc => h ?_)).trans ?_
    · have h3 := hc.2.2
      change (j.val - 0) / (0 + 1) < 10532 at h3
      omega
    · exact sitofp_zero

/-- The narrower format changes no value. -/
theorem tableArr_apply (lut : FVec Ideal S5532x256 .f32) (cq : FVec Ideal S5000x256 .f32) (i : S10752x256.Idx) :
    tableArr lut cq i = paddedTable lut cq i := rfl

/-- A gathered row: entry f of batch row n is entry f of the table row the index word names, read signed and kept
    within the table. -/
theorem gather_row_apply {α : Type} (T : S10752x256.Idx → α) (idx : IVec S8192x1 32) (n : Fin 8192) (f : Fin 256)
    (r : Fin 10752) (hr : r.val = min (idx (ix2 n 0)).toInt.toNat 10751) :
    Host.gather gather_S10752x256_S8192x1_S8192x256_1_0_n_n_0_1_1256 T idx (ix2 n f) = T (ix2 r f) := by
  have h0 : gather_S10752x256_S8192x1_S8192x256_1_0_n_n_0_1_1256.start (ix2 n f) idx (0 : Fin 2)
      + gather_S10752x256_S8192x1_S8192x256_1_0_n_n_0_1_1256.batchCoord (ix2 n f) (0 : Fin 2)
      + gather_S10752x256_S8192x1_S8192x256_1_0_n_n_0_1_1256.offCoord (ix2 n f) (0 : Fin 2) = r.val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10752x256_S8192x1_S8192x256_1_0_n_n_0_1_1256.startIndexMap from
      List.mem_singleton.mpr rfl)]
    have hsi : gather_S10752x256_S8192x1_S8192x256_1_0_n_n_0_1_1256.siIdx (ix2 n f)
        ⟨List.idxOf (0 : Fin 2) gather_S10752x256_S8192x1_S8192x256_1_0_n_n_0_1_1256.startIndexMap,
          List.idxOf_lt_length_iff.2 (List.mem_singleton.mpr rfl)⟩ = ix2 n 0 := by
      funext b; refine Fin.ext ?_
      match b with
      | ⟨0, _⟩ => rfl
      | ⟨1, _⟩ => rfl
    rw [hsi]
    exact hr.symm
  have h1 : gather_S10752x256_S8192x1_S8192x256_1_0_n_n_0_1_1256.start (ix2 n f) idx (1 : Fin 2)
      + gather_S10752x256_S8192x1_S8192x256_1_0_n_n_0_1_1256.batchCoord (ix2 n f) (1 : Fin 2)
      + gather_S10752x256_S8192x1_S8192x256_1_0_n_n_0_1_1256.offCoord (ix2 n f) (1 : Fin 2) = f.val := by
    rw [GatherDims.batchCoord_eq_zero _ _ _ List.not_mem_nil]
    simp only [Nat.add_zero]
    have hs : gather_S10752x256_S8192x1_S8192x256_1_0_n_n_0_1_1256.start (ix2 n f) idx (1 : Fin 2) = 0 := by
      unfold GatherDims.start; rw [dif_neg (by decide)]
    have ho : gather_S10752x256_S8192x1_S8192x256_1_0_n_n_0_1_1256.offCoord (ix2 n f) (1 : Fin 2) = f.val := by
      unfold GatherDims.offCoord; rw [dif_pos (by decide)]; rfl
    rw [hs, ho, Nat.zero_add]
  unfold Host.gather
  refine congrArg T (funext fun a => Fin.ext ?_)
  match a with
  | ⟨0, _⟩ => exact h0
  | ⟨1, _⟩ => exact h1

/-- The feature axis is the one summed over. -/
theorem reduces_d1 : S8192x256.Reduces [1] S8192 := by decide

/-- The index over row n with feature k inserted. -/
theorem lift_eq (n : Fin 8192) (k : Fin 256) : reduces_d1.lift (ix1 n) k = ix2 n k := by
  funext a; refine Fin.ext ?_
  match a with
  | ⟨0, _⟩ => rfl
  | ⟨1, _⟩ => rfl

/-- The sum over the feature axis from zero, at row n. -/
theorem rowSum_apply (X : FVec Ideal S8192x256 .f32) (n : Fin 8192) :
    Host.reduceAdd (F := Ideal) X (constant (F := Ideal) S_ .f32 0x00000000#32) reducesTo_S8192x256_S8192_d1 h_S_ (ix1 n)
      = ∑ f : Fin 256, X (ix2 n f) := by
  refine (Ideal.hostReduceAdd_single reducesTo_S8192x256_S8192_d1 reduces_d1 X _ (ix1 n)).trans ?_
  rw [show (constant (F := Ideal) S_ .f32 0x00000000#32 (Shape.Idx.first h_S_) : EReal) = 0 from Ideal.ofBits_zero_f32,
    zero_add]
  exact Finset.sum_congr rfl fun k _ => congrArg X (lift_eq n k)

/-- On an admitted target, row n's target logit is the logit of row n at its label. -/
theorem targetLogitArr_apply (x : FVec Ideal S8192x256 .f32) (tg : IVec S8192 32) (lut : FVec Ideal S5532x256 .f32)
    (cq : FVec Ideal S5000x256 .f32) (n : Fin 8192) (h1 : 1 ≤ (tg (ix1 n)).toInt) (h2 : (tg (ix1 n)).toInt ≤ 10532) :
    targetLogitArr x tg lut cq (ix2 n 0) = Cert.RowLoss.logit x lut cq n (Cert.RowLoss.label tg n) := by
  obtain ⟨hw, hsub, hint⟩ := Cert.Admitted.word_sub_one _ h1 h2
  have hlab := (Cert.Admitted.label_word (tg := tg) n h1 h2).2
  have hlt := (Cert.RowLoss.label tg n).isLt
  unfold targetLogitArr Cert.RowLoss.logit
  refine (mulf_apply _ _ (ix2 n 0)).trans ?_
  refine congrArg₂ (· * ·) ?_ ?_
  · refine (broadcastInDim_apply ![0] bcast_S8192_S8192x1_0 _ (ix2 n 0) (ix1 n) (fun a => ?_)).trans ?_
    · obtain rfl : a = 0 := Subsingleton.elim _ _
      rfl
    refine (rowSum_apply _ n).trans ?_
    refine Finset.sum_congr rfl fun f _ => ?_
    refine (mulf_apply _ _ (ix2 n f)).trans ?_
    refine congrArg₂ (· * ·) ((extf_apply (ψ := .f32) (truncf .bf16 x bitsLt_bf16_f32) bitsLt_bf16_f32 (ix2 n f)).trans
      (truncf_apply (ψ := .bf16) x bitsLt_bf16_f32 (ix2 n f))) ?_
    refine (extf_apply (ψ := .f32)
      (Host.gather gather_S10752x256_S8192x1_S8192x256_1_0_n_n_0_1_1256 (tableArr lut cq) (gatherIndex tg))
      bitsLt_bf16_f32 (ix2 n f)).trans ?_
    refine (gather_row_apply (tableArr lut cq) (gatherIndex tg) n f
      (⟨(Cert.RowLoss.label tg n).val, by omega⟩ : Fin 10752) ?_).trans ?_
    · rw [gatherIndex_apply, gatherWord_eq _ h1 h2]
      show (Cert.RowLoss.label tg n).val = min (tg (ix1 n) - 1#32).toInt.toNat 10751
      omega
    · refine (tableArr_apply lut cq _).trans ?_
      refine (paddedTable_apply lut cq _ f).trans ?_
      rw [dif_pos (show (Cert.RowLoss.label tg n).val < 10532 from hlt)]
  · exact broadcastInDim_scalar_apply _ _ _

/-! ## The buffers the kernel call finds -/

variable (m : (ℓ : Loc nD τ sig) → Buf (Elt Ideal) ℓ) (c : Dev nD)

/-- The batch's features. -/
abbrev xIn : FVec Ideal S8192x256 .f32 := m ((c : Thread nD τ).loc main_arg0)
/-- The batch's targets. -/
abbrev tgIn : IVec S8192 32 := m ((c : Thread nD τ).loc main_arg1)
/-- The first weight table. -/
abbrev lutIn : FVec Ideal S5532x256 .f32 := m ((c : Thread nD τ).loc main_arg3)
/-- The second weight table. -/
abbrev cqIn : FVec Ideal S5000x256 .f32 := m ((c : Thread nD τ).loc main_arg4)

/-- The feature window's array is the features in the narrower format. -/
theorem features_eq : (V (F := Ideal) m c main_v14 : FVec Ideal S8192x256 .bf16) = truncf .bf16 (xIn m c) bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results

/-- The mask buffer. -/
theorem mask_eq : (V (F := Ideal) m c main_v9 : IVec S8192 1) = maskArr (tgIn m c) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The class-table window's array. -/
theorem table_eq : (V (F := Ideal) m c main_v13 : FVec Ideal S10752x256 .bf16) = tableArr (lutIn m c) (cqIn m c) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  simp only [StableHlo.TRef.ofBuf, StableHlo.TRef.toBuf, cast_eq]
  rfl

set_option maxHeartbeats 2000000 in
/-- The target-logit window's array. -/
theorem targetLogit_eq : (V (F := Ideal) m c main_v28 : FVec Ideal S8192x1 .f32)
    = targetLogitArr (xIn m c) (tgIn m c) (lutIn m c) (cqIn m c) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  simp only [StableHlo.TRef.unary, StableHlo.TRef.binary, StableHlo.TRef.ternary, StableHlo.TRef.nullary]
  after_results_simp
  repeat (first
    | (rw [StableHlo.nullary_result_ne]; rotate_left; decide)
    | (rw [StableHlo.unary_result_ne]; rotate_left; decide)
    | (rw [StableHlo.binary_result_ne]; rotate_left; decide))
  simp only [StableHlo.TRef.ofBuf, StableHlo.TRef.toBuf, cast_eq, id_eq]
  rfl

/-- Window 0: the batch's features. -/
theorem V_features (n : Fin 8192) (f : Fin 256) :
    (V (F := Ideal) m c main_v14 : S8192x256.Idx → EReal) (ix2 n f) = (xIn m c : S8192x256.Idx → EReal) (ix2 n f) :=
  congrFun (features_eq m c) (ix2 n f)

/-- Window 1: the class table. -/
theorem V_table (j : Fin 10752) (f : Fin 256) :
    (V (F := Ideal) m c main_v13 : S10752x256.Idx → EReal) (ix2 j f)
      = if h : j.val < 10532 then Cert.RowLoss.weight (lutIn m c) (cqIn m c) ⟨j.val, h⟩ f else 0 :=
  (congrFun (table_eq m c) (ix2 j f)).trans ((tableArr_apply (lutIn m c) (cqIn m c) (ix2 j f)).trans
    (paddedTable_apply (lutIn m c) (cqIn m c) j f))

/-- The mask is the shared definition's, on admitted inputs. -/
theorem V_mask (hadm : Cert.RowLoss.Admitted (xIn m c) (tgIn m c) (lutIn m c) (cqIn m c)) :
    (V (F := Ideal) m c main_v9 : IVec S8192 1) = Cert.RowLoss.valid (tgIn m c) := by
  refine (mask_eq m c).trans (funext fun i => ?_)
  obtain ⟨n, rfl⟩ : ∃ n, i = ix1 n := ⟨i 0, eq_ix1 i⟩
  exact maskWord_eq _ (hadm.target_range n).1 (hadm.target_range n).2

/-- Window 2: each row's target logit, on admitted inputs. -/
theorem V_targetLogit (hadm : Cert.RowLoss.Admitted (xIn m c) (tgIn m c) (lutIn m c) (cqIn m c)) (n : Fin 8192) :
    (V (F := Ideal) m c main_v28 : S8192x1.Idx → EReal) (ix2 n 0)
      = Cert.RowLoss.logit (xIn m c) (lutIn m c) (cqIn m c) n (Cert.RowLoss.label (tgIn m c) n) :=
  (congrFun (targetLogit_eq m c) (ix2 n 0)).trans
    (targetLogitArr_apply _ _ _ _ n (hadm.target_range n).1 (hadm.target_range n).2)

end Cert.KernelIdeal.HostValue

end
-- ==== Proof.IdealBlocks.lean ====
/-
  What each window's block holds at a grid point, at explicit coordinates.

  The grid has 48 points t = qi * 6 + ki (8 row tiles, 6 class tiles). The feature block at t is rows
  qi * 1024 .. qi * 1024 + 1023 of the feature array; the class-table block is rows ki * 1792 .. ki * 1792 + 1791
  of the padded table; the target-logit block is rows qi * 1024 .. of the target-logit column. A block's
  coordinate in its array is always block index times block size plus the coordinate inside the block.
-/
import proofs.«415740_j40690520162428_3_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

variable (m : (ℓ : Loc nD τ sig) → Buf (Elt Ideal) ℓ)

/-- The printed index maps, decided once over the grid: the feature, target-logit and output blocks move with the
    row tile t / 6, the class-table block with the class tile t % 6; every block starts at column 0. -/
theorem index_facts : ∀ t : Fin cfg0.N,
    win0_0.index t (0 : Fin 2) = t.val / 6 ∧ win0_0.index t (1 : Fin 2) = 0
    ∧ win0_1.index t (0 : Fin 2) = t.val % 6 ∧ win0_1.index t (1 : Fin 2) = 0
    ∧ win0_2.index t (0 : Fin 2) = t.val / 6 ∧ win0_2.index t (1 : Fin 2) = 0
    ∧ win0_3.index t (0 : Fin 2) = t.val / 6 ∧ win0_3.index t (1 : Fin 2) = 0 :=
  (by decide +kernel : ∀ t : Fin grid0.N, _)

/-- A grid point is below 48. -/
theorem point_lt (t : Fin cfg0.N) : t.val < 48 :=
  lt_of_lt_of_eq t.isLt (show cfg0.N = 48 from N_0)

/-- Row p of the row tile of point t is a row of the batch. -/
theorem row_lt (t : Fin cfg0.N) (p : Fin 1024) : t.val / 6 * 1024 + p.val < 8192 := by
  have := point_lt t; have := p.isLt; omega

/-- Lane q of the class tile of point t is a row of the padded class table. -/
theorem lane_lt (t : Fin cfg0.N) (q : Fin 1792) : t.val % 6 * 1792 + q.val < 10752 := by
  have := point_lt t; have := q.isLt; omega

/-- The feature block at point t, at an index of the block and the index of the array it sits at. -/
theorem iblk0_at (c : Dev nD) (t : Fin cfg0.N) (y : S1024x256.Idx) (k : S8192x256.Idx)
    (hk0 : (k 0).val = t.val / 6 * 1024 + (y 0).val) (hk1 : (k 1).val = (y 1).val) :
    (iblk (F := Ideal) m c 0 t : S1024x256.Idx → EReal) y = (V (F := Ideal) m c main_v14 : S8192x256.Idx → EReal) k := by
  obtain ⟨e0, e1, -⟩ := index_facts t
  unfold iblk
  rw [View.read_apply]
  show V m c main_v14 _ = V m c main_v14 _
  congr 1
  funext a
  apply Fin.ext
  match a with
  | ⟨0, _⟩ => show win0_0.index t (0 : Fin 2) * 1024 + 1 * (y 0).val = (k 0).val; rw [e0, hk0]; omega
  | ⟨1, _⟩ => show win0_0.index t (1 : Fin 2) * 256 + 1 * (y 1).val = (k 1).val; rw [e1, hk1]; omega

/-- The class-table block at point t, at an index of the block and the index of the array it sits at. -/
theorem iblk1_at (c : Dev nD) (t : Fin cfg0.N) (y : S1792x256.Idx) (k : S10752x256.Idx)
    (hk0 : (k 0).val = t.val % 6 * 1792 + (y 0).val) (hk1 : (k 1).val = (y 1).val) :
    (iblk (F := Ideal) m c 1 t : S1792x256.Idx → EReal) y = (V (F := Ideal) m c main_v13 : S10752x256.Idx → EReal) k := by
  obtain ⟨-, -, e0, e1, -⟩ := index_facts t
  unfold iblk
  rw [View.read_apply]
  show V m c main_v13 _ = V m c main_v13 _
  congr 1
  funext a
  apply Fin.ext
  match a with
  | ⟨0, _⟩ => show win0_1.index t (0 : Fin 2) * 1792 + 1 * (y 0).val = (k 0).val; rw [e0, hk0]; omega
  | ⟨1, _⟩ => show win0_1.index t (1 : Fin 2) * 256 + 1 * (y 1).val = (k 1).val; rw [e1, hk1]; omega

/-- The target-logit block at point t, at an index of the block and the index of the array it sits at. -/
theorem iblk2_at (c : Dev nD) (t : Fin cfg0.N) (y : S1024x1.Idx) (k : S8192x1.Idx)
    (hk0 : (k 0).val = t.val / 6 * 1024 + (y 0).val) (hk1 : (k 1).val = (y 1).val) :
    (iblk (F := Ideal) m c 2 t : S1024x1.Idx → EReal) y = (V (F := Ideal) m c main_v28 : S8192x1.Idx → EReal) k := by
  obtain ⟨-, -, -, -, e0, e1, -⟩ := index_facts t
  unfold iblk
  rw [View.read_apply]
  show V m c main_v28 _ = V m c main_v28 _
  congr 1
  funext a
  apply Fin.ext
  match a with
  | ⟨0, _⟩ => show win0_2.index t (0 : Fin 2) * 1024 + 1 * (y 0).val = (k 0).val; rw [e0, hk0]; omega
  | ⟨1, _⟩ => show win0_2.index t (1 : Fin 2) * 1 + 1 * (y 1).val = (k 1).val; rw [e1, hk1]; omega

/-- Row p, feature f of the feature block at point t is row (t / 6) * 1024 + p, feature f of the feature array. -/
theorem iblk0_apply (c : Dev nD) (t : Fin cfg0.N) (p : Fin 1024) (f : Fin 256) :
    (iblk (F := Ideal) m c 0 t : S1024x256.Idx → EReal) (ix2 p f)
      = (V (F := Ideal) m c main_v14 : S8192x256.Idx → EReal) (ix2 (⟨t.val / 6 * 1024 + p.val, row_lt t p⟩ : Fin 8192) f) :=
  iblk0_at m c t (ix2 p f) (ix2 (⟨t.val / 6 * 1024 + p.val, row_lt t p⟩ : Fin 8192) f) rfl rfl

/-- Lane q, feature f of the class-table block at point t is row (t % 6) * 1792 + q, feature f of the padded table. -/
theorem iblk1_apply (c : Dev nD) (t : Fin cfg0.N) (q : Fin 1792) (f : Fin 256) :
    (iblk (F := Ideal) m c 1 t : S1792x256.Idx → EReal) (ix2 q f)
      = (V (F := Ideal) m c main_v13 : S10752x256.Idx → EReal) (ix2 (⟨t.val % 6 * 1792 + q.val, lane_lt t q⟩ : Fin 10752) f) :=
  iblk1_at m c t (ix2 q f) (ix2 (⟨t.val % 6 * 1792 + q.val, lane_lt t q⟩ : Fin 10752) f) rfl rfl

/-- Row p of the target-logit block at point t is row (t / 6) * 1024 + p of the target-logit column. -/
theorem iblk2_apply (c : Dev nD) (t : Fin cfg0.N) (p : Fin 1024) :
    (iblk (F := Ideal) m c 2 t : S1024x1.Idx → EReal) (ix2 p (0 : Fin 1))
      = (V (F := Ideal) m c main_v28 : S8192x1.Idx → EReal) (ix2 (⟨t.val / 6 * 1024 + p.val, row_lt t p⟩ : Fin 8192) (0 : Fin 1)) :=
  iblk2_at m c t (ix2 p (0 : Fin 1)) (ix2 (⟨t.val / 6 * 1024 + p.val, row_lt t p⟩ : Fin 8192) (0 : Fin 1)) rfl rfl

end Cert.KernelIdeal.Hand

end
-- ==== Proof.IdealTileRows.lean ====
/-
  A grid point's logit tile is the row's logits laid out in tiles.

  Point t = qi * 6 + ki takes rows qi * 1024 .. of the features and rows ki * 1792 .. of the padded class table.
  Row p, lane q of its tile is thirty times the inner product of feature row qi * 1024 + p with table row
  ki * 1792 + q, which, for a lane below class 10532, is the logit of that row and class ki * 1792 + q. On the
  first five class tiles every lane is a class; on the last the lanes from 10532 on hold -∞ on both sides.
-/
import proofs.«415740_j40690520162428_3_alg».proof.Proof.TileValues
import proofs.«415740_j40690520162428_3_alg».proof.Proof.IdealBlocks
import proofs.«415740_j40690520162428_3_alg».proof.Proof.RowLoss

noncomputable section

open Idealize.ShloMosaic Idealize.ShloMosaic.TcCoe Idealize.SL.Sem
open Idealize.ShloMosaic.Pipeline (Dat)
open Idealize.ShloMosaic.ValueIdx
open scoped BigOperators

namespace Cert.KernelIdeal.Hand

open Cert.KernelIdeal Cert.KernelIdeal.Gen

variable (m : (ℓ : Loc nD τ sig) → Buf (Elt Ideal) ℓ) (c : Dev nD)
variable (x : FVec Ideal Cert.RowLoss.SX .f32) (lut : FVec Ideal Cert.RowLoss.SLut .f32) (cq : FVec Ideal Cert.RowLoss.SCq .f32)

/-- Row p, lane q of point t's tile, for a lane that is a class: the logit of row (t / 6) * 1024 + p and class
    (t % 6) * 1792 + q. -/
theorem tile_at
    (hX : ∀ (n : Fin 8192) (f : Fin 256), (V (F := Ideal) m c main_v14 : S8192x256.Idx → EReal) (ix2 n f) = x (ix2 n f))
    (hW : ∀ (j : Fin 10752) (f : Fin 256), (V (F := Ideal) m c main_v13 : S10752x256.Idx → EReal) (ix2 j f)
      = if h : j.val < 10532 then Cert.RowLoss.weight lut cq ⟨j.val, h⟩ f else 0)
    (t : Fin cfg0.N) (p : Fin 1024) (q : Fin 1792) (hq : t.val % 6 * 1792 + q.val < 10532) :
    TileValues.tile (iblk (F := Ideal) m c 0 t) (iblk (F := Ideal) m c 1 t) p q
      = Cert.RowLoss.logit x lut cq ⟨t.val / 6 * 1024 + p.val, row_lt t p⟩ ⟨t.val % 6 * 1792 + q.val, hq⟩ := by
  unfold TileValues.tile Cert.RowLoss.logit
  refine congrArg (· * Cert.RowLoss.scale) (Finset.sum_congr rfl fun f _ => ?_)
  refine congrArg₂ (· * ·) ((iblk0_apply m c t p f).trans (hX _ f)) ?_
  refine (iblk1_apply m c t q f).trans ((hW _ f).trans ?_)
  exact dif_pos hq

/-- On the first five class tiles every lane is a class: the tile is the row's logits laid out in tiles. -/
theorem tile_eq_tiled
    (hX : ∀ (n : Fin 8192) (f : Fin 256), (V (F := Ideal) m c main_v14 : S8192x256.Idx → EReal) (ix2 n f) = x (ix2 n f))
    (hW : ∀ (j : Fin 10752) (f : Fin 256), (V (F := Ideal) m c main_v13 : S10752x256.Idx → EReal) (ix2 j f)
      = if h : j.val < 10532 then Cert.RowLoss.weight lut cq ⟨j.val, h⟩ f else 0)
    (t : Fin cfg0.N) (h5 : t.val % 6 < 5) (p : Fin 1024) (q : Fin 1792) :
    TileValues.tile (iblk (F := Ideal) m c 0 t) (iblk (F := Ideal) m c 1 t) p q
      = Cert.LogSumExp.tiled 1792 (fun j => Cert.RowLoss.logit x lut cq ⟨t.val / 6 * 1024 + p.val, row_lt t p⟩ j) (t.val % 6) q := by
  have hq : t.val % 6 * 1792 + q.val < 10532 := by have := q.isLt; omega
  unfold Cert.LogSumExp.tiled
  rw [dif_pos hq]
  exact tile_at m c x lut cq hX hW t p q hq

/-- On the last class tile the lanes below class 10532 are the row's logits and the lanes from it on are -∞, as the
    row's logits laid out in tiles are. -/
theorem maskedTile_eq_tiled
    (hX : ∀ (n : Fin 8192) (f : Fin 256), (V (F := Ideal) m c main_v14 : S8192x256.Idx → EReal) (ix2 n f) = x (ix2 n f))
    (hW : ∀ (j : Fin 10752) (f : Fin 256), (V (F := Ideal) m c main_v13 : S10752x256.Idx → EReal) (ix2 j f)
      = if h : j.val < 10532 then Cert.RowLoss.weight lut cq ⟨j.val, h⟩ f else 0)
    (t : Fin cfg0.N) (h5 : t.val % 6 = 5) (p : Fin 1024) (q : Fin 1792) :
    TileValues.maskedTile (k0_pay3 (F := Ideal) (iblk (F := Ideal) m c 0 t) (iblk (F := Ideal) m c 1 t)) p q
      = Cert.LogSumExp.tiled 1792 (fun j => Cert.RowLoss.logit x lut cq ⟨t.val / 6 * 1024 + p.val, row_lt t p⟩ j) 5 q := by
  unfold TileValues.maskedTile Cert.LogSumExp.tiled
  by_cases hq : 5 * 1792 + q.val < 10532
  · rw [if_pos hq, dif_pos hq]
    have hq' : t.val % 6 * 1792 + q.val < 10532 := by rw [h5]; exact hq
    refine (TileValues.pay3_apply _ _ p q).trans ((tile_at m c x lut cq hX hW t p q hq').trans ?_)
    exact congrArg (Cert.RowLoss.logit x lut cq ⟨t.val / 6 * 1024 + p.val, row_lt t p⟩) (Fin.ext (by show t.val % 6 * 1792 + q.val = 5 * 1792 + q.val; rw [h5]))
  · rw [if_neg hq, dif_neg hq]

end Cert.KernelIdeal.Hand

end
-- ==== Proof.RowLossReal.lean ====
/-
  Every logit of admitted inputs is a real number.

  The scale's word denotes the real number 30. Entry f of class j's weight row is an entry of one of the two tables,
  both real. A product of two real numbers is real, a finite sum of real numbers is real, so the inner product of a
  feature vector with a weight row is real, and so is that inner product times the scale.
-/
import proofs.«415740_j40690520162428_3_alg».proof.Proof.RowLoss

noncomputable section

namespace Cert.RowLoss

open Idealize.ShloMosaic Idealize.ShloMosaic.ValueIdx
open scoped BigOperators

/-- The scale's word denotes 30. -/
theorem scale_eq : scale = ((30 : ℝ) : EReal) := by
  unfold scale
  simp [Ideal.ofBits, Ideal.ieee, -EReal.coe_mul]; norm_num

theorem scale_real : ∃ r : ℝ, scale = (r : EReal) := ⟨30, scale_eq⟩

/-- A weight entry is an entry of the first table or of the second. -/
theorem weight_real {lut : FVec Ideal SLut .f32} {cq : FVec Ideal SCq .f32}
    (hl : ∀ i, ∃ r : ℝ, lut i = (r : EReal)) (hc : ∀ i, ∃ r : ℝ, cq i = (r : EReal))
    (j : Fin 10532) (f : Fin 256) : ∃ r : ℝ, weight lut cq j f = (r : EReal) := by
  unfold weight
  split_ifs with h
  · exact hl _
  · exact hc _

/-- A finite sum of real numbers, taken in the extended reals, is a real number. -/
theorem sum_real {ι : Type*} (s : Finset ι) (g : ι → EReal) (hg : ∀ i, ∃ r : ℝ, g i = (r : EReal)) :
    ∃ r : ℝ, ∑ i ∈ s, g i = (r : EReal) := by
  classical
  induction s using Finset.induction_on with
  | empty => exact ⟨0, by rw [Finset.sum_empty, EReal.coe_zero]⟩
  | insert i s hi ih =>
    obtain ⟨r, hr⟩ := ih
    obtain ⟨t, ht⟩ := hg i
    exact ⟨t + r, by rw [Finset.sum_insert hi, hr, ht, EReal.coe_add]⟩

/-- A logit is a real inner product times the real scale. -/
theorem logit_real {x : FVec Ideal SX .f32} {tg : IVec Loss.Rows 32} {lut : FVec Ideal SLut .f32}
    {cq : FVec Ideal SCq .f32} (h : Admitted x tg lut cq) (n : Fin 8192) (j : Fin 10532) :
    ∃ r : ℝ, logit x lut cq n j = (r : EReal) := by
  unfold logit
  obtain ⟨s, hs⟩ := sum_real Finset.univ (fun f : Fin 256 => x (ix2 n f) * weight lut cq j f) (fun f => by
    obtain ⟨u, hu⟩ := h.x_real (ix2 n f)
    obtain ⟨w, hw⟩ := weight_real h.lut_real h.cq_real j f
    refine ⟨u * w, ?_⟩
    show x (ix2 n f) * weight lut cq j f = _
    rw [hu, hw, EReal.coe_mul])
  obtain ⟨c, hc⟩ := scale_real
  exact ⟨s * c, by rw [hs, hc, EReal.coe_mul]⟩

end Cert.RowLoss

end
-- ==== Proof.IdealTiles.lean ====
/-
  The running maximum and sum along the class tiles, and what a last-tile point stores.

  Row p of row tile qi is row n = qi * 1024 + p of the batch. Laid out in tiles of 1792 lanes, lane q of tile k of
  row n's logits is the logit of class k * 1792 + q, and -∞ from class 10532 on. At class tile k < 5 the kernel's
  tile (features times class-table block, scaled) is tile k of that layout; at class tile 5 the masked tile is tile 5.
  By induction on the class tile, the carried maximum and sum after the point at class tile k are the running
  maximum and sum of the row's logits after tiles 0 … k: the first point starts from -∞ and 0, each later point takes
  one step from what the point before left. The last point stores maximum plus log of the sum minus the row's target
  logit, which is the tiled form of the row's negative log-probability at its label, equal to the untiled form
  because the logits are real numbers.
-/
import proofs.«415740_j40690520162428_3_alg».proof.Proof.IdealFrame
import proofs.«415740_j40690520162428_3_alg».proof.Proof.IdealPieces
import proofs.«415740_j40690520162428_3_alg».proof.Proof.TileValues
import proofs.«415740_j40690520162428_3_alg».proof.Proof.IdealHostBefore
import proofs.«415740_j40690520162428_3_alg».proof.Proof.IdealBlocks
import proofs.«415740_j40690520162428_3_alg».proof.Proof.IdealTileRows
import proofs.«415740_j40690520162428_3_alg».proof.Proof.RowLoss
import proofs.«415740_j40690520162428_3_alg».proof.Proof.RowLossReal
import Idealize.ShloMosaic.Lib.ValueIdx

noncomputable section

open Idealize.ShloMosaic Idealize.ShloMosaic.TcCoe Idealize.SL.Sem
open Idealize.ShloMosaic.ValueIdx
open scoped BigOperators

namespace Cert.KernelIdeal.Hand

open Cert.KernelIdeal Cert.KernelIdeal.Gen
open Cert.LogSumExp

variable (m : (ℓ : Loc nD τ sig) → Buf (Elt Ideal) ℓ) (c : Dev nD)

namespace Tiles

/-- The feature array, the targets and the two class tables as launched. -/
abbrev argX : FVec Ideal RowLoss.SX .f32 := m ((c : Thread nD τ).loc main_arg0)
abbrev argTg : IVec Loss.Rows 32 := m ((c : Thread nD τ).loc main_arg1)
abbrev argLut : FVec Ideal RowLoss.SLut .f32 := m ((c : Thread nD τ).loc main_arg3)
abbrev argCq : FVec Ideal RowLoss.SCq .f32 := m ((c : Thread nD τ).loc main_arg4)

/-- Row n's logits, one per class. -/
abbrev rowLogits (n : Fin 8192) : Fin 10532 → EReal := fun j => RowLoss.logit (argX m c) (argLut m c) (argCq m c) n j

/-- The three input blocks at a point, at their literal types. -/
abbrev xBlk (t : Fin cfg0.N) : FVec Ideal S1024x256 .bf16 := iblk (F := Ideal) m c 0 t
abbrev wBlk (t : Fin cfg0.N) : FVec Ideal S1792x256 .bf16 := iblk (F := Ideal) m c 1 t
abbrev tBlk (t : Fin cfg0.N) : FVec Ideal S1024x1 .f32 := iblk (F := Ideal) m c 2 t

/-- The class-tile coordinate of a grid point, decided once over the grid. -/
theorem coord_facts : ∀ t : Fin cfg0.N, ((grid0.coords t) 1).val = t.val % 6 :=
  (by decide +kernel : ∀ t : Fin grid0.N, _)

/-! ## What each point leaves for one row -/

/-- A point at class tile 0 starts the row's maximum and sum from -∞ and 0. -/
theorem state_first (t : Fin cfg0.N) (h0 : t.val % 6 = 0) (p : Fin 1024) :
    (outsAt0 m c t.val t.isLt).2.1 (ix2 p 0) = stepMax ⊥ (TileValues.tile (xBlk m c t) (wBlk m c t) p)
    ∧ (outsAt0 m c t.val t.isLt).2.2 (ix2 p 0) = stepSum ⊥ 0 (TileValues.tile (xBlk m c t) (wBlk m c t) p) := by
  rw [outsAt0_A m c t h0]
  dsimp only
  rw [sout0_A_0_eq, sout0_A_1_eq]
  exact ⟨(TileValues.pay6_apply (xBlk m c t) (wBlk m c t) (k0_pay1 (F := Ideal)) p).trans (by rw [TileValues.pay1_apply]),
    (TileValues.pay5_apply (xBlk m c t) (wBlk m c t) (k0_pay1 (F := Ideal)) (k0_pay2 (F := Ideal)) p).trans
      (by rw [TileValues.pay1_apply, TileValues.pay2_apply])⟩

/-- A point at class tiles 1 … 4 steps the maximum and sum the point before left. -/
theorem state_middle (t : Fin cfg0.N) (h0 : ¬ t.val % 6 = 0) (h1 : ¬ t.val % 6 = 5) (p : Fin 1024) :
    (outsAt0 m c t.val t.isLt).2.1 (ix2 p 0)
      = stepMax ((outsAt0 m c (t.val - 1) (Nat.lt_of_le_of_lt (Nat.sub_le _ _) t.isLt)).2.1 (ix2 p 0)) (TileValues.tile (xBlk m c t) (wBlk m c t) p)
    ∧ (outsAt0 m c t.val t.isLt).2.2 (ix2 p 0)
      = stepSum ((outsAt0 m c (t.val - 1) (Nat.lt_of_le_of_lt (Nat.sub_le _ _) t.isLt)).2.1 (ix2 p 0))
          ((outsAt0 m c (t.val - 1) (Nat.lt_of_le_of_lt (Nat.sub_le _ _) t.isLt)).2.2 (ix2 p 0)) (TileValues.tile (xBlk m c t) (wBlk m c t) p) := by
  rw [outsAt0_B m c t h0 h1]
  dsimp only
  rw [sout0_B_0_eq, sout0_B_1_eq]
  exact ⟨TileValues.pay6_apply (xBlk m c t) (wBlk m c t) _ p, TileValues.pay5_apply (xBlk m c t) (wBlk m c t) _ _ p⟩

/-- The point at class tile 5 steps them over the masked tile. -/
theorem state_last (t : Fin cfg0.N) (h1 : t.val % 6 = 5) (p : Fin 1024) :
    (outsAt0 m c t.val t.isLt).2.1 (ix2 p 0)
      = stepMax ((outsAt0 m c (t.val - 1) (Nat.lt_of_le_of_lt (Nat.sub_le _ _) t.isLt)).2.1 (ix2 p 0))
          (TileValues.maskedTile (k0_pay3 (F := Ideal) (xBlk m c t) (wBlk m c t)) p)
    ∧ (outsAt0 m c t.val t.isLt).2.2 (ix2 p 0)
      = stepSum ((outsAt0 m c (t.val - 1) (Nat.lt_of_le_of_lt (Nat.sub_le _ _) t.isLt)).2.1 (ix2 p 0))
          ((outsAt0 m c (t.val - 1) (Nat.lt_of_le_of_lt (Nat.sub_le _ _) t.isLt)).2.2 (ix2 p 0))
          (TileValues.maskedTile (k0_pay3 (F := Ideal) (xBlk m c t) (wBlk m c t)) p) := by
  have e5 : BitVec.ofNat 32 ((grid0.coords t) 1).val = BitVec.ofNat 32 5 := by rw [coord_facts t, h1]
  rw [outsAt0_C m c t h1]
  dsimp only
  rw [sout0_C_0_eq, sout0_C_1_eq, e5]
  exact ⟨TileValues.pay10_apply _ _ p, TileValues.pay9_apply _ _ _ p⟩

/-- And stores, for each row, maximum plus log of the sum, minus the row's target logit. -/
theorem out_last (t : Fin cfg0.N) (h1 : t.val % 6 = 5) (p : Fin 1024) :
    (outsAt0 m c t.val t.isLt).1 (ix2 p 0)
      = (stepMax ((outsAt0 m c (t.val - 1) (Nat.lt_of_le_of_lt (Nat.sub_le _ _) t.isLt)).2.1 (ix2 p 0))
            (TileValues.maskedTile (k0_pay3 (F := Ideal) (xBlk m c t) (wBlk m c t)) p)
          + Ideal.log (stepSum ((outsAt0 m c (t.val - 1) (Nat.lt_of_le_of_lt (Nat.sub_le _ _) t.isLt)).2.1 (ix2 p 0))
            ((outsAt0 m c (t.val - 1) (Nat.lt_of_le_of_lt (Nat.sub_le _ _) t.isLt)).2.2 (ix2 p 0))
            (TileValues.maskedTile (k0_pay3 (F := Ideal) (xBlk m c t) (wBlk m c t)) p)))
        - tBlk m c t (ix2 p 0) := by
  have e5 : BitVec.ofNat 32 ((grid0.coords t) 1).val = BitVec.ofNat 32 5 := by rw [coord_facts t, h1]
  rw [outsAt0_C m c t h1]
  dsimp only
  rw [out0_C_3_eq, e5]
  refine (TileValues.pay11_apply _ _ _ _ p).trans ?_
  rw [TileValues.pay9_apply]

/-! ## The tiles are the row's logits -/

/-- Before the last class tile every lane is a class: the tile is the row's tile of logits. -/
theorem tile_eq (t : Fin cfg0.N) (p : Fin 1024) (n : Fin 8192) (hn : n.val = t.val / 6 * 1024 + p.val) (h5 : t.val % 6 < 5) :
    TileValues.tile (xBlk m c t) (wBlk m c t) p = tiled 1792 (rowLogits m c n) (t.val % 6) := by
  obtain rfl : n = ⟨t.val / 6 * 1024 + p.val, row_lt t p⟩ := Fin.ext hn
  exact funext fun q => tile_eq_tiled m c (argX m c) (argLut m c) (argCq m c)
    (HostValue.V_features m c) (HostValue.V_table m c) t h5 p q

/-- At the last class tile the lanes past class 10531 are masked to -∞: the masked tile is the row's last tile. -/
theorem maskedTile_eq (t : Fin cfg0.N) (p : Fin 1024) (n : Fin 8192) (hn : n.val = t.val / 6 * 1024 + p.val) (h5 : t.val % 6 = 5) :
    TileValues.maskedTile (k0_pay3 (F := Ideal) (xBlk m c t) (wBlk m c t)) p = tiled 1792 (rowLogits m c n) 5 := by
  obtain rfl : n = ⟨t.val / 6 * 1024 + p.val, row_lt t p⟩ := Fin.ext hn
  exact funext fun q => maskedTile_eq_tiled m c (argX m c) (argLut m c) (argCq m c)
    (HostValue.V_features m c) (HostValue.V_table m c) t h5 p q
/-! ## The running maximum and sum -/

/-- The point before a point that is not at class tile 0 is on the same row tile, one class tile back. -/
theorem pred_point (t : Fin cfg0.N) (h0 : ¬ t.val % 6 = 0) : (t.val - 1) / 6 = t.val / 6 ∧ (t.val - 1) % 6 = t.val % 6 - 1 := by
  have := point_lt t; omega

/-- After the point at class tile k of a row tile, the carried maximum and sum of row p are the running maximum and
    sum of that row's logits after tiles 0 … k. -/
theorem state_eq (k : ℕ) : ∀ (t : Fin cfg0.N) (p : Fin 1024) (n : Fin 8192), t.val % 6 = k → n.val = t.val / 6 * 1024 + p.val →
    (outsAt0 m c t.val t.isLt).2.1 (ix2 p 0) = runMax (tiled 1792 (rowLogits m c n)) k
    ∧ (outsAt0 m c t.val t.isLt).2.2 (ix2 p 0) = runSum (tiled 1792 (rowLogits m c n)) k := by
  induction k with
  | zero =>
    intro t p n hk hn
    obtain ⟨e1, e2⟩ := state_first m c t hk p
    rw [e1, e2, tile_eq m c t p n hn (by omega), hk]
    exact ⟨rfl, rfl⟩
  | succ k ih =>
    intro t p n hk hn
    have hN := point_lt t
    have h0 : ¬ t.val % 6 = 0 := by omega
    obtain ⟨q1, q2⟩ := pred_point t h0
    have hb : t.val - 1 < cfg0.N := Nat.lt_of_le_of_lt (Nat.sub_le _ _) t.isLt
    have hk' : (⟨t.val - 1, hb⟩ : Fin cfg0.N).val % 6 = k := by show (t.val - 1) % 6 = k; omega
    have hn' : n.val = (⟨t.val - 1, hb⟩ : Fin cfg0.N).val / 6 * 1024 + p.val := by show n.val = (t.val - 1) / 6 * 1024 + p.val; rw [q1]; exact hn
    have i1 : (outsAt0 m c (t.val - 1) hb).2.1 (ix2 p 0) = runMax (tiled 1792 (rowLogits m c n)) k := (ih ⟨t.val - 1, hb⟩ p n hk' hn').1
    have i2 : (outsAt0 m c (t.val - 1) hb).2.2 (ix2 p 0) = runSum (tiled 1792 (rowLogits m c n)) k := (ih ⟨t.val - 1, hb⟩ p n hk' hn').2
    by_cases h1 : t.val % 6 = 5
    · obtain ⟨e1, e2⟩ := state_last m c t h1 p
      obtain rfl : k = 4 := by omega
      rw [e1, e2, i1, i2, maskedTile_eq m c t p n hn h1]
      exact ⟨rfl, rfl⟩
    · obtain ⟨e1, e2⟩ := state_middle m c t h0 h1 p
      rw [e1, e2, i1, i2, tile_eq m c t p n hn (by omega), hk]
      exact ⟨rfl, rfl⟩

/-! ## The output block at a last-tile point -/

/-- What the point at the last class tile stores for row p: the row's negative log-probability at its label. -/
theorem out_eq (hadm : RowLoss.Admitted (argX m c) (argTg m c) (argLut m c) (argCq m c))
    (t : Fin cfg0.N) (h1 : t.val % 6 = 5) (p : Fin 1024) (n : Fin 8192) (hn : n.val = t.val / 6 * 1024 + p.val) :
    (outsAt0 m c t.val t.isLt).1 (ix2 p 0) = rowNll (rowLogits m c n) (RowLoss.label (argTg m c) n) := by
  have hN := point_lt t
  have h0 : ¬ t.val % 6 = 0 := by omega
  obtain ⟨q1, q2⟩ := pred_point t h0
  have hb : t.val - 1 < cfg0.N := Nat.lt_of_le_of_lt (Nat.sub_le _ _) t.isLt
  have hk' : (⟨t.val - 1, hb⟩ : Fin cfg0.N).val % 6 = 4 := by show (t.val - 1) % 6 = 4; omega
  have hn' : n.val = (⟨t.val - 1, hb⟩ : Fin cfg0.N).val / 6 * 1024 + p.val := by show n.val = (t.val - 1) / 6 * 1024 + p.val; rw [q1]; exact hn
  have i1 : (outsAt0 m c (t.val - 1) hb).2.1 (ix2 p 0) = runMax (tiled 1792 (rowLogits m c n)) 4 := (state_eq m c 4 ⟨t.val - 1, hb⟩ p n hk' hn').1
  have i2 : (outsAt0 m c (t.val - 1) hb).2.2 (ix2 p 0) = runSum (tiled 1792 (rowLogits m c n)) 4 := (state_eq m c 4 ⟨t.val - 1, hb⟩ p n hk' hn').2
  have etg : tBlk m c t (ix2 p 0) = rowLogits m c n (RowLoss.label (argTg m c) n) := by
    obtain rfl : n = ⟨t.val / 6 * 1024 + p.val, row_lt t p⟩ := Fin.ext hn
    exact (iblk2_apply m c t p).trans (HostValue.V_targetLogit m c hadm _)
  rw [out_last m c t h1 p, i1, i2, maskedTile_eq m c t p n hn h1, etg]
  exact tiledNll_eq_rowNll 1792 5 (by norm_num) (by norm_num) (by norm_num) (rowLogits m c n)
    (fun j => RowLoss.logit_real hadm n j) (RowLoss.label (argTg m c) n)

end Tiles

open Tiles in
/-- THE BLOCK a last-tile point stores: row p of its row tile holds that row's negative log-probability at its label. -/
theorem block_nll
    (hadm : RowLoss.Admitted (m ((c : Thread nD τ).loc main_arg0)) (m ((c : Thread nD τ).loc main_arg1))
      (m ((c : Thread nD τ).loc main_arg3)) (m ((c : Thread nD τ).loc main_arg4)))
    (t : Fin cfg0.N) (h5 : t.val % 6 = 5) (p : Fin 1024) :
    ((outsAt0 (F := Ideal) m c t.val t.isLt).1 : S1024x1.Idx → EReal) (ix2 p 0)
      = rowNll (fun j => RowLoss.logit (m ((c : Thread nD τ).loc main_arg0)) (m ((c : Thread nD τ).loc main_arg3))
            (m ((c : Thread nD τ).loc main_arg4)) ⟨t.val / 6 * 1024 + p.val, row_lt t p⟩ j)
          (RowLoss.label (m ((c : Thread nD τ).loc main_arg1)) ⟨t.val / 6 * 1024 + p.val, row_lt t p⟩) :=
  out_eq m c hadm t h5 p ⟨t.val / 6 * 1024 + p.val, row_lt t p⟩ rfl

end Cert.KernelIdeal.Hand

end
-- ==== Proof.IdealCover.lean ====
/-
  From what the last class tile of each row tile leaves in the output block to the whole output array.

  The output array has 8192 rows and one column; the output window's block at point t = qi * 6 + ki is
  rows qi * 1024 .. qi * 1024 + 1023, and it is written back exactly at the last class tile ki = 5. So
  row r of the array is written once, by the point (r / 1024) * 6 + 5, and the eight blocks written
  back tile the array: if each of them is the restriction of one function G of the array's indices,
  the array ends holding G.
-/
import proofs.«415740_j40690520162428_3_alg».proof.Proof.IdealFrame
import proofs.«415740_j40690520162428_3_alg».proof.Proof.IdealBlocks
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

variable (m : (ℓ : Loc nD τ sig) → Buf (Elt Ideal) ℓ)

/-- An index of the output array is in point `t`'s block iff each coordinate is in the block's range
    on its axis. -/
theorem out_mem_blk (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v29).slice (win0_3.rect t)).set ↔ _
  rw [View.set_slice_whole, Rect.mem_set_unit]
  exact Iff.rfl

/-- At the last class tile of a row tile, the output block at an index of the block is `G` at the
    index of the array the block's element sits at: row (t / 6) * 1024 + p, the one column. -/
theorem out_block_eq (c : Dev nD) (G : S8192x1.Idx → EReal)
    (hG : ∀ (t : Fin cfg0.N) (h5 : t.val % 6 = 5) (p : Fin 1024),
      ((outsAt0 (F := Ideal) m c t.val t.isLt).1 : S1024x1.Idx → EReal) (ix2 p (0 : Fin 1))
        = G (ix2 (⟨t.val / 6 * 1024 + p.val, row_lt t p⟩ : Fin 8192) (0 : Fin 1)))
    (t : Fin cfg0.N) (h5 : t.val % 6 = 5) (j : S1024x1.Idx) :
    ((outsAt0 (F := Ideal) m c t.val t.isLt).1 : S1024x1.Idx → EReal) j = G (((cfg0.win 3).blk t).view.emb j) := by
  obtain ⟨-, -, -, -, -, -, e0, e1⟩ := index_facts t
  obtain ⟨p, b, rfl⟩ : ∃ (p : Fin 1024) (b : Fin 1), j = ix2 p b := ⟨j 0, j 1, eq_ix2 j⟩
  obtain rfl : b = 0 := Subsingleton.elim _ _
  rw [hG t h5 p]
  congr 1
  funext a
  apply Fin.ext
  match a with
  | ⟨0, _⟩ => show t.val / 6 * 1024 + p.val = win0_3.index t (0 : Fin 2) * 1024 + 1 * p.val; omega
  | ⟨1, _⟩ => show (0 : ℕ) = win0_3.index t (1 : Fin 2) * 1 + 1 * 0; omega

/-- What a point that writes back writes is its block of `G`. -/
theorem out_flushed_eq (c : Dev nD) (G : S8192x1.Idx → EReal)
    (hG : ∀ (t : Fin cfg0.N) (h5 : t.val % 6 = 5) (p : Fin 1024),
      ((outsAt0 (F := Ideal) m c t.val t.isLt).1 : S1024x1.Idx → EReal) (ix2 p (0 : Fin 1))
        = G (ix2 (⟨t.val / 6 * 1024 + p.val, row_lt t p⟩ : Fin 8192) (0 : Fin 1)))
    (t : Fin cfg0.N) (hf : (cfg0.win 3).flush t = true) :
    (dats (F := Ideal) m 0 c).flushed 3 t = ((cfg0.win 3).blk t).view.read (Elt Ideal) G := by
  have h5 : t.val % 6 = 5 := (flush0_3 t).mp hf
  show (cfg0.win 3).cut (grid0.coords t) ((dats (F := Ideal) m 0 c).after 3 t) = _
  rw [after0_3]
  funext j
  rw [View.read_apply]
  exact out_block_eq m c G hG t h5 j

/-- Every row of the output array is in the block some last class tile writes back: row r in that of
    the point (r / 1024) * 6 + 5. -/
theorem out_cover (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  let t : Fin cfg0.N := ⟨(i 0).val / 1024 * 6 + 5, lt_of_lt_of_eq (by omega : (i 0).val / 1024 * 6 + 5 < 48) (show 48 = cfg0.N from N_0.symm)⟩
  have ht : t.val = (i 0).val / 1024 * 6 + 5 := rfl
  obtain ⟨-, -, -, -, -, -, e0, e1⟩ := index_facts t
  refine ⟨t, (flush0_3 t).mpr (by rw [ht]; omega), ?_⟩
  rw [out_mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1 ≤ (i 1).val ∧ (i 1).val < win0_3.index t (1 : Fin 2) * 1 + 1; omega

/-- THE OUTPUT ARRAY after the run: if what every last class tile leaves in the output block is the
    restriction of `G` to the row tile's rows, the array ends holding `G`. -/
theorem arrAt_of_blocks (c : Dev nD) (G : S8192x1.Idx → EReal)
    (hG : ∀ (t : Fin cfg0.N) (h5 : t.val % 6 = 5) (p : Fin 1024),
      ((outsAt0 (F := Ideal) m c t.val t.isLt).1 : S1024x1.Idx → EReal) (ix2 p (0 : Fin 1))
        = G (ix2 (⟨t.val / 6 * 1024 + p.val, row_lt t p⟩ : Fin 8192) (0 : Fin 1))) :
    ((dats (F := Ideal) m 0 c).arrAt 3 cfg0.N : S8192x1.Idx → EReal) = G :=
  (dats (F := Ideal) m 0 c).arrAt_eq_of_cover 3 G (fun t hf => out_flushed_eq m c G hG t hf) (fun i => out_cover i)

end Cert.KernelIdeal.Hand

end
-- ==== Proof.IdealHostAfter.lean ====
/-
  The host operations after the kernel call, as one function of the mask and the kernel's result column.

  After the call the host reads the result column as a vector of per-row values, counts the valid rows (the count
  floored at one), replaces the invalid rows' values by zero, sums the rest, divides by the count, and replaces an
  infinite quotient by the largest finite value of its sign. These are exactly the operations of the shared
  last stage, applied to the mask buffer and to the result column read row by row.
-/
import proofs.«415740_j40690520162428_3_alg».proof.Proof.Gen.KernelIdeal.Frame
import proofs.«415740_j40690520162428_3_alg».proof.Proof.LossTail
import Idealize.ShloMosaic.Lib.ValueIdx
import Idealize.ShloMosaic.Lib.Pipeline.Value
import Idealize.ShloMosaic.Lib.StableHlo.Run
import Idealize.ShloMosaic.Lib.Pipeline.FrameSuffix

noncomputable section

namespace Cert.KernelIdeal.HostValue

open Cert.KernelIdeal Cert.KernelIdeal.Gen Idealize.ShloMosaic Idealize.ShloMosaic.ValueIdx Idealize.ShloMosaic.TcCoe
open Idealize.SL Idealize.SL.RA
open Idealize.ShloMosaic.Pipeline (Dat Cfg)
open scoped BigOperators

/-- A column of 8192 entries read as a vector: entry i of the vector is entry (i, 0) of the column, the two having
    the same row-major position. -/
theorem column_cast (out : S8192x1.Idx → EReal) :
    (fun i => shapeCast S8192 out shapeCasts_S8192x1_S8192 i) = fun i => out (ix2 (i 0) 0) := by
  funext i
  refine shapeCast_apply out shapeCasts_S8192x1_S8192 i (ix2 (i 0) 0) ?_
  rw [Shape.rowMajor_val_two, Shape.rowMajor_val_one]
  show (i 0).val * 1 + 0 = (i 0).val
  omega

variable (m : (ℓ : Loc nD τ sig) → Buf (Elt Ideal) ℓ)

set_option maxHeartbeats 2000000 in
/-- The scalar the program returns is the shared last stage applied to the mask buffer and to the result column,
    whatever the kernel call left in that column. -/
theorem loss_of_array (dats : (p : Fin 1) → (c : Dev nD) → Dat τ (Elt Ideal) Unit ℕ (UR sig nD τ) ℕ (cfgs p) c) (c : Dev nD) :
    Pipeline.afterTail₀ cfgs dats 0 (V0 (F := Ideal) m) [hostOps1, hostOps1_1, hostOps1_2, hostOps1_3] c main_v37
      = Cert.Loss.meanOverValid bcast_S_S8192 reducesTo_S8192_S_d0 h_S_ (V (F := Ideal) m c main_v9)
          (fun i => ((dats 0 c).arrAt 3 cfg0.N : S8192x1.Idx → EReal) (ix2 (i 0) 0)) := by
  have h9 : Pipeline.withArrays (cfgs 0).spec c (V0 (F := Ideal) m c) (fun w => (dats 0 c).arrAt w (cfgs 0).N)
      (Proc.devRef .tc main_v9) = V (F := Ideal) m c main_v9 :=
    Pipeline.withArrays_of_ne _ c (V0 m c) _ main_v9 (by exact (by decide : ∀ w, Pipeline.arrRef spec0 w ≠ main_v9))
  have h29 : Pipeline.withArrays (cfgs 0).spec c (V0 (F := Ideal) m c) (fun w => (dats 0 c).arrAt w (cfgs 0).N)
      (Proc.devRef .tc main_v29) = (dats 0 c).arrAt 3 (cfgs 0).N :=
    Pipeline.withArrays_arr spec0 launch0.win.arr_inj c _ _ 3
  refine Eq.trans ?_ (congrArg (Cert.Loss.meanOverValid bcast_S_S8192 reducesTo_S8192_S_d0 h_S_ (V (F := Ideal) m c main_v9))
    (column_cast ((dats 0 c).arrAt 3 cfg0.N)))
  unfold Pipeline.afterTail₀
  show StableHlo.after (List.flatten [hostOps1, hostOps1_1, hostOps1_2, hostOps1_3]) _ (Proc.devRef .tc main_v37) = _
  simp only [Gen.hostOps1, Gen.hostOps1_1, Gen.hostOps1_2, Gen.hostOps1_3, List.flatten_cons, List.flatten_nil, List.append_nil, List.cons_append, List.nil_append]
  simp only [StableHlo.TRef.unary, StableHlo.TRef.binary, StableHlo.TRef.ternary, StableHlo.TRef.nullary, main_call3_call0, main_call3_call1]
  after_results_simp
  simp only [StableHlo.TRef.ofBuf, StableHlo.TRef.toBuf, cast_eq, id_eq]
  rw [h9, h29]
  unfold Cert.Loss.meanOverValid Cert.Loss.clipInfinite
  rfl

end Cert.KernelIdeal.HostValue

end
-- ==== Proof.KernelLoss.lean ====
/-
  The idealized kernel program ends at the loss of its argument arrays.

  After the run the output column holds, row by row, the negative log-probability of the row's label: at the last
  class tile of each row tile the stored block is the tiled log-sum-exp value of the rows' logits (IdealTiles.lean),
  and those blocks tile the column (IdealCover.lean). The host lines after the region average the column over the
  validity mask (IdealHostAfter.lean), and for admitted inputs the kernel's mask is "label ≠ 5554"
  (IdealHostBefore.lean). Hence the result is RowLoss.loss of the arguments, and the arguments are as they were.
-/
import proofs.«415740_j40690520162428_3_alg».proof.Proof.IdealFrame
import proofs.«415740_j40690520162428_3_alg».proof.Proof.IdealTiles
import proofs.«415740_j40690520162428_3_alg».proof.Proof.IdealCover
import proofs.«415740_j40690520162428_3_alg».proof.Proof.IdealHostBefore
import proofs.«415740_j40690520162428_3_alg».proof.Proof.IdealHostAfter
import proofs.«415740_j40690520162428_3_alg».proof.Proof.RowLoss

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The output column after the run: each row's negative log-probability. -/
theorem column_eq (c : Dev nD)
    (hadm : Cert.RowLoss.Admitted (m ((c : Thread nD τ).loc main_arg0)) (m ((c : Thread nD τ).loc main_arg1)) (m ((c : Thread nD τ).loc main_arg3)) (m ((c : Thread nD τ).loc main_arg4))) :
    ((dats (F := Ideal) m 0 c).arrAt 3 cfg0.N : S8192x1.Idx → EReal)
      = fun i => Cert.RowLoss.nll (m ((c : Thread nD τ).loc main_arg0)) (m ((c : Thread nD τ).loc main_arg1)) (m ((c : Thread nD τ).loc main_arg3)) (m ((c : Thread nD τ).loc main_arg4)) (ix1 (i 0)) :=
  arrAt_of_blocks m c _ (fun t h5 p => block_nll m c hadm t h5 p)

/-- What the host lines after the region leave in the result: the loss. -/
theorem result_eq (c : Dev nD)
    (hadm : Cert.RowLoss.Admitted (m ((c : Thread nD τ).loc main_arg0)) (m ((c : Thread nD τ).loc main_arg1)) (m ((c : Thread nD τ).loc main_arg3)) (m ((c : Thread nD τ).loc main_arg4))) :
    Pipeline.afterTail₀ cfgs (dats (F := Ideal) m) 0 (V0 (F := Ideal) m) [hostOps1, hostOps1_1, hostOps1_2, hostOps1_3] c main_v37
      = Cert.RowLoss.loss bcast_S_S8192 reducesTo_S8192_S_d0 h_S_ (m ((c : Thread nD τ).loc main_arg0)) (m ((c : Thread nD τ).loc main_arg1)) (m ((c : Thread nD τ).loc main_arg3)) (m ((c : Thread nD τ).loc main_arg4)) := by
  rw [HostValue.loss_of_array m (dats (F := Ideal) m) c, HostValue.V_mask m c hadm, column_eq m c hadm]
  rfl

/-- The run: the result is the loss, the arguments are unchanged. -/
theorem run_loss
    (hadm : ∀ c : Dev nD, Cert.RowLoss.Admitted (m ((c : Thread nD τ).loc main_arg0)) (m ((c : Thread nD τ).loc main_arg1)) (m ((c : Thread nD τ).loc main_arg3)) (m ((c : Thread nD τ).loc main_arg4))) :
    θ_run (defs (F := Ideal)) (onTc (τ := τ) (main (F := Ideal))) ⟨m, fun _ => 0, ρ⟩ (fun r => ∀ c : Dev nD,
      r.2.mem ((c.tc : Thread nD τ).loc main_v37) = Cert.RowLoss.loss bcast_S_S8192 reducesTo_S8192_S_d0 h_S_ (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v37 (Pipeline.mem_restRefs_of main_v37 (by decide) (by decide))).trans (result_eq m c (hadm c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main (F := Ideal) m ρ)

end Cert.KernelIdeal.Hand

end
-- ==== Proof.RefTerm.lean ====
/-
  What the reference program's result buffer holds, as one pure term `res` of the four argument arrays it depends on,
  built stage by stage: the labels (targets minus one); the logits (the features against each table's rows, side by
  side, times thirty); each row's maximum, the shifted logits, each row's sum of exponentials, the log-probabilities;
  the labels as a column, wrapped and range-tested, the entry gathered at each row's label, negated; the validity
  mask; the mean over the valid rows with infinite values replaced.
-/
import proofs.«415740_j40690520162428_3_alg».proof.Proof.Gen.ReferenceIdeal

noncomputable section

namespace Cert.ReferenceIdeal.Hand

open Cert.ReferenceIdeal Cert.ReferenceIdeal.Gen Idealize.ShloMosaic Idealize.SL.Sem

variable {F : FTy → Type} [FloatOps F]

/-- The labels: the targets minus one. -/
def labelIdx (tg : IVec S8192 32) : IVec S8192 32 :=
  subi tg (broadcastInDim S8192 ![] bcast_S_S8192 (constantI S_ 32 1#32))

/-- Two arrays of products side by side along the class axis, every entry times thirty. -/
def scaled (p : FVec F S8192x5532 .f32) (q : FVec F S8192x5000 .f32) : FVec F S8192x10532 .f32 :=
  mulf (concatenate S8192x10532 1 [⟨S8192x5532, p⟩, ⟨S8192x5000, q⟩] concatenates_S8192x5532_S8192x5000_S8192x10532_d1)
    (broadcastInDim S8192x10532 ![] bcast_S_S8192x10532 (constant (F := F) S_ .f32 0x41F00000#32))

/-- The logits: the features against each table's rows, side by side, times thirty. -/
def logits (x : FVec F S8192x256 .f32) (lut : FVec F S5532x256 .f32) (cq : FVec F S5000x256 .f32) : FVec F S8192x10532 .f32 :=
  scaled (Host.dotGeneral (F := F) dot_S8192x256_S5532x256_S8192x5532_1_1_0_0_n_n none x lut)
    (Host.dotGeneral (F := F) dot_S8192x256_S5000x256_S8192x5000_1_1_0_0_n_n none x cq)

/-- Each row's maximum (over -∞). -/
def rowMaxV (a : FVec F S8192x10532 .f32) : FVec F S8192 .f32 :=
  maximumf (broadcastInDim S8192 ![] bcast_S_S8192 (constant (F := F) S_ .f32 0xFF800000#32))
    (Host.reduce (FloatOps.maximumf (F := F)) a (constant (F := F) S_ .f32 0xFF800000#32) reducesTo_S8192x10532_S8192_d1 h_S_)

/-- The logits shifted by their row's maximum. -/
def shifted (a : FVec F S8192x10532 .f32) : FVec F S8192x10532 .f32 :=
  subf a (broadcastInDim S8192x10532 ![0, 1] bcast_S8192x1_S8192x10532_0_1
    (broadcastInDim S8192x1 ![0] bcast_S8192_S8192x1_0 (rowMaxV a)))

/-- Each row's sum of the exponentials of its shifted logits. -/
def rowSumV (a : FVec F S8192x10532 .f32) : FVec F S8192 .f32 :=
  Host.reduceAdd (F := F) (Host.exp (F := F) (shifted a)) (constant (F := F) S_ .f32 0x00000000#32) reducesTo_S8192x10532_S8192_d1 h_S_

/-- The log-probabilities: the shifted logits minus the logarithm of their row's sum. -/
def logProb (a : FVec F S8192x10532 .f32) : FVec F S8192x10532 .f32 :=
  subf (shifted a) (broadcastInDim S8192x10532 ![0, 1] bcast_S8192x1_S8192x10532_0_1
    (Host.log (F := F) (broadcastInDim S8192x1 ![0] bcast_S8192_S8192x1_0 (rowSumV a))))

/-- The labels as a column. -/
def labelCol (t : IVec S8192 32) : IVec S8192x1 32 := broadcastInDim S8192x1 ![0] bcast_S8192_S8192x1_0 t

/-- The gather's index table: a negative label moved up by the class count, then one index vector per row. -/
def wrapIdx (t : IVec S8192 32) : IVec S8192x1x1 32 :=
  shapeCast S8192x1x1
    (select (cmpi .slt (labelCol t) (broadcastInDim S8192x1 ![] bcast_S_S8192x1 (constantI S_ 32 0#32)))
      (addi (labelCol t) (broadcastInDim S8192x1 ![] bcast_S_S8192x1 (constantI S_ 32 10532#32))) (labelCol t))
    shapeCasts_S8192x1_S8192x1x1

/-- Which rows' index is a class: at least zero and at most 10531. -/
def inRange (i : IVec S8192x1x1 32) : IVec S8192x1 1 :=
  Host.reduce IntOp.andi
    (andi (cmpi .sge i (broadcastInDim S8192x1x1 ![] bcast_S_S8192x1x1 (constantI S_ 32 0#32)))
      (cmpi .sle i (broadcastInDim S8192x1x1 ![0, 1, 2] bcast_S1x1x1_S8192x1x1_0_1_2
        (broadcastInDim S1x1x1 ![2] bcast_S1_S1x1x1_2 (constantI S1 32 10531#32)))))
    (constantI S_ 1 1#1) reducesTo_S8192x1x1_S8192x1_d2 h_S_

/-- Each row's entry at its index, and the undefined value where the index is no class. -/
def taken (lp : FVec F S8192x10532 .f32) (i : IVec S8192x1x1 32) : FVec F S8192x1 .f32 :=
  select (inRange i) (Host.gather gather_S8192x10532_S8192x1x1_S8192x1_n_1_0_0_1_2_11 lp i)
    (broadcastInDim S8192x1 ![] bcast_S_S8192x1 (constant (F := F) S_ .f32 0x7FC00000#32))

/-- Each row's gathered entry, negated. -/
def negTaken (lp : FVec F S8192x10532 .f32) (t : IVec S8192 32) : FVec F S8192 .f32 :=
  Host.negf (F := F) (shapeCast S8192 (taken lp (wrapIdx t)) shapeCasts_S8192x1_S8192)

/-- The validity mask: the label is not 5554. -/
def maskOf (t : IVec S8192 32) : IVec S8192 1 :=
  cmpi .ne t (broadcastInDim S8192 ![] bcast_S_S8192 (constantI S_ 32 5554#32))

/-- An undefined value replaced by zero, an infinite one by the largest finite value of its sign. -/
def clip (q : FVec F S_ .f32) : FVec F S_ .f32 :=
  let y1 : FVec F S_ .f32 := select (cmpf (F := F) .une q q) (constant (F := F) S_ .f32 0x00000000#32) q
  let y2 : FVec F S_ .f32 := select (cmpf (F := F) .oeq y1 (constant (F := F) S_ .f32 0x7F800000#32)) (constant (F := F) S_ .f32 0x7F7FFFFF#32) y1
  select (cmpf (F := F) .oeq y2 (constant (F := F) S_ .f32 0xFF800000#32)) (constant (F := F) S_ .f32 0xFF7FFFFF#32) y2

/-- The mean of the per-row values over the masked rows (the count floored at one), then `clip`. -/
def tailOf (mk : IVec S8192 1) (nv : FVec F S8192 .f32) : FVec F S_ .f32 :=
  let cnt : FVec F S_ .f32 := Host.reduceAdd (F := F) (uitofp (F := F) .f32 mk) (constant (F := F) S_ .f32 0x00000000#32) reducesTo_S8192_S_d0 h_S_
  let den : FVec F S_ .f32 := maximumf cnt (constant (F := F) S_ .f32 0x3F800000#32)
  let kept : FVec F S8192 .f32 := select mk nv (broadcastInDim S8192 ![] bcast_S_S8192 (constant (F := F) S_ .f32 0x00000000#32))
  let tot : FVec F S_ .f32 := Host.reduceAdd (F := F) kept (constant (F := F) S_ .f32 0x00000000#32) reducesTo_S8192_S_d0 h_S_
  clip (Host.divf (F := F) tot den)

/-- What the result buffer holds, as one term of the four argument arrays it depends on. -/
def res (x : FVec F S8192x256 .f32) (tg : IVec S8192 32) (lut : FVec F S5532x256 .f32) (cq : FVec F S5000x256 .f32) : FVec F S_ .f32 :=
  tailOf (maskOf (labelIdx tg)) (negTaken (logProb (logits x lut cq)) (labelIdx tg))

end Cert.ReferenceIdeal.Hand

end
-- ==== Proof.RefRun.lean ====
/-
  The reference program's seventy-five host operations in order (the four outlined functions' operations listed where
  they are called), cut into four consecutive stretches — the two products; their concatenation, the scale and the
  row-wise log-softmax; the label's column, its range test and the gather, the negation; the mask, the two sums, the
  quotient and the replacement of an infinite value — each stretch read back at the buffers the next ones read, and
  the run: the result buffer ends at `res` of the arguments' contents, the arguments unchanged.
-/
import proofs.«415740_j40690520162428_3_alg».proof.Proof.RefTerm
import Idealize.ShloMosaic.Lib.StableHlo.Run

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- Operations 1–5: the constant one, its broadcast, the labels (targets minus one), the two products. -/
abbrev opsA : List (HloOp τ sig (Elt F)) :=
  [ StableHlo.nullary main_c (constantI S_ 32 1#32),
    StableHlo.unary main_c main_v0 (broadcastInDim S8192 ![] bcast_S_S8192 : (⟨S_, .i32⟩ : BufTy).Contents (Elt F) → (⟨S8192, .i32⟩ : BufTy).Contents (Elt F)),
    StableHlo.binary main_arg1 main_v0 main_v1 (subi : (⟨S8192, .i32⟩ : BufTy).Contents (Elt F) → (⟨S8192, .i32⟩ : BufTy).Contents (Elt F) → (⟨S8192, .i32⟩ : BufTy).Contents (Elt F)),
    StableHlo.binary main_arg0 main_arg3 main_v2 ((fun l r => Host.dotGeneral dot_S8192x256_S5532x256_S8192x5532_1_1_0_0_n_n none l r) : (⟨S8192x256, .f32⟩ : BufTy).Contents (Elt F) → (⟨S5532x256, .f32⟩ : BufTy).Contents (Elt F) → (⟨S8192x5532, .f32⟩ : BufTy).Contents (Elt F)),
    StableHlo.binary main_arg0 main_arg4 main_v3 ((fun l r => Host.dotGeneral dot_S8192x256_S5000x256_S8192x5000_1_1_0_0_n_n none l r) : (⟨S8192x256, .f32⟩ : BufTy).Contents (Elt F) → (⟨S5000x256, .f32⟩ : BufTy).Contents (Elt F) → (⟨S8192x5000, .f32⟩ : BufTy).Contents (Elt F)) ]

/-- Operations 6–24: the products side by side, times thirty, and the row-wise log-softmax. -/
abbrev opsB : List (HloOp τ sig (Elt F)) :=
  [ StableHlo.binary main_v2 main_v3 main_v4 ((fun a b => concatenate S8192x10532 1 [⟨S8192x5532, a⟩, ⟨S8192x5000, b⟩] concatenates_S8192x5532_S8192x5000_S8192x10532_d1) : (⟨S8192x5532, .f32⟩ : BufTy).Contents (Elt F) → (⟨S8192x5000, .f32⟩ : BufTy).Contents (Elt F) → (⟨S8192x10532, .f32⟩ : BufTy).Contents (Elt F)),
    StableHlo.nullary main_cst (constant S_ .f32 0x41F00000#32),
    StableHlo.unary main_cst main_v5 (broadcastInDim S8192x10532 ![] bcast_S_S8192x10532 : (⟨S_, .f32⟩ : BufTy).Contents (Elt F) → (⟨S8192x10532, .f32⟩ : BufTy).Contents (Elt F)),
    StableHlo.binary main_v4 main_v5 main_v6 (mulf : (⟨S8192x10532, .f32⟩ : BufTy).Contents (Elt F) → (⟨S8192x10532, .f32⟩ : BufTy).Contents (Elt F) → (⟨S8192x10532, .f32⟩ : BufTy).Contents (Elt F)),
    StableHlo.TRef.nullary main_call0.cst (constant S_ .f32 0xFF800000#32),
    StableHlo.TRef.binary (TRef.of main_v6 : TRef sig ⟨S8192x10532, .f32⟩) main_call0.cst main_call0.v0 (fun x v => Host.reduce FloatOps.maximumf x v reducesTo_S8192x10532_S8192_d1 h_S_),
    StableHlo.TRef.nullary main_call0.cst_0 (constant S_ .f32 0xFF800000#32),
    StableHlo.TRef.unary main_call0.cst_0 main_call0.v1 (broadcastInDim S8192 ![] bcast_S_S8192),
    StableHlo.TRef.binary main_call0.v1 main_call0.v0 main_call0.v2 maximumf,
    StableHlo.TRef.unary main_call0.v2 main_call0.v3 (broadcastInDim S8192x1 ![0] bcast_S8192_S8192x1_0),
    StableHlo.TRef.unary main_call0.v3 main_call0.v4 (broadcastInDim S8192x10532 ![0, 1] bcast_S8192x1_S8192x10532_0_1),
    StableHlo.TRef.binary (TRef.of main_v6 : TRef sig ⟨S8192x10532, .f32⟩) main_call0.v4 main_call0.v5 subf,
    StableHlo.TRef.unary main_call0.v5 main_call0.v6 Host.exp,
    StableHlo.TRef.nullary main_call0.cst_1 (constant S_ .f32 0x00000000#32),
    StableHlo.TRef.binary main_call0.v6 main_call0.cst_1 main_call0.v7 (fun x v => Host.reduceAdd x v reducesTo_S8192x10532_S8192_d1 h_S_),
    StableHlo.TRef.unary main_call0.v7 main_call0.v8 (broadcastInDim S8192x1 ![0] bcast_S8192_S8192x1_0),
    StableHlo.TRef.unary main_call0.v8 main_call0.v9 Host.log,
    StableHlo.TRef.unary main_call0.v9 main_call0.v10 (broadcastInDim S8192x10532 ![0, 1] bcast_S8192x1_S8192x10532_0_1),
    StableHlo.TRef.binary main_call0.v5 main_call0.v10 main_call0.v11 subf ]

/-- Operations 25–49: the labels as a column, wrapped and range-tested, the gather along the class axis, the negation. -/
abbrev opsC : List (HloOp τ sig (Elt F)) :=
  [ StableHlo.unary main_v1 main_v8 (broadcastInDim S8192x1 ![0] bcast_S8192_S8192x1_0 : (⟨S8192, .i32⟩ : BufTy).Contents (Elt F) → (⟨S8192x1, .i32⟩ : BufTy).Contents (Elt F)),
    StableHlo.TRef.nullary main_call1.c (constantI S_ 32 0#32),
    StableHlo.TRef.unary main_call1.c main_call1.v0 (broadcastInDim S8192x1 ![] bcast_S_S8192x1),
    StableHlo.TRef.binary (TRef.of main_v8 : TRef sig ⟨S8192x1, .i32⟩) main_call1.v0 main_call1.v1 (cmpi .slt),
    StableHlo.TRef.nullary main_call1.c_0 (constantI S_ 32 10532#32),
    StableHlo.TRef.unary main_call1.c_0 main_call1.v2 (broadcastInDim S8192x1 ![] bcast_S_S8192x1),
    StableHlo.TRef.binary (TRef.of main_v8 : TRef sig ⟨S8192x1, .i32⟩) main_call1.v2 main_call1.v3 addi,
    StableHlo.TRef.ternary main_call1.v1 main_call1.v3 (TRef.of main_v8 : TRef sig ⟨S8192x1, .i32⟩) main_call1.v4 select,
    StableHlo.TRef.reshape main_call1.v4 main_call1.v5 rfl shapeCasts_S8192x1_S8192x1x1,
    StableHlo.TRef.nullary main_call1.c_1 (constantI S1 32 10531#32),
    StableHlo.TRef.nullary main_call1.c_2 (constantI S_ 32 0#32),
    StableHlo.TRef.unary main_call1.c_2 main_call1.v6 (broadcastInDim S8192x1x1 ![] bcast_S_S8192x1x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S8192x1x1 ![0, 1, 2] bcast_S1x1x1_S8192x1x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S8192x1x1_S8192x1_d2 h_S_),
    StableHlo.TRef.binary (TRef.of main_v7 : TRef sig ⟨S8192x10532, .f32⟩) main_call1.v5 main_call1.v13 (fun x i => Host.gather gather_S8192x10532_S8192x1x1_S8192x1_n_1_0_0_1_2_11 x i),
    StableHlo.TRef.nullary main_call1.cst (constant S_ .f32 0x7FC00000#32),
    StableHlo.TRef.unary main_call1.cst main_call1.v14 (broadcastInDim S8192x1 ![] bcast_S_S8192x1),
    StableHlo.TRef.ternary main_call1.v12 main_call1.v13 main_call1.v14 main_call1.v15 select,
    StableHlo.reshape main_v9 main_v10 rfl shapeCasts_S8192x1_S8192,
    StableHlo.unary main_v10 main_v11 (Host.negf : (⟨S8192, .f32⟩ : BufTy).Contents (Elt F) → (⟨S8192, .f32⟩ : BufTy).Contents (Elt F)) ]

/-- Operations 50–75: the validity mask, the count, the masked sum, the quotient, the infinite values replaced. -/
abbrev opsD : List (HloOp τ sig (Elt F)) :=
  [ StableHlo.nullary main_c_0 (constantI S_ 32 5554#32),
    StableHlo.unary main_c_0 main_v12 (broadcastInDim S8192 ![] bcast_S_S8192 : (⟨S_, .i32⟩ : BufTy).Contents (Elt F) → (⟨S8192, .i32⟩ : BufTy).Contents (Elt F)),
    StableHlo.binary main_v1 main_v12 main_v13 (cmpi .ne : (⟨S8192, .i32⟩ : BufTy).Contents (Elt F) → (⟨S8192, .i32⟩ : BufTy).Contents (Elt F) → (⟨S8192, .i1⟩ : BufTy).Contents (Elt F)),
    StableHlo.unary main_v13 main_v14 (uitofp .f32 : (⟨S8192, .i1⟩ : BufTy).Contents (Elt F) → (⟨S8192, .f32⟩ : BufTy).Contents (Elt F)),
    StableHlo.nullary main_cst_1 (constant S_ .f32 0x00000000#32),
    StableHlo.binary main_v14 main_cst_1 main_v15 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_2 (constant S_ .f32 0x3F800000#32),
    StableHlo.binary main_v15 main_cst_2 main_v16 (maximumf : (⟨S_, .f32⟩ : BufTy).Contents (Elt F) → (⟨S_, .f32⟩ : BufTy).Contents (Elt F) → (⟨S_, .f32⟩ : BufTy).Contents (Elt F)),
    StableHlo.nullary main_cst_3 (constant S_ .f32 0x00000000#32),
    StableHlo.TRef.unary (TRef.of main_cst_3 : TRef sig ⟨S_, .f32⟩) main_call2.v0 id,
    StableHlo.TRef.unary main_call2.v0 main_call2.v1 (broadcastInDim S8192 ![] bcast_S_S8192),
    StableHlo.TRef.ternary (TRef.of main_v13 : TRef sig ⟨S8192, .i1⟩) (TRef.of main_v11 : TRef sig ⟨S8192, .f32⟩) main_call2.v1 main_call2.v2 select,
    StableHlo.nullary main_cst_4 (constant S_ .f32 0x00000000#32),
    StableHlo.binary main_v17 main_cst_4 main_v18 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.binary main_v18 main_v16 main_v19 (Host.divf : (⟨S_, .f32⟩ : BufTy).Contents (Elt F) → (⟨S_, .f32⟩ : BufTy).Contents (Elt F) → (⟨S_, .f32⟩ : BufTy).Contents (Elt F)),
    StableHlo.TRef.binary (TRef.of main_v19 : TRef sig ⟨S_, .f32⟩) (TRef.of main_v19 : TRef sig ⟨S_, .f32⟩) main_call3.v0 (cmpf .une),
    StableHlo.TRef.nullary main_call3.cst (constant S_ .f32 0x00000000#32),
    StableHlo.TRef.ternary main_call3.v0 main_call3.cst (TRef.of main_v19 : TRef sig ⟨S_, .f32⟩) main_call3.call0.v0 select,
    StableHlo.TRef.nullary main_call3.cst_0 (constant S_ .f32 0x7F800000#32),
    StableHlo.TRef.binary main_call3.call0.v0 main_call3.cst_0 main_call3.v2 (cmpf .oeq),
    StableHlo.TRef.nullary main_call3.cst_1 (constant S_ .f32 0x7F7FFFFF#32),
    StableHlo.TRef.ternary main_call3.v2 main_call3.cst_1 main_call3.call0.v0 main_call3.call1.v0 select,
    StableHlo.TRef.nullary main_call3.cst_2 (constant S_ .f32 0xFF800000#32),
    StableHlo.TRef.binary main_call3.call1.v0 main_call3.cst_2 main_call3.v4 (cmpf .oeq),
    StableHlo.TRef.nullary main_call3.cst_3 (constant S_ .f32 0xFF7FFFFF#32),
    StableHlo.TRef.ternary main_call3.v4 main_call3.cst_3 main_call3.call1.v0 main_call3.call2.v0 select ]

/-- @main's operations, in order. -/
abbrev ops : List (HloOp τ sig (Elt F)) := opsA ++ (opsB ++ (opsC ++ opsD))

/-! ## Each stretch at the buffers the next ones read -/

attribute [local irreducible] Host.reduce Host.reduceAdd Host.gather concatenate shapeCast broadcastInDim

/-- The fold over a concatenation is the fold over the second list from the fold over the first. -/
theorem after_append' (l₁ l₂ : List (HloOp τ sig (Elt F))) (V : Valuation τ sig (Elt F)) :
    after (l₁ ++ l₂) V = after l₂ (after l₁ V) := by
  induction l₁ generalizing V with
  | nil => rfl
  | cons op l ih => exact ih _

/-- Contents moved to a buffer's own type and back are unchanged. -/
theorem ofBuf_toBuf {T : BufTy} (x : TRef sig T) (v : T.Contents (Elt F)) : x.ofBuf (x.toBuf v) = v := by
  obtain ⟨r, h, o, u⟩ := x
  subst h
  rfl

theorem A_v1 (W : Valuation τ sig (Elt F)) : after opsA W (main_v1 : DevRef τ sig) = labelIdx (W (main_arg1 : DevRef τ sig)) := by
  after_results_simp <;> (try simp only [TRef.ofBuf, TRef.toBuf, cast_eq]) <;> rfl
theorem A_v2 (W : Valuation τ sig (Elt F)) : after opsA W (main_v2 : DevRef τ sig)
    = Host.dotGeneral (F := F) dot_S8192x256_S5532x256_S8192x5532_1_1_0_0_n_n none (W (main_arg0 : DevRef τ sig)) (W (main_arg3 : DevRef τ sig)) := by
  after_results_simp <;> (try simp only [TRef.ofBuf, TRef.toBuf, cast_eq]) <;> rfl
theorem A_v3 (W : Valuation τ sig (Elt F)) : after opsA W (main_v3 : DevRef τ sig)
    = Host.dotGeneral (F := F) dot_S8192x256_S5000x256_S8192x5000_1_1_0_0_n_n none (W (main_arg0 : DevRef τ sig)) (W (main_arg4 : DevRef τ sig)) := by
  after_results_simp <;> (try simp only [TRef.ofBuf, TRef.toBuf, cast_eq]) <;> rfl
theorem A_arg0 (W : Valuation τ sig (Elt F)) : after opsA W (main_arg0 : DevRef τ sig) = W (main_arg0 : DevRef τ sig) := by
  after_results_simp
theorem A_arg1 (W : Valuation τ sig (Elt F)) : after opsA W (main_arg1 : DevRef τ sig) = W (main_arg1 : DevRef τ sig) := by
  after_results_simp
theorem A_arg2 (W : Valuation τ sig (Elt F)) : after opsA W (main_arg2 : DevRef τ sig) = W (main_arg2 : DevRef τ sig) := by
  after_results_simp
theorem A_arg3 (W : Valuation τ sig (Elt F)) : after opsA W (main_arg3 : DevRef τ sig) = W (main_arg3 : DevRef τ sig) := by
  after_results_simp
theorem A_arg4 (W : Valuation τ sig (Elt F)) : after opsA W (main_arg4 : DevRef τ sig) = W (main_arg4 : DevRef τ sig) := by
  after_results_simp

/-! ### The second stretch in five pieces

The stretch's nineteen operations cut where a later piece reads only a few buffers of the earlier ones: the scaled
logits (operations 6–9), each row's maximum (10–14), the shifted logits (15–17), each row's sum of exponentials
(18–20), the logarithm subtracted (21–24). -/

/-- Operations 6–9: the two products side by side, times thirty. -/
abbrev opsB1 : List (HloOp τ sig (Elt F)) :=
  [ StableHlo.binary main_v2 main_v3 main_v4 ((fun a b => concatenate S8192x10532 1 [⟨S8192x5532, a⟩, ⟨S8192x5000, b⟩] concatenates_S8192x5532_S8192x5000_S8192x10532_d1) : (⟨S8192x5532, .f32⟩ : BufTy).Contents (Elt F) → (⟨S8192x5000, .f32⟩ : BufTy).Contents (Elt F) → (⟨S8192x10532, .f32⟩ : BufTy).Contents (Elt F)),
    StableHlo.nullary main_cst (constant S_ .f32 0x41F00000#32),
    StableHlo.unary main_cst main_v5 (broadcastInDim S8192x10532 ![] bcast_S_S8192x10532 : (⟨S_, .f32⟩ : BufTy).Contents (Elt F) → (⟨S8192x10532, .f32⟩ : BufTy).Contents (Elt F)),
    StableHlo.binary main_v4 main_v5 main_v6 (mulf : (⟨S8192x10532, .f32⟩ : BufTy).Contents (Elt F) → (⟨S8192x10532, .f32⟩ : BufTy).Contents (Elt F) → (⟨S8192x10532, .f32⟩ : BufTy).Contents (Elt F)) ]

/-- Operations 10–14: each row's maximum over -∞. -/
abbrev opsB2 : List (HloOp τ sig (Elt F)) :=
  [ StableHlo.TRef.nullary main_call0.cst (constant S_ .f32 0xFF800000#32),
    StableHlo.TRef.binary (TRef.of main_v6 : TRef sig ⟨S8192x10532, .f32⟩) main_call0.cst main_call0.v0 (fun x v => Host.reduce FloatOps.maximumf x v reducesTo_S8192x10532_S8192_d1 h_S_),
    StableHlo.TRef.nullary main_call0.cst_0 (constant S_ .f32 0xFF800000#32),
    StableHlo.TRef.unary main_call0.cst_0 main_call0.v1 (broadcastInDim S8192 ![] bcast_S_S8192),
    StableHlo.TRef.binary main_call0.v1 main_call0.v0 main_call0.v2 maximumf ]

/-- Operations 15–17: the maxima spread along their rows and subtracted. -/
abbrev opsB3 : List (HloOp τ sig (Elt F)) :=
  [ StableHlo.TRef.unary main_call0.v2 main_call0.v3 (broadcastInDim S8192x1 ![0] bcast_S8192_S8192x1_0),
    StableHlo.TRef.unary main_call0.v3 main_call0.v4 (broadcastInDim S8192x10532 ![0, 1] bcast_S8192x1_S8192x10532_0_1),
    StableHlo.TRef.binary (TRef.of main_v6 : TRef sig ⟨S8192x10532, .f32⟩) main_call0.v4 main_call0.v5 subf ]

/-- Operations 18–20: the exponentials and each row's sum of them. -/
abbrev opsB4 : List (HloOp τ sig (Elt F)) :=
  [ StableHlo.TRef.unary main_call0.v5 main_call0.v6 Host.exp,
    StableHlo.TRef.nullary main_call0.cst_1 (constant S_ .f32 0x00000000#32),
    StableHlo.TRef.binary main_call0.v6 main_call0.cst_1 main_call0.v7 (fun x v => Host.reduceAdd x v reducesTo_S8192x10532_S8192_d1 h_S_) ]

/-- Operations 21–24: the sums' logarithms spread along their rows and subtracted. -/
abbrev opsB5 : List (HloOp τ sig (Elt F)) :=
  [ StableHlo.TRef.unary main_call0.v7 main_call0.v8 (broadcastInDim S8192x1 ![0] bcast_S8192_S8192x1_0),
    StableHlo.TRef.unary main_call0.v8 main_call0.v9 Host.log,
    StableHlo.TRef.unary main_call0.v9 main_call0.v10 (broadcastInDim S8192x10532 ![0, 1] bcast_S8192x1_S8192x10532_0_1),
    StableHlo.TRef.binary main_call0.v5 main_call0.v10 main_call0.v11 subf ]

/-- The stretch is its five pieces in order. -/
theorem opsB_split : (opsB : List (HloOp τ sig (Elt F))) = opsB1 ++ (opsB2 ++ (opsB3 ++ (opsB4 ++ opsB5))) := rfl

theorem B1_v6 (W : Valuation τ sig (Elt F)) : after opsB1 W (main_v6 : DevRef τ sig) = scaled (W (main_v2 : DevRef τ sig)) (W (main_v3 : DevRef τ sig)) := by
  after_results_simp <;> rfl
theorem B2_max (W : Valuation τ sig (Elt F)) : after opsB2 W (main_call0_v2 : DevRef τ sig) = rowMaxV (W (main_v6 : DevRef τ sig)) := by
  after_results_simp
  simp only [ofBuf_toBuf]
  rfl
theorem B2_v6 (W : Valuation τ sig (Elt F)) : after opsB2 W (main_v6 : DevRef τ sig) = W (main_v6 : DevRef τ sig) := by
  after_results_simp
theorem B3_sh (W : Valuation τ sig (Elt F)) : after opsB3 W (main_call0_v5 : DevRef τ sig)
    = subf (W (main_v6 : DevRef τ sig)) (broadcastInDim S8192x10532 ![0, 1] bcast_S8192x1_S8192x10532_0_1
        (broadcastInDim S8192x1 ![0] bcast_S8192_S8192x1_0 (W (main_call0_v2 : DevRef τ sig)))) := by
  after_results_simp
  simp only [ofBuf_toBuf]
  rfl
theorem B4_sum (W : Valuation τ sig (Elt F)) : after opsB4 W (main_call0_v7 : DevRef τ sig)
    = Host.reduceAdd (F := F) (Host.exp (F := F) (W (main_call0_v5 : DevRef τ sig))) (constant (F := F) S_ .f32 0x00000000#32) reducesTo_S8192x10532_S8192_d1 h_S_ := by
  after_results_simp
  simp only [ofBuf_toBuf]
  rfl
theorem B4_sh (W : Valuation τ sig (Elt F)) : after opsB4 W (main_call0_v5 : DevRef τ sig) = W (main_call0_v5 : DevRef τ sig) := by
  after_results_simp
theorem B5_v7 (W : Valuation τ sig (Elt F)) : after opsB5 W (main_v7 : DevRef τ sig)
    = subf (W (main_call0_v5 : DevRef τ sig)) (broadcastInDim S8192x10532 ![0, 1] bcast_S8192x1_S8192x10532_0_1
        (Host.log (F := F) (broadcastInDim S8192x1 ![0] bcast_S8192_S8192x1_0 (W (main_call0_v7 : DevRef τ sig))))) := by
  after_results_simp
  simp only [ofBuf_toBuf]
  rfl

theorem B_v7 (W : Valuation τ sig (Elt F)) : after opsB W (main_v7 : DevRef τ sig)
    = logProb (scaled (W (main_v2 : DevRef τ sig)) (W (main_v3 : DevRef τ sig))) := by
  rw [opsB_split, after_append', after_append', after_append', after_append', B5_v7, B4_sum, B4_sh, B3_sh, B2_max, B2_v6, B1_v6]
  rfl
theorem B_v1 (W : Valuation τ sig (Elt F)) : after opsB W (main_v1 : DevRef τ sig) = W (main_v1 : DevRef τ sig) := by
  after_results_simp
theorem B_arg0 (W : Valuation τ sig (Elt F)) : after opsB W (main_arg0 : DevRef τ sig) = W (main_arg0 : DevRef τ sig) := by
  after_results_simp
theorem B_arg1 (W : Valuation τ sig (Elt F)) : after opsB W (main_arg1 : DevRef τ sig) = W (main_arg1 : DevRef τ sig) := by
  after_results_simp
theorem B_arg2 (W : Valuation τ sig (Elt F)) : after opsB W (main_arg2 : DevRef τ sig) = W (main_arg2 : DevRef τ sig) := by
  after_results_simp
theorem B_arg3 (W : Valuation τ sig (Elt F)) : after opsB W (main_arg3 : DevRef τ sig) = W (main_arg3 : DevRef τ sig) := by
  after_results_simp
theorem B_arg4 (W : Valuation τ sig (Elt F)) : after opsB W (main_arg4 : DevRef τ sig) = W (main_arg4 : DevRef τ sig) := by
  after_results_simp

/-! ### The third stretch in three pieces

The stretch's twenty-five operations cut where a later piece reads only a few buffers of the earlier ones:
the index table (operations 25–33), its range test (34–43), the gather and what follows (44–49). Each
piece's result at the buffers the next reads is a short term; the stretch's result is their composition. -/

/-- Operations 25–33: the labels as a column, a negative one moved up by the class count, one index vector per row. -/
abbrev opsC1 : List (HloOp τ sig (Elt F)) :=
  [ StableHlo.unary main_v1 main_v8 (broadcastInDim S8192x1 ![0] bcast_S8192_S8192x1_0 : (⟨S8192, .i32⟩ : BufTy).Contents (Elt F) → (⟨S8192x1, .i32⟩ : BufTy).Contents (Elt F)),
    StableHlo.TRef.nullary main_call1.c (constantI S_ 32 0#32),
    StableHlo.TRef.unary main_call1.c main_call1.v0 (broadcastInDim S8192x1 ![] bcast_S_S8192x1),
    StableHlo.TRef.binary (TRef.of main_v8 : TRef sig ⟨S8192x1, .i32⟩) main_call1.v0 main_call1.v1 (cmpi .slt),
    StableHlo.TRef.nullary main_call1.c_0 (constantI S_ 32 10532#32),
    StableHlo.TRef.unary main_call1.c_0 main_call1.v2 (broadcastInDim S8192x1 ![] bcast_S_S8192x1),
    StableHlo.TRef.binary (TRef.of main_v8 : TRef sig ⟨S8192x1, .i32⟩) main_call1.v2 main_call1.v3 addi,
    StableHlo.TRef.ternary main_call1.v1 main_call1.v3 (TRef.of main_v8 : TRef sig ⟨S8192x1, .i32⟩) main_call1.v4 select,
    StableHlo.TRef.reshape main_call1.v4 main_call1.v5 rfl shapeCasts_S8192x1_S8192x1x1 ]

/-- Operations 34–43: the range test of the index vectors. -/
abbrev opsC2 : List (HloOp τ sig (Elt F)) :=
  [ StableHlo.TRef.nullary main_call1.c_1 (constantI S1 32 10531#32),
    StableHlo.TRef.nullary main_call1.c_2 (constantI S_ 32 0#32),
    StableHlo.TRef.unary main_call1.c_2 main_call1.v6 (broadcastInDim S8192x1x1 ![] bcast_S_S8192x1x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S8192x1x1 ![0, 1, 2] bcast_S1x1x1_S8192x1x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S8192x1x1_S8192x1_d2 h_S_) ]

/-- Operations 44–49: the gather, the undefined value where the index is no class, the column as a vector, the negation. -/
abbrev opsC3 : List (HloOp τ sig (Elt F)) :=
  [ StableHlo.TRef.binary (TRef.of main_v7 : TRef sig ⟨S8192x10532, .f32⟩) main_call1.v5 main_call1.v13 (fun x i => Host.gather gather_S8192x10532_S8192x1x1_S8192x1_n_1_0_0_1_2_11 x i),
    StableHlo.TRef.nullary main_call1.cst (constant S_ .f32 0x7FC00000#32),
    StableHlo.TRef.unary main_call1.cst main_call1.v14 (broadcastInDim S8192x1 ![] bcast_S_S8192x1),
    StableHlo.TRef.ternary main_call1.v12 main_call1.v13 main_call1.v14 main_call1.v15 select,
    StableHlo.reshape main_v9 main_v10 rfl shapeCasts_S8192x1_S8192,
    StableHlo.unary main_v10 main_v11 (Host.negf : (⟨S8192, .f32⟩ : BufTy).Contents (Elt F) → (⟨S8192, .f32⟩ : BufTy).Contents (Elt F)) ]

theorem C1_idx (W : Valuation τ sig (Elt F)) : after opsC1 W (main_call1_v5 : DevRef τ sig) = wrapIdx (W (main_v1 : DevRef τ sig)) := by
  after_results_simp <;> (try simp only [StableHlo.TRef.ofBuf, StableHlo.TRef.toBuf, cast_eq]) <;> rfl
theorem C1_v7 (W : Valuation τ sig (Elt F)) : after opsC1 W (main_v7 : DevRef τ sig) = W (main_v7 : DevRef τ sig) := by
  after_results_simp
theorem C2_rng (W : Valuation τ sig (Elt F)) : after opsC2 W (main_call1_v12 : DevRef τ sig) = inRange (W (main_call1_v5 : DevRef τ sig)) := by
  after_results_simp <;> (try simp only [StableHlo.TRef.ofBuf, StableHlo.TRef.toBuf, cast_eq]) <;> rfl
theorem C2_idx (W : Valuation τ sig (Elt F)) : after opsC2 W (main_call1_v5 : DevRef τ sig) = W (main_call1_v5 : DevRef τ sig) := by
  after_results_simp
theorem C2_v7 (W : Valuation τ sig (Elt F)) : after opsC2 W (main_v7 : DevRef τ sig) = W (main_v7 : DevRef τ sig) := by
  after_results_simp
theorem C3_v11 (W : Valuation τ sig (Elt F)) : after opsC3 W (main_v11 : DevRef τ sig)
    = Host.negf (F := F) (shapeCast S8192 (select (W (main_call1_v12 : DevRef τ sig))
        (Host.gather gather_S8192x10532_S8192x1x1_S8192x1_n_1_0_0_1_2_11 (W (main_v7 : DevRef τ sig)) (W (main_call1_v5 : DevRef τ sig)))
        (broadcastInDim S8192x1 ![] bcast_S_S8192x1 (constant (F := F) S_ .f32 0x7FC00000#32))) shapeCasts_S8192x1_S8192) := by
  after_results_simp <;> (try simp only [StableHlo.TRef.ofBuf, StableHlo.TRef.toBuf, cast_eq]) <;> rfl

/-- The stretch is its three pieces in order. -/
theorem opsC_split : (opsC : List (HloOp τ sig (Elt F))) = opsC1 ++ (opsC2 ++ opsC3) := rfl

theorem C_v11 (W : Valuation τ sig (Elt F)) : after opsC W (main_v11 : DevRef τ sig)
    = negTaken (W (main_v7 : DevRef τ sig)) (W (main_v1 : DevRef τ sig)) := by
  rw [opsC_split, after_append', after_append', C3_v11, C2_rng, C2_idx, C2_v7, C1_idx, C1_v7]
  rfl
theorem C_v1 (W : Valuation τ sig (Elt F)) : after opsC W (main_v1 : DevRef τ sig) = W (main_v1 : DevRef τ sig) := by
  after_results_simp
theorem C_arg0 (W : Valuation τ sig (Elt F)) : after opsC W (main_arg0 : DevRef τ sig) = W (main_arg0 : DevRef τ sig) := by
  after_results_simp
theorem C_arg1 (W : Valuation τ sig (Elt F)) : after opsC W (main_arg1 : DevRef τ sig) = W (main_arg1 : DevRef τ sig) := by
  after_results_simp
theorem C_arg2 (W : Valuation τ sig (Elt F)) : after opsC W (main_arg2 : DevRef τ sig) = W (main_arg2 : DevRef τ sig) := by
  after_results_simp
theorem C_arg3 (W : Valuation τ sig (Elt F)) : after opsC W (main_arg3 : DevRef τ sig) = W (main_arg3 : DevRef τ sig) := by
  after_results_simp
theorem C_arg4 (W : Valuation τ sig (Elt F)) : after opsC W (main_arg4 : DevRef τ sig) = W (main_arg4 : DevRef τ sig) := by
  after_results_simp

/-- Operations 50–58: the mask, its count floored at one, the zero the masked rows fall back to. -/
abbrev opsD1 : List (HloOp τ sig (Elt F)) :=
  [ StableHlo.nullary main_c_0 (constantI S_ 32 5554#32),
    StableHlo.unary main_c_0 main_v12 (broadcastInDim S8192 ![] bcast_S_S8192 : (⟨S_, .i32⟩ : BufTy).Contents (Elt F) → (⟨S8192, .i32⟩ : BufTy).Contents (Elt F)),
    StableHlo.binary main_v1 main_v12 main_v13 (cmpi .ne : (⟨S8192, .i32⟩ : BufTy).Contents (Elt F) → (⟨S8192, .i32⟩ : BufTy).Contents (Elt F) → (⟨S8192, .i1⟩ : BufTy).Contents (Elt F)),
    StableHlo.unary main_v13 main_v14 (uitofp .f32 : (⟨S8192, .i1⟩ : BufTy).Contents (Elt F) → (⟨S8192, .f32⟩ : BufTy).Contents (Elt F)),
    StableHlo.nullary main_cst_1 (constant S_ .f32 0x00000000#32),
    StableHlo.binary main_v14 main_cst_1 main_v15 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_2 (constant S_ .f32 0x3F800000#32),
    StableHlo.binary main_v15 main_cst_2 main_v16 (maximumf : (⟨S_, .f32⟩ : BufTy).Contents (Elt F) → (⟨S_, .f32⟩ : BufTy).Contents (Elt F) → (⟨S_, .f32⟩ : BufTy).Contents (Elt F)),
    StableHlo.nullary main_cst_3 (constant S_ .f32 0x00000000#32) ]

/-- Operations 59–61: the per-row values kept on the masked rows, zero elsewhere. -/
abbrev opsD2 : List (HloOp τ sig (Elt F)) :=
  [ StableHlo.TRef.unary (TRef.of main_cst_3 : TRef sig ⟨S_, .f32⟩) main_call2.v0 id,
    StableHlo.TRef.unary main_call2.v0 main_call2.v1 (broadcastInDim S8192 ![] bcast_S_S8192),
    StableHlo.TRef.ternary (TRef.of main_v13 : TRef sig ⟨S8192, .i1⟩) (TRef.of main_v11 : TRef sig ⟨S8192, .f32⟩) main_call2.v1 main_call2.v2 select ]

/-- Operations 62–64: the kept values' sum over the count. -/
abbrev opsD3 : List (HloOp τ sig (Elt F)) :=
  [ StableHlo.nullary main_cst_4 (constant S_ .f32 0x00000000#32),
    StableHlo.binary main_v17 main_cst_4 main_v18 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.binary main_v18 main_v16 main_v19 (Host.divf : (⟨S_, .f32⟩ : BufTy).Contents (Elt F) → (⟨S_, .f32⟩ : BufTy).Contents (Elt F) → (⟨S_, .f32⟩ : BufTy).Contents (Elt F)) ]

/-- Operations 65–75: the undefined and the infinite values of the quotient replaced. -/
abbrev opsD4 : List (HloOp τ sig (Elt F)) :=
  [ StableHlo.TRef.binary (TRef.of main_v19 : TRef sig ⟨S_, .f32⟩) (TRef.of main_v19 : TRef sig ⟨S_, .f32⟩) main_call3.v0 (cmpf .une),
    StableHlo.TRef.nullary main_call3.cst (constant S_ .f32 0x00000000#32),
    StableHlo.TRef.ternary main_call3.v0 main_call3.cst (TRef.of main_v19 : TRef sig ⟨S_, .f32⟩) main_call3.call0.v0 select,
    StableHlo.TRef.nullary main_call3.cst_0 (constant S_ .f32 0x7F800000#32),
    StableHlo.TRef.binary main_call3.call0.v0 main_call3.cst_0 main_call3.v2 (cmpf .oeq),
    StableHlo.TRef.nullary main_call3.cst_1 (constant S_ .f32 0x7F7FFFFF#32),
    StableHlo.TRef.ternary main_call3.v2 main_call3.cst_1 main_call3.call0.v0 main_call3.call1.v0 select,
    StableHlo.TRef.nullary main_call3.cst_2 (constant S_ .f32 0xFF800000#32),
    StableHlo.TRef.binary main_call3.call1.v0 main_call3.cst_2 main_call3.v4 (cmpf .oeq),
    StableHlo.TRef.nullary main_call3.cst_3 (constant S_ .f32 0xFF7FFFFF#32),
    StableHlo.TRef.ternary main_call3.v4 main_call3.cst_3 main_call3.call1.v0 main_call3.call2.v0 select ]

theorem opsD_split : (opsD : List (HloOp τ sig (Elt F))) = opsD1 ++ (opsD2 ++ (opsD3 ++ opsD4)) := rfl

theorem D1_v13 (W : Valuation τ sig (Elt F)) : after opsD1 W (main_v13 : DevRef τ sig) = maskOf (W (main_v1 : DevRef τ sig)) := by
  after_results_simp
  rfl
theorem D1_v16 (W : Valuation τ sig (Elt F)) : after opsD1 W (main_v16 : DevRef τ sig)
    = maximumf (Host.reduceAdd (F := F) (uitofp (F := F) .f32 (maskOf (W (main_v1 : DevRef τ sig)))) (constant (F := F) S_ .f32 0x00000000#32) reducesTo_S8192_S_d0 h_S_)
        (constant (F := F) S_ .f32 0x3F800000#32) := by
  after_results_simp
  rfl
theorem D1_v11 (W : Valuation τ sig (Elt F)) : after opsD1 W (main_v11 : DevRef τ sig) = W (main_v11 : DevRef τ sig) := by
  after_results_simp
theorem D1_cst_3 (W : Valuation τ sig (Elt F)) : after opsD1 W (main_cst_3 : DevRef τ sig) = constant (F := F) S_ .f32 0x00000000#32 := by
  after_results_simp

theorem D2_v17 (W : Valuation τ sig (Elt F)) : after opsD2 W (main_v17 : DevRef τ sig)
    = select (W (main_v13 : DevRef τ sig)) (W (main_v11 : DevRef τ sig))
        (broadcastInDim S8192 ![] bcast_S_S8192 (W (main_cst_3 : DevRef τ sig))) := by
  after_results_simp
  rfl
theorem D2_v16 (W : Valuation τ sig (Elt F)) : after opsD2 W (main_v16 : DevRef τ sig) = W (main_v16 : DevRef τ sig) := by
  after_results_simp

theorem D3_v19 (W : Valuation τ sig (Elt F)) : after opsD3 W (main_v19 : DevRef τ sig)
    = Host.divf (F := F) (Host.reduceAdd (F := F) (W (main_v17 : DevRef τ sig)) (constant (F := F) S_ .f32 0x00000000#32) reducesTo_S8192_S_d0 h_S_)
        (W (main_v16 : DevRef τ sig)) := by
  after_results_simp

theorem D4_v20 (W : Valuation τ sig (Elt F)) : after opsD4 W (main_v20 : DevRef τ sig) = clip (W (main_v19 : DevRef τ sig)) := by
  after_results_simp
  rfl

theorem D_v20 (W : Valuation τ sig (Elt F)) : after opsD W (main_v20 : DevRef τ sig)
    = tailOf (maskOf (W (main_v1 : DevRef τ sig))) (W (main_v11 : DevRef τ sig)) := by
  rw [opsD_split, after_append', after_append', after_append', D4_v20, D3_v19, D2_v17, D2_v16, D1_v13, D1_v11, D1_cst_3, D1_v16]
  rfl
theorem D_arg0 (W : Valuation τ sig (Elt F)) : after opsD W (main_arg0 : DevRef τ sig) = W (main_arg0 : DevRef τ sig) := by
  after_results_simp
theorem D_arg1 (W : Valuation τ sig (Elt F)) : after opsD W (main_arg1 : DevRef τ sig) = W (main_arg1 : DevRef τ sig) := by
  after_results_simp
theorem D_arg2 (W : Valuation τ sig (Elt F)) : after opsD W (main_arg2 : DevRef τ sig) = W (main_arg2 : DevRef τ sig) := by
  after_results_simp
theorem D_arg3 (W : Valuation τ sig (Elt F)) : after opsD W (main_arg3 : DevRef τ sig) = W (main_arg3 : DevRef τ sig) := by
  after_results_simp
theorem D_arg4 (W : Valuation τ sig (Elt F)) : after opsD W (main_arg4 : DevRef τ sig) = W (main_arg4 : DevRef τ sig) := by
  after_results_simp

/-! ## The whole line -/

set_option maxRecDepth 4096 in
set_option maxHeartbeats 1000000 in
/-- @main is that straight line: the outlined functions unfolded where they are called, the sequencing reassociated. -/
theorem main_eq (c : Dev nD) : main (F := F) c = seq ops := by
  simp only [ops, seq_append, main, fn_log_softmax.body, fn_take_along_axis.body, fn_where.body, fn_where_0.body,
    fn_nan_to_num.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., binary_bufs_sub .., binary_bufs_sub .., binary_bufs_sub ..⟩
theorem opsB_sub : (opsB : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem opsC_sub : (opsC : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub ..⟩
theorem opsD_sub : (opsD : List (HloOp τ sig (Elt F))).Forall fun op => op.bufs ⊆ tcRefs τ sig :=
  ⟨nullary_bufs_sub .., unary_bufs_sub .., binary_bufs_sub .., unary_bufs_sub .., nullary_bufs_sub .., binary_bufs_sub .., nullary_bufs_sub .., binary_bufs_sub .., nullary_bufs_sub .., unary_bufs_sub .., unary_bufs_sub .., ternary_bufs_sub .., nullary_bufs_sub .., binary_bufs_sub .., binary_bufs_sub .., binary_bufs_sub .., nullary_bufs_sub .., ternary_bufs_sub .., nullary_bufs_sub .., binary_bufs_sub .., nullary_bufs_sub .., ternary_bufs_sub .., nullary_bufs_sub .., binary_bufs_sub .., nullary_bufs_sub .., ternary_bufs_sub ..⟩

/-- Every operation touches TensorCore references only. -/
theorem ops_sub : (ops : List (HloOp τ sig (Elt F))).Forall fun op => op.bufs ⊆ tcRefs τ sig := by
  rw [List.forall_iff_forall_mem]
  intro op h
  rcases List.mem_append.1 h with h | h
  · exact List.forall_iff_forall_mem.1 opsA_sub op h
  rcases List.mem_append.1 h with h | h
  · exact List.forall_iff_forall_mem.1 opsB_sub op h
  rcases List.mem_append.1 h with h | h
  · exact List.forall_iff_forall_mem.1 opsC_sub op h
  · exact List.forall_iff_forall_mem.1 opsD_sub op h

theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h
theorem opsD_fresh : ∀ op ∈ (opsD : List (HloOp τ sig (Elt F))), op.fresh = ∅ := by
  intro _ h; (repeat (cases h with | head => rfl | tail _ h => ?_)); exact nomatch h

/-- Every operation determines its results. -/
theorem ops_fresh : ∀ op ∈ (ops : List (HloOp τ sig (Elt F))), op.fresh = ∅ := by
  intro op h
  rcases List.mem_append.1 h with h | h
  · exact opsA_fresh op h
  rcases List.mem_append.1 h with h | h
  · exact opsB_fresh op h
  rcases List.mem_append.1 h with h | h
  · exact opsC_fresh op h
  · exact opsD_fresh op h

/-- The result buffer after the whole line: the stretches' values composed. -/
theorem out_eq (V : Valuation τ sig (Elt F)) : after ops V (main_v20 : DevRef τ sig)
    = res (V (main_arg0 : DevRef τ sig)) (V (main_arg1 : DevRef τ sig)) (V (main_arg3 : DevRef τ sig)) (V (main_arg4 : DevRef τ sig)) := by
  rw [show (ops : List (HloOp τ sig (Elt F))) = opsA ++ (opsB ++ (opsC ++ opsD)) from rfl, after_append', after_append', after_append']
  rw [D_v20, C_v11, C_v1, B_v7, B_v1, A_v1, A_v2, A_v3]
  rfl

theorem arg0_eq (V : Valuation τ sig (Elt F)) : after ops V (main_arg0 : DevRef τ sig) = V (main_arg0 : DevRef τ sig) := by
  rw [show (ops : List (HloOp τ sig (Elt F))) = opsA ++ (opsB ++ (opsC ++ opsD)) from rfl, after_append', after_append', after_append']
  rw [D_arg0, C_arg0, B_arg0, A_arg0]
theorem arg1_eq (V : Valuation τ sig (Elt F)) : after ops V (main_arg1 : DevRef τ sig) = V (main_arg1 : DevRef τ sig) := by
  rw [show (ops : List (HloOp τ sig (Elt F))) = opsA ++ (opsB ++ (opsC ++ opsD)) from rfl, after_append', after_append', after_append']
  rw [D_arg1, C_arg1, B_arg1, A_arg1]
theorem arg2_eq (V : Valuation τ sig (Elt F)) : after ops V (main_arg2 : DevRef τ sig) = V (main_arg2 : DevRef τ sig) := by
  rw [show (ops : List (HloOp τ sig (Elt F))) = opsA ++ (opsB ++ (opsC ++ opsD)) from rfl, after_append', after_append', after_append']
  rw [D_arg2, C_arg2, B_arg2, A_arg2]
theorem arg3_eq (V : Valuation τ sig (Elt F)) : after ops V (main_arg3 : DevRef τ sig) = V (main_arg3 : DevRef τ sig) := by
  rw [show (ops : List (HloOp τ sig (Elt F))) = opsA ++ (opsB ++ (opsC ++ opsD)) from rfl, after_append', after_append', after_append']
  rw [D_arg3, C_arg3, B_arg3, A_arg3]
theorem arg4_eq (V : Valuation τ sig (Elt F)) : after ops V (main_arg4 : DevRef τ sig) = V (main_arg4 : DevRef τ sig) := by
  rw [show (ops : List (HloOp τ sig (Elt F))) = opsA ++ (opsB ++ (opsC ++ opsD)) from rfl, after_append', after_append', after_append']
  rw [D_arg4, C_arg4, B_arg4, A_arg4]

/-- On every device, for any float values, from any memory with zero counters: every weakly fair execution of @main
    terminates with the result buffer at `res` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v20)
        = res (m ((c.tc : Thread nD τ).loc main_arg0)) (m ((c.tc : Thread nD τ).loc main_arg1))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v20).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ (fun _ => ops_fresh))

end Cert.ReferenceIdeal.Hand

end
-- ==== Proof.RefStages.lean ====
/-
  The two stages of the reference that carry mathematics, read at an index.

  The first takes an array of logits, 8192 rows of 10532, and subtracts from each row its maximum and then the
  logarithm of the row's sum of exponentials of the shifted entries: entry (n, j) becomes
  (L n j - M n) - log (∑ j', exp (L n j' - M n)) with M n the maximum of row n taken over -∞.

  The second picks one column per row: where row n's index word is a column number k below 10532, entry n of the
  result is entry (n, k) of the array. Such a word is non-negative and at most 10531 as a signed word, so the
  wrap-around of negative indices leaves it alone and the in-bounds test passes.
-/
import proofs.«415740_j40690520162428_3_alg».proof.ReferenceIdeal
import proofs.«415740_j40690520162428_3_alg».proof.Proof.LogSumExp
import Idealize.ShloMosaic.PureOps.Ideal.Laws
import Idealize.ShloMosaic.Lib.ValueIdx
import Idealize.ShloMosaic.Lib.IdealHost
import Idealize.ShloMosaic.Lib.Affine
import Idealize.ShloMosaic.Lib.Pipeline.Value
import Idealize.ShloMosaic.Lib.ValueLayout

noncomputable section

namespace Cert.ReferenceIdeal.Stages

open Cert.ReferenceIdeal Idealize.ShloMosaic Idealize.ShloMosaic.ValueIdx
open scoped BigOperators

variable [Cert.ReferenceIdeal.Facts₀]
open Cert.ReferenceIdeal.Facts₀

/-! ### Each row minus its maximum minus the logarithm of its sum of exponentials -/

/-- Row maxima: the maximum of -∞ and the row's maximum folded from -∞. -/
def rowMaxVec (L : FVec Ideal S8192x10532 .f32) : FVec Ideal S8192 .f32 :=
  maximumf (broadcastInDim S8192 ![] bcast_S_S8192 (constant (F := Ideal) S_ .f32 0xFF800000#32))
    (Host.reduce (FloatOps.maximumf (F := Ideal) (φ := .f32)) L (constant (F := Ideal) S_ .f32 0xFF800000#32)
      reducesTo_S8192x10532_S8192_d1 h_S_)

/-- Every entry minus its row's maximum. -/
def shifted (L : FVec Ideal S8192x10532 .f32) : FVec Ideal S8192x10532 .f32 :=
  subf L (broadcastInDim S8192x10532 ![0, 1] bcast_S8192x1_S8192x10532_0_1
    (broadcastInDim S8192x1 ![0] bcast_S8192_S8192x1_0 (rowMaxVec L)))

/-- Row sums of the exponentials of the shifted entries, from 0. -/
def rowSumVec (L : FVec Ideal S8192x10532 .f32) : FVec Ideal S8192 .f32 :=
  Host.reduceAdd (Host.exp (F := Ideal) (shifted L)) (constant (F := Ideal) S_ .f32 0x00000000#32)
    reducesTo_S8192x10532_S8192_d1 h_S_

/-- The shifted entries minus the logarithm of their row's sum. -/
def logSoftmax (L : FVec Ideal S8192x10532 .f32) : FVec Ideal S8192x10532 .f32 :=
  subf (shifted L) (broadcastInDim S8192x10532 ![0, 1] bcast_S8192x1_S8192x10532_0_1
    (Host.log (F := Ideal) (broadcastInDim S8192x1 ![0] bcast_S8192_S8192x1_0 (rowSumVec L))))

/-- The word of -∞. -/
theorem ofBits_negInf : Ideal.ofBits .f32 0xFF800000#32 = (⊥ : EReal) := by
  simp [Ideal.ofBits, Ideal.ieee]

/-- Row n with column k put back is (n, k). -/
theorem lift_row (h : S8192x10532.Reduces [1] S8192) (n : Fin 8192) (k : Fin (S8192x10532.size 1)) :
    h.lift (ix1 n) k = ix2 n (⟨k.val, k.isLt⟩ : Fin 10532) := by
  funext c; apply Fin.ext
  fin_cases c <;> rfl

/-- A per-row value spread along the row, read at (n, j), is the value of row n. -/
theorem spread_apply (v : FVec Ideal S8192 .f32) (n : Fin 8192) (j : Fin 10532) :
    broadcastInDim S8192x10532 ![0, 1] bcast_S8192x1_S8192x10532_0_1
      (broadcastInDim S8192x1 ![0] bcast_S8192_S8192x1_0 v) (ix2 n j) = v (ix1 n) := by
  refine (broadcastInDim_apply _ _ _ (ix2 n j) (ix2 n (0 : Fin 1)) (fun a => ?_)).trans ?_
  · fin_cases a <;> rfl
  · refine (broadcastInDim_apply _ _ _ (ix2 n (0 : Fin 1)) (ix1 n) (fun a => ?_))
    fin_cases a; rfl

theorem rowMaxVec_apply (L : FVec Ideal S8192x10532 .f32) (n : Fin 8192) :
    rowMaxVec L (ix1 n) = Cert.LogSumExp.rowMax (fun j' => L (ix2 n j')) := by
  have h : S8192x10532.Reduces [1] S8192 := by decide
  unfold rowMaxVec Cert.LogSumExp.rowMax
  rw [maximumf_apply, broadcastInDim_scalar_apply, constant_apply, ofBits_negInf,
    Host.reduce_eq_fold_single (FloatOps.maximumf (F := Ideal) (φ := .f32)) L _
      reducesTo_S8192x10532_S8192_d1 h h_S_, constant_apply, ofBits_negInf]
  have hf : (L ∘ h.lift (ix1 n)) = fun k : Fin 10532 => L (ix2 n k) :=
    funext fun k => congrArg L (lift_row h n k)
  exact congrArg (fun f => max (⊥ : EReal) (Finset.fold max (⊥ : EReal) f (Finset.univ : Finset (Fin 10532)))) hf

theorem shifted_apply (L : FVec Ideal S8192x10532 .f32) (n : Fin 8192) (j : Fin 10532) :
    shifted L (ix2 n j) = L (ix2 n j) - Cert.LogSumExp.rowMax (fun j' => L (ix2 n j')) := by
  unfold shifted
  rw [subf_apply, spread_apply, rowMaxVec_apply]

theorem rowSumVec_apply (L : FVec Ideal S8192x10532 .f32) (n : Fin 8192) :
    rowSumVec L (ix1 n) = Cert.LogSumExp.rowSum (fun j' => L (ix2 n j')) := by
  have h : S8192x10532.Reduces [1] S8192 := by decide
  unfold rowSumVec Cert.LogSumExp.rowSum
  rw [hostReduceAdd_apply, Ideal.hostReduceAdd_single reducesTo_S8192x10532_S8192_d1 h, constant_apply,
    Ideal.ofBits_zero_f32]
  refine congrArg (fun z : EReal => 0 + z) ?_
  refine Finset.sum_congr rfl (fun k _ => ?_)
  rw [lift_row h n k]
  show Ideal.exp (shifted L (ix2 n ⟨k.val, k.isLt⟩)) = _
  rw [shifted_apply]
  rfl

theorem logSoftmax_apply (L : FVec Ideal S8192x10532 .f32) (n : Fin 8192) (j : Fin 10532) :
    logSoftmax L (ix2 n j)
      = (L (ix2 n j) - Cert.LogSumExp.rowMax (fun j' => L (ix2 n j')))
        - Ideal.log (Cert.LogSumExp.rowSum (fun j' => L (ix2 n j'))) := by
  unfold logSoftmax
  rw [subf_apply, shifted_apply]
  refine congrArg (fun z : EReal => (L (ix2 n j) - Cert.LogSumExp.rowMax (fun j' => L (ix2 n j'))) - z) ?_
  refine (broadcastInDim_apply _ _ _ (ix2 n j) (ix2 n (0 : Fin 1)) (fun a => ?_)).trans ?_
  · fin_cases a <;> rfl
  · show Ideal.log (broadcastInDim S8192x1 ![0] bcast_S8192_S8192x1_0 (rowSumVec L) (ix2 n (0 : Fin 1))) = _
    rw [broadcastInDim_apply _ _ _ (ix2 n (0 : Fin 1)) (ix1 n) (fun a => by fin_cases a; rfl), rowSumVec_apply]

/-! ### One column per row -/

/-- The index words with negative ones wrapped around by the row length, one word per row and unit column. -/
def wrapped (idx : IVec S8192x1 32) : IVec S8192x1x1 32 :=
  shapeCast S8192x1x1
    (select (cmpi .slt idx (broadcastInDim S8192x1 ![] bcast_S_S8192x1 (constantI S_ 32 0#32)))
      (addi idx (broadcastInDim S8192x1 ![] bcast_S_S8192x1 (constantI S_ 32 10532#32))) idx)
    shapeCasts_S8192x1_S8192x1x1

/-- The in-bounds test: 0 ≤ word ≤ 10531 as signed words, all of them along the unit axis. -/
def inBounds (i5 : IVec S8192x1x1 32) : IVec S8192x1 1 :=
  Host.reduce IntOp.andi
    (andi (cmpi .sge i5 (broadcastInDim S8192x1x1 ![] bcast_S_S8192x1x1 (constantI S_ 32 0#32)))
      (cmpi .sle i5 (broadcastInDim S8192x1x1 ![0, 1, 2] bcast_S1x1x1_S8192x1x1_0_1_2
        (broadcastInDim S1x1x1 ![2] bcast_S1_S1x1x1_2 (constantI S1 32 10531#32)))))
    (constantI S_ 1 1#1) reducesTo_S8192x1x1_S8192x1_d2 h_S_

/-- Each row's entry at its wrapped index where the index is in bounds, the junk word elsewhere. -/
def takeAlong (P : FVec Ideal S8192x10532 .f32) (idx : IVec S8192x1 32) : FVec Ideal S8192x1 .f32 :=
  select (inBounds (wrapped idx))
    (Host.gather gather_S8192x10532_S8192x1x1_S8192x1_n_1_0_0_1_2_11 P (wrapped idx))
    (broadcastInDim S8192x1 ![] bcast_S_S8192x1 (constant (F := Ideal) S_ .f32 0x7FC00000#32))

/-- A column number below 10532, as a 32-bit word read signed, is itself. -/
theorem toInt_ofNat_col (k : Fin 10532) : (BitVec.ofNat 32 k.val).toInt = (k.val : Int) := by
  have hk := k.isLt
  have hn : (BitVec.ofNat 32 k.val).toNat = k.val := by
    rw [BitVec.toNat_ofNat]; exact Nat.mod_eq_of_lt (by omega)
  rw [BitVec.toInt_eq_toNat_cond, hn]
  rw [if_pos (by omega)]

/-- A non-negative word is not wrapped: the wrapped word of row n is the row's own word. -/
theorem wrapped_apply (idx : IVec S8192x1 32) (n : Fin 8192) (k : Fin 10532)
    (hk : idx (ix2 n 0) = BitVec.ofNat 32 k.val) : wrapped idx (ix3 n 0 0) = BitVec.ofNat 32 k.val := by
  unfold wrapped
  refine (shapeCast_apply _ _ (ix3 n (0 : Fin 1) (0 : Fin 1)) (ix2 n (0 : Fin 1)) ?_).trans ?_
  · rw [Shape.rowMajor_val_two, Shape.rowMajor_val_three]
    show n.val * 1 + 0 = (n.val * 1 + 0) * 1 + 0
    omega
  · rw [select_apply]
    have hc : cmpi .slt idx (broadcastInDim S8192x1 ![] bcast_S_S8192x1 (constantI S_ 32 0#32)) (ix2 n 0) ≠ 1#1 := by
      show IntOp.cmpi .slt (idx (ix2 n 0)) 0#32 ≠ 1#1
      rw [hk, Ne, IntOp.cmpi_slt, toInt_ofNat_col]
      show ¬ ((k.val : Int) < 0)
      omega
    rw [eq_zero_of_ne_one hc, select_zero, hk]

/-- The unit axis put back into (n, 0) gives (n, 0, 0). -/
theorem lift_unit (h : S8192x1x1.Reduces [2] S8192x1) (n : Fin 8192) (c : Fin (S8192x1x1.size 2)) :
    h.lift (ix2 n (0 : Fin 1)) c = ix3 n (0 : Fin 1) (0 : Fin 1) := by
  funext a; apply Fin.ext
  have hc : c.val = 0 := by have := c.isLt; show c.val = 0; change c.val < 1 at this; omega
  fin_cases a
  · rfl
  · rfl
  · show c.val = 0; exact hc

/-- A word between 0 and 10531 passes the in-bounds test. -/
theorem inBounds_apply (i5 : IVec S8192x1x1 32) (n : Fin 8192) (k : Fin 10532)
    (hk : i5 (ix3 n 0 0) = BitVec.ofNat 32 k.val) : inBounds i5 (ix2 n 0) = 1#1 := by
  have h : S8192x1x1.Reduces [2] S8192x1 := by decide
  unfold inBounds
  rw [Host.reduce_eq_fold_single IntOp.andi _ _ reducesTo_S8192x1x1_S8192x1_d2 h h_S_]
  have hone : ∀ c : Fin (S8192x1x1.size 2),
      (andi (cmpi .sge i5 (broadcastInDim S8192x1x1 ![] bcast_S_S8192x1x1 (constantI S_ 32 0#32)))
        (cmpi .sle i5 (broadcastInDim S8192x1x1 ![0, 1, 2] bcast_S1x1x1_S8192x1x1_0_1_2
          (broadcastInDim S1x1x1 ![2] bcast_S1_S1x1x1_2 (constantI S1 32 10531#32)))) ∘ h.lift (ix2 n (0 : Fin 1))) c
        = 1#1 := by
    intro c
    show IntOp.andi (IntOp.cmpi .sge (i5 (h.lift (ix2 n (0 : Fin 1)) c)) 0#32)
      (IntOp.cmpi .sle (i5 (h.lift (ix2 n (0 : Fin 1)) c)) 10531#32) = 1#1
    rw [lift_unit h n c, hk, IntOp.andi_eq_one, IntOp.cmpi_sge, IntOp.cmpi_sle, toInt_ofNat_col]
    have := k.isLt
    constructor
    · show (0 : Int) ≤ (k.val : Int); omega
    · show (k.val : Int) ≤ 10531; omega
  rw [funext hone]
  show Finset.fold IntOp.andi 1#1 (fun _ : Fin 1 => 1#1) Finset.univ = 1#1
  rw [Finset.univ_unique, Finset.fold_singleton]
  rfl

/-- The gather reads, in row n, the column the row's word names, read signed and clamped to the row. -/
theorem gather_row (P : FVec Ideal S8192x10532 .f32) (i5 : IVec S8192x1x1 32) (n : Fin 8192) :
    Host.gather gather_S8192x10532_S8192x1x1_S8192x1_n_1_0_0_1_2_11 P i5 (ix2 n 0)
      = P (ix2 n (⟨min (i5 (ix3 n 0 0)).toInt.toNat 10531, by omega⟩ : Fin 10532)) := by
  unfold Host.gather
  refine congrArg P (funext fun a => Fin.ext ?_)
  show gather_S8192x10532_S8192x1x1_S8192x1_n_1_0_0_1_2_11.start (ix2 n 0) i5 a
    + gather_S8192x10532_S8192x1x1_S8192x1_n_1_0_0_1_2_11.batchCoord (ix2 n 0) a
    + gather_S8192x10532_S8192x1x1_S8192x1_n_1_0_0_1_2_11.offCoord (ix2 n 0) a = _
  fin_cases a
  · have hb : (0 : Fin 2) ∈ gather_S8192x10532_S8192x1x1_S8192x1_n_1_0_0_1_2_11.operandBatchingDims :=
      List.mem_singleton.mpr rfl
    show gather_S8192x10532_S8192x1x1_S8192x1_n_1_0_0_1_2_11.start (ix2 n 0) i5 (0 : Fin 2)
      + gather_S8192x10532_S8192x1x1_S8192x1_n_1_0_0_1_2_11.batchCoord (ix2 n 0) (0 : Fin 2)
      + gather_S8192x10532_S8192x1x1_S8192x1_n_1_0_0_1_2_11.offCoord (ix2 n 0) (0 : Fin 2) = n.val
    rw [GatherDims.start_batching _ _ _ _ hb,
      GatherDims.offCoord_eq_zero _ _ _ (fun hm => ((GatherDims.mem_sKept _ _).mp hm).2 hb),
      Nat.zero_add, Nat.add_zero]
    unfold GatherDims.batchCoord
    rw [dif_pos hb]
    rfl
  · have hb : (1 : Fin 2) ∉ gather_S8192x10532_S8192x1x1_S8192x1_n_1_0_0_1_2_11.operandBatchingDims := by
      intro hm; exact absurd (List.mem_singleton.mp hm) (by decide)
    have hcol : (1 : Fin 2) ∈ gather_S8192x10532_S8192x1x1_S8192x1_n_1_0_0_1_2_11.collapsedSliceDims :=
      List.mem_singleton.mpr rfl
    have hsm : (1 : Fin 2) ∈ gather_S8192x10532_S8192x1x1_S8192x1_n_1_0_0_1_2_11.startIndexMap :=
      List.mem_singleton.mpr rfl
    show gather_S8192x10532_S8192x1x1_S8192x1_n_1_0_0_1_2_11.start (ix2 n 0) i5 (1 : Fin 2)
      + gather_S8192x10532_S8192x1x1_S8192x1_n_1_0_0_1_2_11.batchCoord (ix2 n 0) (1 : Fin 2)
      + gather_S8192x10532_S8192x1x1_S8192x1_n_1_0_0_1_2_11.offCoord (ix2 n 0) (1 : Fin 2)
      = min (i5 (ix3 n 0 0)).toInt.toNat 10531
    rw [GatherDims.batchCoord_eq_zero _ _ _ hb,
      GatherDims.offCoord_eq_zero _ _ _ (fun hm => ((GatherDims.mem_sKept _ _).mp hm).1 hcol),
      Nat.add_zero]
    unfold GatherDims.start
    rw [dif_pos hsm]
    have hsi : gather_S8192x10532_S8192x1x1_S8192x1_n_1_0_0_1_2_11.siIdx (ix2 n (0 : Fin 1))
        ⟨List.idxOf (1 : Fin 2) gather_S8192x10532_S8192x1x1_S8192x1_n_1_0_0_1_2_11.startIndexMap,
          List.idxOf_lt_length_iff.2 hsm⟩ = ix3 n (0 : Fin 1) (0 : Fin 1) := by
      funext b; refine Fin.ext ?_
      match b with
      | ⟨0, _⟩ => rfl
      | ⟨1, _⟩ => rfl
      | ⟨2, _⟩ => rfl
    rw [hsi]
    rfl

theorem takeAlong_apply (P : FVec Ideal S8192x10532 .f32) (idx : IVec S8192x1 32) (n : Fin 8192) (k : Fin 10532)
    (hk : idx (ix2 n 0) = BitVec.ofNat 32 k.val) : takeAlong P idx (ix2 n 0) = P (ix2 n k) := by
  have hw := wrapped_apply idx n k hk
  unfold takeAlong
  rw [select_apply, inBounds_apply (wrapped idx) n k hw, select_one, gather_row]
  refine congrArg (fun c : Fin 10532 => P (ix2 n c)) (Fin.ext ?_)
  show min (wrapped idx (ix3 n 0 0)).toInt.toNat 10531 = k.val
  rw [hw, toInt_ofNat_col]
  have := k.isLt
  omega

end Cert.ReferenceIdeal.Stages

end
-- ==== Proof.RefLogits.lean ====
/-
  The reference's array of logits, read at an entry.

  The reference multiplies the batch of feature rows against each of the two weight tables, contracting the feature
  axis of both operands, lays the two products side by side along the class axis, and multiplies every entry by
  thirty. Entry (n, j) of the result is therefore thirty times the inner product of feature row n with class j's
  weight row: row j of the first table when j < 5532, row j - 5532 of the second otherwise. That is the shared
  definition's logit of row n and class j.
-/
import proofs.«415740_j40690520162428_3_alg».proof.ReferenceIdeal
import proofs.«415740_j40690520162428_3_alg».proof.Proof.RowLoss
import proofs.«415740_j40690520162428_3_alg».proof.Proof.LibTransposedMatmul
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.Stages

open Cert.ReferenceIdeal Idealize.ShloMosaic Idealize.ShloMosaic.ValueIdx
open scoped BigOperators

variable [Cert.ReferenceIdeal.Facts₀]
open Cert.ReferenceIdeal.Facts₀

/-- The logits: the two products side by side, times thirty. -/
def logits (x : FVec Ideal S8192x256 .f32) (lut : FVec Ideal S5532x256 .f32) (cq : FVec Ideal S5000x256 .f32) :
    FVec Ideal S8192x10532 .f32 :=
  mulf
    (concatenate S8192x10532 1
      [⟨S8192x5532, Host.dotGeneral (F := Ideal) dot_S8192x256_S5532x256_S8192x5532_1_1_0_0_n_n none x lut⟩,
        ⟨S8192x5000, Host.dotGeneral (F := Ideal) dot_S8192x256_S5000x256_S8192x5000_1_1_0_0_n_n none x cq⟩]
      concatenates_S8192x5532_S8192x5000_S8192x10532_d1)
    (broadcastInDim S8192x10532 ![] bcast_S_S8192x10532 (constant (F := Ideal) S_ .f32 0x41F00000#32))

/-- The first product's dimension numbers: both operands contracted on their second axis. -/
theorem dot_lut_eq : dot_S8192x256_S5532x256_S8192x5532_1_1_0_0_n_n = DotDims.transposedRhs 8192 256 5532 := rfl

/-- The second product's dimension numbers: the same. -/
theorem dot_cq_eq : dot_S8192x256_S5000x256_S8192x5000_1_1_0_0_n_n = DotDims.transposedRhs 8192 256 5000 := rfl

/-- Entry (n, q) of the first product: the inner product of feature row n with row q of the first table. -/
theorem dot_lut_apply (x : FVec Ideal S8192x256 .f32) (lut : FVec Ideal S5532x256 .f32) (n : Fin 8192) (q : Fin 5532) :
    Host.dotGeneral (F := Ideal) dot_S8192x256_S5532x256_S8192x5532_1_1_0_0_n_n none x lut (ix2 n q)
      = ∑ f : Fin 256, x (ix2 n f) * lut (ix2 q f) := by
  rw [dot_lut_eq]
  exact (Ideal.dotGeneral_apply _ none .single x lut (ix2 n q)).trans (Cert.LibTransposedMatmul.sum_transposed x lut n q)

/-- Entry (n, q) of the second product: the inner product of feature row n with row q of the second table. -/
theorem dot_cq_apply (x : FVec Ideal S8192x256 .f32) (cq : FVec Ideal S5000x256 .f32) (n : Fin 8192) (q : Fin 5000) :
    Host.dotGeneral (F := Ideal) dot_S8192x256_S5000x256_S8192x5000_1_1_0_0_n_n none x cq (ix2 n q)
      = ∑ f : Fin 256, x (ix2 n f) * cq (ix2 q f) := by
  rw [dot_cq_eq]
  exact (Ideal.dotGeneral_apply _ none .single x cq (ix2 n q)).trans (Cert.LibTransposedMatmul.sum_transposed x cq n q)

/-- Two arrays side by side along the class axis, read at column j: the first at (n, j) below 5532, the second at
    (n, j - 5532) from there on. -/
theorem sideBySide_apply (A : FVec Ideal S8192x5532 .f32) (B : FVec Ideal S8192x5000 .f32) (n : Fin 8192) (j : Fin 10532) :
    concatenate S8192x10532 1 [⟨S8192x5532, A⟩, ⟨S8192x5000, B⟩] concatenates_S8192x5532_S8192x5000_S8192x10532_d1 (ix2 n j)
      = if h : j.val < 5532 then A (ix2 n (⟨j.val, h⟩ : Fin 5532))
        else B (ix2 n (⟨j.val - 5532, by have := j.isLt; omega⟩ : Fin 5000)) := by
  by_cases h : j.val < 5532
  · rw [dif_pos h]
    exact concatenate_pair_apply_left (1 : Fin 2) A B _ (ix2 n j) rfl (ix2 n (⟨j.val, h⟩ : Fin 5532))
      (fun b => by match b with | ⟨0, _⟩ => rfl | ⟨1, _⟩ => rfl)
  · rw [dif_neg h]
    exact concatenate_pair_apply_right (1 : Fin 2) A B _ (ix2 n j) rfl rfl
      (ix2 n (⟨j.val - 5532, by have := j.isLt; omega⟩ : Fin 5000))
      (fun b hb => by match b, hb with | ⟨0, _⟩, _ => rfl | ⟨1, _⟩, hb => exact absurd rfl hb)
      (by show (j.val - 5532) + 5532 = j.val; omega)

/-- Entry (n, j) of the logits is the logit of row n and class j. -/
theorem logits_apply (x : FVec Ideal S8192x256 .f32) (lut : FVec Ideal S5532x256 .f32) (cq : FVec Ideal S5000x256 .f32)
    (n : Fin 8192) (j : Fin 10532) : logits x lut cq (ix2 n j) = Cert.RowLoss.logit x lut cq n j := by
  unfold logits Cert.RowLoss.logit
  refine (mulf_apply _ _ (ix2 n j)).trans ?_
  refine congrArg₂ (· * ·) ?_ (broadcastInDim_scalar_apply _ _ _)
  refine (sideBySide_apply _ _ n j).trans ?_
  by_cases h : j.val < 5532
  · rw [dif_pos h]
    refine (dot_lut_apply x lut n ⟨j.val, h⟩).trans (Finset.sum_congr rfl fun f _ => ?_)
    unfold Cert.RowLoss.weight
    rw [dif_pos h]
  · rw [dif_neg h]
    refine (dot_cq_apply x cq n ⟨j.val - 5532, by have := j.isLt; omega⟩).trans (Finset.sum_congr rfl fun f _ => ?_)
    unfold Cert.RowLoss.weight
    rw [dif_neg h]

end Cert.ReferenceIdeal.Stages

end
-- ==== Proof.RefLabels.lean ====
/-
  The label words and the validity mask of the reference, read row by row.

  The reference subtracts one from every target (as 32-bit words): the label words. Their broadcast to a column is
  the index array of the column pick; the mask is "label word ≠ 5554". For a target between 1 and 10532 the
  subtraction does not wrap, so the label word is the label's number.
-/
import proofs.«415740_j40690520162428_3_alg».proof.ReferenceIdeal
import proofs.«415740_j40690520162428_3_alg».proof.Proof.RowLoss
import proofs.«415740_j40690520162428_3_alg».proof.Proof.Admitted
import Idealize.ShloMosaic.Lib.ValueIdx
import Idealize.ShloMosaic.Lib.Pipeline.Value
import Idealize.ShloMosaic.Lib.StableHlo.Predicate

noncomputable section

namespace Cert.ReferenceIdeal.Stages

open Cert.ReferenceIdeal Idealize.ShloMosaic Idealize.ShloMosaic.ValueIdx

variable [Cert.ReferenceIdeal.Facts₀]
open Cert.ReferenceIdeal.Facts₀

/-- The label words: every target minus one. -/
def labelWords (tg : IVec S8192 32) : IVec S8192 32 :=
  subi tg (broadcastInDim S8192 ![] bcast_S_S8192 (constantI S_ 32 1#32))

/-- The label words as one column. -/
def labelCol (tg : IVec S8192 32) : IVec S8192x1 32 :=
  broadcastInDim S8192x1 ![0] bcast_S8192_S8192x1_0 (labelWords tg)

/-- The mask: the label word differs from 5554. -/
def maskVec (tg : IVec S8192 32) : IVec S8192 1 :=
  cmpi .ne (labelWords tg) (broadcastInDim S8192 ![] bcast_S_S8192 (constantI S_ 32 5554#32))

/-- Row i's label word is its target minus one. -/
theorem labelWords_apply (tg : IVec S8192 32) (i : S8192.Idx) : labelWords tg i = tg i - 1#32 := rfl

/-- The mask is 0 exactly on the rows whose label word is 5554. -/
theorem maskVec_eq (tg : IVec S8192 32) : maskVec tg = Cert.RowLoss.valid tg := by
  funext i
  show BitVec.ofBool (tg i - 1#32 != 5554#32) = if tg i - 1#32 = 5554#32 then 0#1 else 1#1
  by_cases h : tg i - 1#32 = 5554#32
  · rw [if_pos h, h]; rfl
  · rw [if_neg h]
    exact (StableHlo.Predicate.ofBool_eq_one_iff _).2 (bne_iff_ne.2 h)

/-- The column at row n is row n's label word. -/
theorem labelCol_row (tg : IVec S8192 32) (n : Fin 8192) : labelCol tg (ix2 n 0) = tg (ix1 n) - 1#32 := by
  unfold labelCol
  refine (broadcastInDim_apply ![0] bcast_S8192_S8192x1_0 (labelWords tg) (ix2 n 0) (ix1 n) fun a => ?_).trans rfl
  match a with
  | ⟨0, _⟩ =>
    show n.val = if (8192 : ℕ) = 1 then 0 else n.val
    rw [if_neg (by decide)]

/-- For a target between 1 and 10532 the column at row n is the label's number as a word. -/
theorem labelCol_apply (tg : IVec S8192 32) (n : Fin 8192) (h1 : 1 ≤ (tg (ix1 n)).toInt) (h2 : (tg (ix1 n)).toInt ≤ 10532) :
    labelCol tg (ix2 n 0) = BitVec.ofNat 32 (Cert.RowLoss.label tg n).val := by
  have hl := (Cert.Admitted.label_word (tg := tg) n h1 h2).2
  refine (labelCol_row tg n).trans (BitVec.eq_of_toNat_eq ?_)
  rw [BitVec.toNat_ofNat, ← hl]
  exact (Nat.mod_eq_of_lt (tg (ix1 n) - 1#32).isLt).symm

end Cert.ReferenceIdeal.Stages

end
-- ==== Proof.RefValue.lean ====
/-
  The reference's result is the loss.

  The reference's result, as a term of its four argument arrays, is built from stages: the labels, the logits, the
  row-wise log-probabilities, each row's log-probability at its label negated, the validity mask, and the mean over
  the valid rows. The last stage is, operation for operation, the shared mean over valid rows. The mask is the shared
  definition's mask. And on admitted inputs each row's value is the shared definition's negative log-probability:
  row n's label word is the label's number, so the column pick reads the log-probability at the label; that entry
  is the logit at the label minus the row's maximum minus the logarithm of the row's sum of shifted exponentials,
  over the row of logits of the shared definition; negated, this is the row's negative log-probability.
-/
import proofs.«415740_j40690520162428_3_alg».proof.Proof.RefTerm
import proofs.«415740_j40690520162428_3_alg».proof.Proof.RefStages
import proofs.«415740_j40690520162428_3_alg».proof.Proof.RefLogits
import proofs.«415740_j40690520162428_3_alg».proof.Proof.RefLabels
import proofs.«415740_j40690520162428_3_alg».proof.Proof.RowLoss
import proofs.«415740_j40690520162428_3_alg».proof.Proof.Admitted
import Idealize.ShloMosaic.Lib.ValueIdx
import Idealize.ShloMosaic.Lib.Pipeline.Value

noncomputable section

namespace Cert.ReferenceIdeal.Hand

open Cert.ReferenceIdeal Cert.ReferenceIdeal.Gen Idealize.ShloMosaic Idealize.ShloMosaic.ValueIdx
open scoped BigOperators

/-! ## The stages are the ones already read at an index -/

/-- The last stage is the shared mean over the valid rows: the same operations in the same order. -/
theorem tailOf_eq (mk : IVec S8192 1) (nv : FVec Ideal S8192 .f32) :
    tailOf (F := Ideal) mk nv = Cert.Loss.meanOverValid bcast_S_S8192 reducesTo_S8192_S_d0 h_S_ mk nv := rfl

/-- The mask is the shared definition's: zero exactly where the label word is 5554. -/
theorem mask_eq (tg : IVec S8192 32) : maskOf (labelIdx tg) = Cert.RowLoss.valid tg :=
  (rfl : maskOf (labelIdx tg) = Stages.maskVec tg).trans (Stages.maskVec_eq tg)

/-- The logits are the two products side by side, times thirty. -/
theorem logits_eq (x : FVec Ideal S8192x256 .f32) (lut : FVec Ideal S5532x256 .f32) (cq : FVec Ideal S5000x256 .f32) :
    logits (F := Ideal) x lut cq = Stages.logits x lut cq := rfl

/-- The log-probabilities are each row minus its maximum minus the logarithm of its sum of shifted exponentials. -/
theorem logProb_eq (L : FVec Ideal S8192x10532 .f32) : logProb (F := Ideal) L = Stages.logSoftmax L := rfl

/-- The gathered column is the pick of one column per row at the label words. -/
theorem taken_eq (lp : FVec Ideal S8192x10532 .f32) (tg : IVec S8192 32) :
    taken (F := Ideal) lp (wrapIdx (labelIdx tg)) = Stages.takeAlong lp (Stages.labelCol tg) := rfl

/-! ## One row -/

/-- A column of 8192 entries read as a vector: entry n of the vector is entry (n, 0) of the column, the two having
    the same row-major position. -/
theorem column_cast (out : S8192x1.Idx → EReal) (n : Fin 8192) :
    shapeCast S8192 out shapeCasts_S8192x1_S8192 (ix1 n) = out (ix2 n 0) := by
  refine shapeCast_apply out shapeCasts_S8192x1_S8192 (ix1 n) (ix2 n 0) ?_
  rw [Shape.rowMajor_val_two, Shape.rowMajor_val_one]
  show n.val * 1 + 0 = n.val
  omega

/-- For a target between 1 and 10532, row n's value is minus the array's entry at (n, label of n). -/
theorem negTaken_apply (lp : FVec Ideal S8192x10532 .f32) (tg : IVec S8192 32) (n : Fin 8192)
    (h1 : 1 ≤ (tg (ix1 n)).toInt) (h2 : (tg (ix1 n)).toInt ≤ 10532) :
    negTaken (F := Ideal) lp (labelIdx tg) (ix1 n) = -(lp (ix2 n (Cert.RowLoss.label tg n))) := by
  unfold negTaken
  show -(shapeCast S8192 (taken (F := Ideal) lp (wrapIdx (labelIdx tg))) shapeCasts_S8192x1_S8192 (ix1 n)) = _
  exact congrArg (fun z : EReal => -z) ((column_cast _ n).trans ((congrFun (taken_eq lp tg) (ix2 n 0)).trans
    (Stages.takeAlong_apply lp (Stages.labelCol tg) n (Cert.RowLoss.label tg n) (Stages.labelCol_apply tg n h1 h2))))

/-- Entry (n, j) of the log-probabilities of the logits: the logit of row n and class j, minus the maximum of row n's
    logits, minus the logarithm of the row's sum of shifted exponentials. -/
theorem logProb_logits_apply (x : FVec Ideal S8192x256 .f32) (lut : FVec Ideal S5532x256 .f32) (cq : FVec Ideal S5000x256 .f32)
    (n : Fin 8192) (j : Fin 10532) :
    logProb (F := Ideal) (logits (F := Ideal) x lut cq) (ix2 n j)
      = (Cert.RowLoss.logit x lut cq n j - Cert.LogSumExp.rowMax (fun j' => Cert.RowLoss.logit x lut cq n j'))
        - Ideal.log (Cert.LogSumExp.rowSum (fun j' => Cert.RowLoss.logit x lut cq n j')) := by
  have hrow : (fun j' : Fin 10532 => Stages.logits x lut cq (ix2 n j')) = fun j' => Cert.RowLoss.logit x lut cq n j' :=
    funext fun j' => Stages.logits_apply x lut cq n j'
  refine (congrFun (logProb_eq (logits (F := Ideal) x lut cq)) (ix2 n j)).trans ?_
  refine (congrArg (fun L => Stages.logSoftmax L (ix2 n j)) (logits_eq x lut cq)).trans ?_
  refine (Stages.logSoftmax_apply (Stages.logits x lut cq) n j).trans ?_
  rw [hrow, Stages.logits_apply]

/-- On admitted inputs the per-row values are the shared definition's negative log-probabilities. -/
theorem negTaken_eq (x : FVec Ideal S8192x256 .f32) (tg : IVec S8192 32) (lut : FVec Ideal S5532x256 .f32)
    (cq : FVec Ideal S5000x256 .f32) (h : Cert.RowLoss.Admitted x tg lut cq) :
    negTaken (F := Ideal) (logProb (F := Ideal) (logits (F := Ideal) x lut cq)) (labelIdx tg) = Cert.RowLoss.nll x tg lut cq := by
  funext i
  obtain ⟨n, rfl⟩ : ∃ n, i = ix1 n := ⟨i 0, eq_ix1 i⟩
  refine (negTaken_apply _ tg n (h.target_range n).1 (h.target_range n).2).trans ?_
  rw [logProb_logits_apply]
  rfl

/-! ## The result -/

/-- On admitted inputs the reference's result is the loss. -/
theorem res_eq (x : FVec Ideal S8192x256 .f32) (tg : IVec S8192 32) (lut : FVec Ideal S5532x256 .f32)
    (cq : FVec Ideal S5000x256 .f32) (h : Cert.RowLoss.Admitted x tg lut cq) :
    res (F := Ideal) x tg lut cq = Cert.RowLoss.loss bcast_S_S8192 reducesTo_S8192_S_d0 h_S_ x tg lut cq := by
  unfold res Cert.RowLoss.loss
  refine (tailOf_eq _ _).trans ?_
  exact congrArg₂ (Cert.Loss.meanOverValid bcast_S_S8192 reducesTo_S8192_S_d0 h_S_) (mask_eq tg) (negTaken_eq x tg lut cq h)

end Cert.ReferenceIdeal.Hand

end
-- ==== Proof.lean ====
/-
  The certificate of the row-wise softmax cross-entropy loss against a class table kept in two pieces.

  The kernel program walks each tile of 1024 rows over six tiles of 1792 classes, keeping per row a running maximum
  and a running sum of exponentials of the logits (thirty times the inner products of the row with the class rows),
  masks the 220 padded classes of the last tile with -∞, and leaves per row (maximum + log sum) minus the logit of
  the row's label; the host then averages over the valid rows. The reference forms all 10532 logits of a row at
  once, takes log-softmax, picks the label's entry, negates, and averages the same way. Over the extended reals the
  two per-row values agree (LogSumExp.lean) for real inputs and labels in range, the validity masks agree there, and
  the averaging is one function of (mask, per-row values) (LossTail.lean): both programs end at RowLoss.loss of the
  arguments.

  The three frames: each kernel program's run through its pipeline (IdealFrame.lean for the idealized program,
  BitsFrame.lean for the word-level one: the same argument at the other instance), and the reference's run of its
  host operations (RefRun.lean). The idealization named one constant: the finite mask fill is -∞ at the ideal
  instance.
-/
import proofs.«415740_j40690520162428_3_alg».proof.Defs
import proofs.«415740_j40690520162428_3_alg».proof.Proof.Gen.Kernel
import proofs.«415740_j40690520162428_3_alg».proof.Proof.Gen.KernelIdeal
import proofs.«415740_j40690520162428_3_alg».proof.Proof.Gen.ReferenceIdeal
import proofs.«415740_j40690520162428_3_alg».proof.Proof.Gen.Pre_finite_inputs
import proofs.«415740_j40690520162428_3_alg».proof.Proof.BitsFrame
import proofs.«415740_j40690520162428_3_alg».proof.Proof.IdealFrame
import proofs.«415740_j40690520162428_3_alg».proof.Proof.KernelLoss
import proofs.«415740_j40690520162428_3_alg».proof.Proof.RefRun
import proofs.«415740_j40690520162428_3_alg».proof.Proof.RefValue
import proofs.«415740_j40690520162428_3_alg».proof.Proof.Admitted
import proofs.«415740_j40690520162428_3_alg».proof.Proof.RowLoss
import Idealize.ShloMosaic.PureOps.IdealRules

noncomputable section

namespace Cert.Proof

open Idealize.ShloMosaic Idealize.SL.Sem

/-- The word-level kernel program runs and leaves its arguments as they were. -/
theorem frame_kernel : @Cert.frame_Kernel Cert.Kernel.Gen.facts Cert.Pre_finite_inputs.Gen.facts :=
  fun m ρ _ => Cert.Kernel.Hand.frame m ρ

/-- So does the idealized one. -/
theorem frame_kernelIdeal : @Cert.frame_KernelIdeal Cert.KernelIdeal.Gen.facts Cert.Pre_finite_inputs.Gen.facts :=
  fun m ρ _ => Cert.KernelIdeal.Hand.frame m ρ

/-- The reference's run, its result forgotten. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Hand.run (F := Ideal) m ρ)

/-- The one rewrite of the idealization: the mask fill's word denotes -∞ at the ideal instance, by the table. -/
theorem preserves : Cert.preserves_Kernel_KernelIdeal :=
  IdealRules.named_const.statement Cert.KernelIdeal.κ "neg_big" .f32 0xFF333332#32 ⊥ rfl

/-- From memories agreeing on the arguments both idealized programs end at the loss of those arguments. -/
theorem algebraic : @Cert.algebraic_KernelIdeal_ReferenceIdeal Cert.KernelIdeal.Gen.facts Cert.ReferenceIdeal.Gen.facts Cert.Pre_finite_inputs.Gen.facts := by
  intro m ρ m' ρ' hpre hagree
  have hadm : ∀ c, Cert.RowLoss.Admitted _ _ _ _ := fun c => Cert.Admitted.of_pre _ _ _ _ _ (hpre c)
  refine ⟨_, Cert.KernelIdeal.Hand.run_loss m ρ hadm, ?_⟩
  have hadm' : ∀ c, Cert.RowLoss.Admitted _ _ _ _ := fun c => by
    have h := hadm c
    rw [← (hagree c).1, ← (hagree c).2.1, ← (hagree c).2.2.2.1, ← (hagree c).2.2.2.2] at h
    exact h
  refine (θ_run Cert.ReferenceIdeal.defs _ _).mono (fun _ h c => ⟨(h c).1.trans ?_, (h c).2⟩)
    (Cert.ReferenceIdeal.Hand.run (F := Ideal) m' ρ')
  rw [Cert.ReferenceIdeal.Hand.res_eq _ _ _ _ (hadm' c), (hagree c).1, (hagree c).2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
